-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S10x10 : Shape := ⟨2, ![10, 10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_

variable [Facts]

def fn_part2 {F : FTy → Type} [FloatOps F] (main_arg10 : FVec F S10x10 .f32) (main_arg11 : FVec F S10 .f32) (main_v33 : IVec S_ 1) : IVec S_ 1 :=
  let main_v34 : FVec F S10x10 .f32 := Host.absf main_arg10
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg7 : FVec F S64 .f32) (main_arg8 : FVec F S64x10 .f32) (main_arg9 : FVec F S10 .f32) (main_arg10 : FVec F S10x10 .f32) (main_arg11 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg8
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x64 .f32) (main_arg7 : FVec F S64 .f32) (main_arg8 : FVec F S64x10 .f32) (main_arg9 : FVec F S10 .f32) (main_arg10 : FVec F S10x10 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S10x10 : Shape := ⟨2, ![10, 10]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1x128 : Shape := ⟨2, ![1, 128]⟩
abbrev S1600000x64 : Shape := ⟨2, ![1600000, 64]⟩
abbrev S64x128 : Shape := ⟨2, ![64, 128]⟩
abbrev S1x64 : Shape := ⟨2, ![1, 64]⟩
abbrev S128x10 : Shape := ⟨2, ![128, 10]⟩
abbrev S1x10 : Shape := ⟨2, ![1, 10]⟩
abbrev S128x1 : Shape := ⟨2, ![128, 1]⟩

abbrev nBuf : Space → Nat
  | .hbm => 85
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S100000x1, .i32⟩
  | .hbm, ⟨73, _⟩ => ⟨S64x128, .f32⟩
  | .hbm, ⟨74, _⟩ => ⟨S1x128, .f32⟩
  | .hbm, ⟨75, _⟩ => ⟨S128, .f32⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S64x128, .f32⟩
  | .hbm, ⟨82, _⟩ => ⟨S64x128, .f32⟩
  | .hbm, ⟨83, _⟩ => ⟨S128x64, .f32⟩
  | .hbm, ⟨84, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S128x64, .f32⟩
  | .local _ .vmem, ⟨5, _⟩ => ⟨S10000x1, .f32⟩
  | .local _ .vmem, ⟨6, _⟩ => ⟨S10000x1, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S10000x1, .f32⟩
  | .local _ .vmem, ⟨15, _⟩ => ⟨S10000x1, .f32⟩
  | .local _ .vmem, ⟨16, _⟩ => ⟨S10000x1, .i32⟩
  | .local _ .vmem, ⟨17, _⟩ => ⟨S10000x1, .i32⟩
  | .local _ .vmem, ⟨18, _⟩ => ⟨S64x128, .f32⟩
  | .local _ .vmem, ⟨19, _⟩ => ⟨S1x128, .f32⟩
  | .local _ .vmem, ⟨20, _⟩ => ⟨S128x64, .f32⟩
  | .local _ .vmem, ⟨21, _⟩ => ⟨S64x10, .f32⟩
  | .local _ .vmem, ⟨22, _⟩ => ⟨S10, .f32⟩
  | .local _ .vmem, ⟨23, _⟩ => ⟨S10x10, .f32⟩
  | .local _ .vmem, ⟨24, _⟩ => ⟨S10, .f32⟩
  | .local _ .vmem, ⟨25, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_v45 : Ref sig .tc := ⟨.hbm, 75, rfl⟩
abbrev main_cst_11 : Ref sig .tc := ⟨.hbm, 76, rfl⟩
abbrev main_call2_v0 : Ref sig .tc := ⟨.hbm, 77, rfl⟩
abbrev main_call2_v1 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S10000x64_S10000x64 : S10000x64.ShapeCasts S10000x64
  broadcasts_S10000x1_S10000x64 : S10000x1.Broadcasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  iota_S10000x128_d1_w32 : S10000x128.Iotas .tc 32 [1]
  natLt_1_32 : 1 < 32
  shapeCasts_S64x128_S64x128 : S64x128.ShapeCasts S64x128
  shapeCasts_S1x128_S1x128 : S1x128.ShapeCasts S1x128
  reduces_S10000x128_S128 : S10000x128.Reduces [0] S128
  shapeCasts_S1x128_S128 : S1x128.ShapeCasts S128
  bcast_S_S128 : S_.BroadcastsInDim S128 (![] : Fin 0 → Fin S128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  transposes_S64x128_S128x64_1_0 : S64x128.Transposes [1, 0] S128x64
  shapeCasts_S128x64_S128x64 : S128x64.ShapeCasts S128x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  inb_S10x10_S10x10_0_0 : ∀ a, (![0, 0] : Fin 2 → Nat) a + S10x10.size a ≤ S10x10.size a
  h_S10x10 : 0 < S10x10.numel
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S10000x128_S64x128_0_0_1_1_n_n_wf : DotDims.WF S10000x64 S10000x128 S64x128 [0] [0] [1] [1] [] []
  dot_S128x64_S64x10_S128x10_1_0_0_1_n_n_wf : DotDims.WF S128x64 S64x10 S128x10 [1] [0] [0] [1] [] []
  dot_S128x10_S10x10_S128x10_1_0_0_1_n_n_wf : DotDims.WF S128x10 S10x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S100000x1.size a
  hwx0_5 : ∀ i : grid0.Coords, EltTy.bits .f32 = 32 ∨ (Rect.block (s := S100000x1) S10000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .i32 = 32 ∨ (Rect.block (s := S100000x1) S10000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S128x64.size a
  hwx2_0 : ∀ i : grid2.Coords, EltTy.bits .f32 = 32 ∨ (Rect.block (s := S128x64) S128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x10.size a ≤ S10x10.size a
  hwx2_3 : ∀ i : grid2.Coords, EltTy.bits .f32 = 32 ∨ (Rect.block (s := S10x10) S10x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10.size a ≤ S10.size a
  hwx2_4 : ∀ i : grid2.Coords, EltTy.bits .f32 = 32 ∨ (Rect.block (s := S10) S10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x10.size a ≤ S128x10.size a
  hwx2_5 : ∀ i : grid2.Coords, EltTy.bits .f32 = 32 ∨ (Rect.block (s := S128x10) S128x10.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf
def dot_S128x10_S10x10_S128x10_1_0_0_1_n_n : DotDims S128x10 S10x10 S128x10 where
  lhsContracting := [1]
  rhsContracting := [0]
  lhsNonContracting := [0]
  rhsNonContracting := [1]
  lhsBatch := []
  rhsBatch := []
  wf := dot_S128x10_S10x10_S128x10_1_0_0_1_n_n_wf

abbrev win0_0 : Pipeline.Window sig grid0 :=
  Pipeline.Window.ofSpec (Memref.whole main_v31) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S10000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S64x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S128x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S10x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S128x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S10x10 : Shape := ⟨2, ![10, 10]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S128x1 : Shape := ⟨2, ![128, 1]⟩
abbrev S128x10 : Shape := ⟨2, ![128, 10]⟩
abbrev S1x10 : Shape := ⟨2, ![1, 10]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x64, .f32⟩
  | 7 => ⟨S64, .f32⟩
  | 8 => ⟨S64x10, .f32⟩
  | 9 => ⟨S10, .f32⟩
  | 10 => ⟨S10x10, .f32⟩
  | 11 => ⟨S10, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000, .f32⟩
  | 48 => ⟨S100000x1, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000, .f32⟩
  | 94 => ⟨S100000x1, .f32⟩
  | 95 => ⟨S100000x128, .f32⟩
  | 96 => ⟨S100000x128, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S128x64, .f32⟩
  | 106 => ⟨S100000x1, .i32⟩
  | 107 => ⟨S128x64, .f32⟩
  | 108 => ⟨S_, .f32⟩
  | 109 => ⟨S100000, .f32⟩
  | 110 => ⟨S_, .f32⟩
  | 111 => ⟨S128, .f32⟩
  | 112 => ⟨S100000x1, .i32⟩
  | 113 => ⟨S128, .f32⟩
  | 114 => ⟨S_, .f32⟩
  | 115 => ⟨S_, .f32⟩
  | 116 => ⟨S128, .f32⟩
  | 117 => ⟨S128, .f32⟩
  | 118 => ⟨S128x1, .f32⟩
  | 119 => ⟨S128x64, .f32⟩
  | 120 => ⟨S128x64, .f32⟩
  | 121 => ⟨S128x10, .f32⟩
  | 122 => ⟨S1x10, .f32⟩
  | 123 => ⟨S128x10, .f32⟩
  | 124 => ⟨S128x10, .f32⟩
  | 125 => ⟨S_, .f32⟩
  | 126 => ⟨S128x10, .f32⟩
  | 127 => ⟨S128x10, .f32⟩
  | _ => ⟨S100000x128, .f32⟩

abbrev hbmTy0_1 (i : Nat) : BufTy := match i % 128 with
  | 0 => ⟨S128x10, .f32⟩
  | 1 => ⟨S1x10, .f32⟩
  | 2 => ⟨S128x10, .f32⟩
  | 3 => ⟨S128x10, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x10, .f32⟩
  | 11 => ⟨S128x10, .f32⟩
  | 12 => ⟨S128x10, .f32⟩
  | 13 => ⟨S_, .f32⟩
  | 14 => ⟨S128, .f32⟩
  | 15 => ⟨S128x1, .f32⟩
  | 16 => ⟨S128x10, .f32⟩
  | 17 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call2_cst : Ref sig .tc := ⟨.hbm, 55, rfl⟩
abbrev main_call2_v0 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_call3_v0 : Ref sig .tc := ⟨.hbm, 65, rfl⟩
abbrev main_call3_v1 : Ref sig .tc := ⟨.hbm, 66, rfl⟩
abbrev main_v36 : Ref sig .tc := ⟨.hbm, 67, rfl⟩
abbrev main_cst_9 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_10 : Ref sig .tc := ⟨.hbm, 72, rfl⟩
abbrev main_call4_v0 : Ref sig .tc := ⟨.hbm, 73, rfl⟩
abbrev main_call4_v1 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_c_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_13 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call5_cst : Ref sig .tc := ⟨.hbm, 101, rfl⟩
abbrev main_call5_v0 : Ref sig .tc := ⟨.hbm, 102, rfl⟩
abbrev main_v63 : Ref sig .tc := ⟨.hbm, 103, rfl⟩
abbrev main_cst_14 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_15 : Ref sig .tc := ⟨.hbm, 108, rfl⟩
abbrev main_v67 : Ref sig .tc := ⟨.hbm, 109, rfl⟩
abbrev main_cst_16 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_17 : Ref sig .tc := ⟨.hbm, 114, rfl⟩
abbrev main_call6_v0 : Ref sig .tc := ⟨.hbm, 115, rfl⟩
abbrev main_call6_v1 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call7_cst : Ref sig .tc := ⟨.hbm, 125, rfl⟩
abbrev main_call7_v0 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_18 : Ref sig .tc := ⟨.hbm, 132, rfl⟩
abbrev main_v84 : Ref sig .tc := ⟨.hbm, 133, rfl⟩
abbrev main_cst_19 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_20 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  bcast_S_S128x10 : S_.BroadcastsInDim S128x10 (![] : Fin 0 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  dot_S128x10_S10x10_S128x10_1_0_0_1_n_n_wf : DotDims.WF S128x10 S10x10 S128x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf
def dot_S128x10_S10x10_S128x10_1_0_0_1_n_n : DotDims S128x10 S10x10 S128x10 where
  lhsContracting := [1]
  rhsContracting := [0]
  lhsNonContracting := [0]
  rhsNonContracting := [1]
  lhsBatch := []
  rhsBatch := []
  wf := dot_S128x10_S10x10_S128x10_1_0_0_1_n_n_wf

class Facts : Prop extends Facts₀ where

variable [Facts]
-- ==== Proof.KTerms.lean ====
/-
  The kernel program's host-side arithmetic between its three calls, each stretch as one function of what it reads:
  the clipped degrees, the first edge sum (rows gathered by source, scaled, scattered by destination), the second
  edge sum (the projected rows gathered and scattered, unscaled), and the per-graph mean from the third call's inputs.
-/
import proofs.«411394_j16045997818200_2_alg».proof.Proof.Gen.KernelIdeal

noncomputable section

namespace Cert.KernelIdeal.KT

open Cert.KernelIdeal Cert.KernelIdeal.Facts₀ Cert.KernelIdeal.Facts Idealize.ShloMosaic

variable {F : FTy → Type} [FloatOps F]

/-- A float array of a shape, and a 32-bit integer array. -/
abbrev Ff (s : Shape) : Type := (⟨s, .f32⟩ : BufTy).Contents (Elt F)
abbrev Fi (s : Shape) : Type := (⟨s, .i32⟩ : BufTy).Contents (Elt F)

/-- The clipped degree of every node: how many entries of `idx` name it, at least one. -/
def deg (idx : Fi (F := F) S1600000) : Ff (F := F) S100000 :=
  maximumf (broadcastInDim S100000 ![] bcast_S_S100000 (constant S_ .f32 0x3F800000#32 : Ff (F := F) S_))
    (Host.scatterAdd scatter_S100000_S1600000x1_S1600000_n_0_0_1
      (broadcastInDim S100000 ![] bcast_S_S100000 (constant S_ .f32 0x00000000#32 : Ff (F := F) S_))
      (broadcastInDim S1600000x1 ![0] bcast_S1600000_S1600000x1_0 idx)
      (broadcastInDim S1600000 ![] bcast_S_S1600000 (constant S_ .f32 0x3F800000#32 : Ff (F := F) S_)))

/-- A vector kept as a one-column array. -/
def colOf (d : Ff (F := F) S100000) : Ff (F := F) S100000x1 := shapeCast S100000x1 d shapeCasts_S100000_S100000x1
def colOfI (d : Fi (F := F) S100000) : Fi (F := F) S100000x1 := shapeCast S100000x1 d shapeCasts_S100000_S100000x1

/-- The source indices as the gathers read them: negative ones wrapped by 100000, as a one-column table. -/
def srcTab (x1 : Fi (F := F) S1600000) : Fi (F := F) S1600000x1 :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- The destination indices as the scatters read them. -/
def dstTab (x2 : Fi (F := F) S1600000) : Fi (F := F) S1600000x1 :=
  broadcastInDim S1600000x1 ![0] bcast_S1600000_S1600000x1_0 x2

/-- The first edge sum: the feature rows gathered by source, each scaled by the gathered inverse root of the
    source's out-degree, added into the destination rows. -/
def raw1 (x0 : Ff (F := F) S100000x128) (x1 x2 : Fi (F := F) S1600000) (dO : Ff (F := F) S100000) : Ff (F := F) S100000x128 :=
  Host.scatterAdd scatter_S100000x128_S1600000x1_S1600000x128_1_0_0_1
    (broadcastInDim S100000x128 ![] bcast_S_S100000x128 (constant S_ .f32 0x00000000#32 : Ff (F := F) S_))
    (dstTab x2)
    (mulf (Host.gather gather_S100000x128_S1600000x1_S1600000x128_1_0_n_n_0_1_1128 x0 (srcTab x1))
      (broadcastInDim S1600000x128 ![0, 1] bcast_S1600000x1_S1600000x128_0_1
        (broadcastInDim S1600000x1 ![0] bcast_S1600000_S1600000x1_0
          (Host.gather gather_S100000_S1600000x1_S1600000_n_0_n_n_0_1_1 (Host.rsqrt dO) (srcTab x1)))))

/-- The second edge sum: the first call's rows gathered by source, added into the destination rows. -/
def raw2 (y2 : Ff (F := F) S100000x64) (x1 x2 : Fi (F := F) S1600000) : Ff (F := F) S100000x64 :=
  Host.scatterAdd scatter_S100000x64_S1600000x1_S1600000x64_1_0_0_1
    (broadcastInDim S100000x64 ![] bcast_S_S100000x64 (constant S_ .f32 0x00000000#32 : Ff (F := F) S_))
    (dstTab x2)
    (Host.gather gather_S100000x64_S1600000x1_S1600000x64_1_0_n_n_0_1_164 y2 (srcTab x1))

/-- The per-graph mean: the transposed sums over the clipped counts, transposed back. -/
def pool (sumsT : Ff (F := F) S64x128) (cnt : Ff (F := F) S1x128) : Ff (F := F) S128x64 :=
  transpose S128x64 [1, 0]
    (Host.divf sumsT
      (broadcastInDim S64x128 ![0, 1] bcast_S1x128_S64x128_0_1
        (broadcastInDim S1x128 ![1] bcast_S128_S1x128_1
          (maximumf (broadcastInDim S128 ![] bcast_S_S128 (constant S_ .f32 0x3F800000#32 : Ff (F := F) S_))
            (shapeCast S128 cnt shapeCasts_S1x128_S128)))))
    transposes_S64x128_S128x64_1_0

end Cert.KernelIdeal.KT

end
-- ==== Proof.HostRead.lean ====
import proofs.«411394_j16045997818200_2_alg».proof.Proof.Gen.KernelIdeal.Launch
import proofs.«411394_j16045997818200_2_alg».proof.Proof.KTerms
import Idealize.ShloMosaic.Lib.StableHlo.Run

noncomputable section

namespace Cert.KernelIdeal.HostRead

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable {F : FTy → Type} [FloatOps F]

/-- The clipped out-degrees after the first two stretches, from the source indices. -/
theorem v4_eq (W : Valuation τ sig (Elt F)) :
    StableHlo.after hostOps0_1 (StableHlo.after hostOps0 W) (Proc.devRef .tc main_v4)
      = KT.deg (F := F) (W (Proc.devRef .tc main_arg1)) := by
  after_results
  rfl

/-- The clipped in-degrees after the next two stretches, from the destination indices. -/
theorem v8_eq (W : Valuation τ sig (Elt F))
    (hv0 : W (Proc.devRef .tc main_v0)
      = (broadcastInDim S1600000 ![] Facts₀.bcast_S_S1600000 (constant S_ .f32 0x3F800000#32 : KT.Ff (F := F) S_) : KT.Ff (F := F) S1600000)) :
    StableHlo.after hostOps0_3 (StableHlo.after hostOps0_2 W) (Proc.devRef .tc main_v8)
      = KT.deg (F := F) (W (Proc.devRef .tc main_arg2)) := by
  after_results
  rw [hv0]
  rfl

/-- The all-ones update vector the first stretch leaves: what both degree counts add per index entry. -/
theorem v0_eq (W : Valuation τ sig (Elt F)) :
    StableHlo.after hostOps0 W (Proc.devRef .tc main_v0)
      = (broadcastInDim S1600000 ![] Facts₀.bcast_S_S1600000 (constant S_ .f32 0x3F800000#32 : KT.Ff (F := F) S_) : KT.Ff (F := F) S1600000) := by
  after_results

/-- The first call's inputs after the fifth stretch. -/
theorem v31_eq (W : Valuation τ sig (Elt F)) :
    StableHlo.after hostOps0_4 W (Proc.devRef .tc main_v31)
      = KT.raw1 (F := F) (W (Proc.devRef .tc main_arg0)) (W (Proc.devRef .tc main_arg1)) (W (Proc.devRef .tc main_arg2))
          (W (Proc.devRef .tc main_v4)) := by
  after_results_simp
  rfl
theorem v10_eq (W : Valuation τ sig (Elt F)) :
    StableHlo.after hostOps0_4 W (Proc.devRef .tc main_v10) = KT.colOf (F := F) (W (Proc.devRef .tc main_v8)) := by
  after_results
  rfl
theorem v11_eq (W : Valuation τ sig (Elt F)) :
    StableHlo.after hostOps0_4 W (Proc.devRef .tc main_v11) = KT.colOf (F := F) (W (Proc.devRef .tc main_v4)) := by
  after_results
  rfl

/-- The second call's inputs after the stretch between the first two calls. -/
theorem v42_eq (W : Valuation τ sig (Elt F)) :
    StableHlo.after hostOps1 W (Proc.devRef .tc main_v42)
      = KT.raw2 (F := F) (W (Proc.devRef .tc main_v32)) (W (Proc.devRef .tc main_arg1)) (W (Proc.devRef .tc main_arg2)) := by
  after_results_simp
  rfl
theorem v43_eq (W : Valuation τ sig (Elt F)) :
    StableHlo.after hostOps1 W (Proc.devRef .tc main_v43) = KT.colOfI (F := F) (W (Proc.devRef .tc main_arg3)) := by
  after_results
  rfl

/-- The third call's first input after the three stretches between the last two calls. -/
theorem v50_eq (W : Valuation τ sig (Elt F)) :
    StableHlo.after hostOps2_2 (StableHlo.after hostOps2_1 (StableHlo.after hostOps2 W)) (Proc.devRef .tc main_v50)
      = KT.pool (F := F) (W (Proc.devRef .tc main_v44_0)) (W (Proc.devRef .tc main_v44_1)) := by
  after_results
  rfl

end Cert.KernelIdeal.HostRead

end
-- ==== Proof.Spec.lean ====
/-
  The mathematics both programs compute, written once over plain index types.

  A graph of 100000 nodes and 1600000 edges; edge `e` reads the row of node `srow e` and adds it into the row of
  node `drow e` (nothing when the destination word names no node); node `n` belongs to graph `grow n` of 128
  (to none when its word is out of range). `rO n`, `rI n` are the inverse square roots of the clipped
  out- and in-degrees.  One graph-convolution layer of the reference is
      relu( ((Σ_{e → n} Z[srow e] · rO[srow e]) · rI n) · W + b ).
  The kernel applies the row scale `rI n` after the product with `W` (layer 1), and in layer 2 multiplies by
  `W` before the edges are summed; the per-graph mean is taken with a 0/1 membership matrix instead of a
  scatter.  `Algebra.lean` proves the two chains equal when the float inputs are real numbers.
-/
import Idealize.ShloMosaic.PureOps.Ideal
import Idealize.ShloMosaic.Lib.ValueIdx

noncomputable section

namespace Cert.GraphPool

open Idealize.ShloMosaic Idealize.ShloMosaic.ValueIdx

/-! ## Arrays and their curried readings -/

abbrev A1 (a : Nat) : Type := FVec Ideal ⟨1, ![a]⟩ .f32
abbrev A2 (a b : Nat) : Type := FVec Ideal ⟨2, ![a, b]⟩ .f32

/-- The array whose entry `(p, q)` is `f p q`. -/
def arr2 {a b : Nat} (f : Fin a → Fin b → EReal) : A2 a b :=
  fun i => f ⟨(i 0).val, idx2_lt0 i⟩ ⟨(i 1).val, idx2_lt1 i⟩

theorem arr2_ix2 {a b : Nat} (f : Fin a → Fin b → EReal) (p : Fin a) (q : Fin b) : arr2 f (ix2 p q) = f p q := rfl

/-- An array read at `(p, q)`. -/
def cur2 {a b : Nat} (A : A2 a b) : Fin a → Fin b → EReal := fun p q => A (ix2 p q)
/-- A vector read at `p`. -/
def cur1 {a : Nat} (A : A1 a) : Fin a → EReal := fun p => A (ix1 p)
/-- A one-column array read at row `p`. -/
def col {a : Nat} (A : A2 a 1) : Fin a → EReal := fun p => A (ix2 p 0)

theorem arr2_cur2 {a b : Nat} (A : A2 a b) : arr2 (cur2 A) = A := by
  funext i
  conv_rhs => rw [eq_ix2 i]
  rfl

/-! ## Words read as row numbers -/

/-- A word read as a signed row number, when it lies in `[0, N)`: where a scatter lands (it drops the rest). -/
def rowIn (N : Nat) (v : BitVec 32) : Option (Fin N) :=
  if h : 0 ≤ v.toInt ∧ v.toInt < N then some ⟨v.toInt.toNat, by omega⟩ else none

/-- A word read as a signed row number and clamped into `[0, 99999]`: where a gather reads. -/
def rowClamp (v : BitVec 32) : Fin 100000 := ⟨min v.toInt.toNat 99999, by omega⟩

/-- jnp's wrap of a negative index: `v + 100000` when `v < 0`. -/
def wrapNeg (v : BitVec 32) : BitVec 32 := if v.slt 0#32 then v + 100000#32 else v

/-- The float word of `1.0`. -/
def one : EReal := Ideal.ofBits .f32 0x3F800000#32

/-! ## The two chains -/

section Chain

variable (srow : Fin 1600000 → Fin 100000) (drow : Fin 1600000 → Option (Fin 100000))
variable (grow : Fin 100000 → Option (Fin 128))
variable (rO rI : Fin 100000 → EReal)

/-- The edge sum into node `n`: zero plus the rows `Z e` of the edges landing on `n`. -/
def segsum {C : Nat} (Z : Fin 1600000 → Fin C → EReal) (n : Fin 100000) (k : Fin C) : EReal :=
  0 + ∑ e ∈ Finset.univ.filter (fun e => drow e = some n), Z e k

/-- The reference's aggregation: the source rows, scaled by the source's `rO`, summed over the edges. -/
def aggR {C : Nat} (Z : Fin 100000 → Fin C → EReal) : Fin 100000 → Fin C → EReal :=
  segsum drow (fun e k => Z (srow e) k * rO (srow e))

/-- The reference's layer on an aggregate: scale the row by `rI`, multiply by `W`, add `b`, clamp at zero. -/
def layerR {Ci Co : Nat} (A : Fin 100000 → Fin Ci → EReal) (W : Fin Ci → Fin Co → EReal) (b : Fin Co → EReal)
    (n : Fin 100000) (j : Fin Co) : EReal :=
  max ((0 + ∑ k, (A n k * rI n) * W k j) + b j) 0

/-- The kernel's first layer: multiply by `W`, then scale the row by `rI`, add `b`, clamp at zero. -/
def layerK1 {Ci Co : Nat} (A : Fin 100000 → Fin Ci → EReal) (W : Fin Ci → Fin Co → EReal) (b : Fin Co → EReal)
    (n : Fin 100000) (j : Fin Co) : EReal :=
  max (((0 + ∑ k, A n k * W k j) * rI n) + b j) 0

/-- The kernel's projection before the second edge sum: scale the row by `rO`, multiply by `W`. -/
def projK {Ci Co : Nat} (H : Fin 100000 → Fin Ci → EReal) (W : Fin Ci → Fin Co → EReal)
    (n : Fin 100000) (f : Fin Co) : EReal :=
  0 + ∑ k, (H n k * rO n) * W k f

/-- The kernel's second edge sum: the projected source rows, unscaled. -/
def aggK {C : Nat} (Y : Fin 100000 → Fin C → EReal) : Fin 100000 → Fin C → EReal :=
  segsum drow (fun e f => Y (srow e) f)

/-- The kernel's second layer on its edge sum: scale by `rI`, add `b`, clamp at zero. -/
def layerK2 {C : Nat} (A : Fin 100000 → Fin C → EReal) (b : Fin C → EReal) (n : Fin 100000) (f : Fin C) : EReal :=
  max ((A n f * rI n) + b f) 0

/-- The reference's node features after both layers. -/
def h2R (X : Fin 100000 → Fin 128 → EReal) (W1 : Fin 128 → Fin 128 → EReal) (b1 : Fin 128 → EReal)
    (W2 : Fin 128 → Fin 64 → EReal) (b2 : Fin 64 → EReal) : Fin 100000 → Fin 64 → EReal :=
  layerR rI (aggR srow drow rO (layerR rI (aggR srow drow rO X) W1 b1)) W2 b2

/-- What the kernel's first call writes: layer 1, rescaled and projected by `W2`. -/
def y2K (A1 : Fin 100000 → Fin 128 → EReal) (W1 : Fin 128 → Fin 128 → EReal) (b1 : Fin 128 → EReal)
    (W2 : Fin 128 → Fin 64 → EReal) : Fin 100000 → Fin 64 → EReal :=
  projK rO (layerK1 rI A1 W1 b1) W2

/-- The kernel's node features after both layers. -/
def h2K (X : Fin 100000 → Fin 128 → EReal) (W1 : Fin 128 → Fin 128 → EReal) (b1 : Fin 128 → EReal)
    (W2 : Fin 128 → Fin 64 → EReal) (b2 : Fin 64 → EReal) : Fin 100000 → Fin 64 → EReal :=
  layerK2 rI (aggK srow drow (y2K rO rI (aggR srow drow rO X) W1 b1 W2)) b2

/-- Membership of node `n` in graph `g`, as 0 or 1. -/
def oh (n : Fin 100000) (g : Fin 128) : EReal := if grow n = some g then 1 else 0

/-- The reference's per-graph sums and counts (scatters). -/
def sumsR (H : Fin 100000 → Fin 64 → EReal) (g : Fin 128) (f : Fin 64) : EReal :=
  0 + ∑ n ∈ Finset.univ.filter (fun n => grow n = some g), H n f
def cntR (g : Fin 128) : EReal := 0 + ∑ _n ∈ Finset.univ.filter (fun n => grow n = some g), one

/-- The kernel's per-graph sums and counts (products with the membership matrix). -/
def sumsK (H : Fin 100000 → Fin 64 → EReal) (f : Fin 64) (g : Fin 128) : EReal := ∑ n, H n f * oh grow n g
def cntK (g : Fin 128) : EReal := ∑ n, oh grow n g

/-- The per-graph mean, each way. -/
def poolR (H : Fin 100000 → Fin 64 → EReal) (g : Fin 128) (f : Fin 64) : EReal :=
  Ideal.div (sumsR grow H g f) (max one (cntR grow g))
def poolK (H : Fin 100000 → Fin 64 → EReal) (g : Fin 128) (f : Fin 64) : EReal :=
  Ideal.div (sumsK grow H f g) (max one (cntK grow g))

end Chain

/-! ## The row maps read off the index arrays, and the three calls' results as whole arrays -/

/-- Where edge `e` reads: its source word, wrapped when negative, clamped into the node range. -/
def srowOf (x1 : IVec ⟨1, ![1600000]⟩ 32) : Fin 1600000 → Fin 100000 := fun e => rowClamp (wrapNeg (x1 (ix1 e)))
/-- Where edge `e` lands: its destination word when it names a node. -/
def drowOf (x2 : IVec ⟨1, ![1600000]⟩ 32) : Fin 1600000 → Option (Fin 100000) := fun e => rowIn 100000 (x2 (ix1 e))
/-- The graph of node `n`: its word when it names one of the 128 graphs. -/
def growOf (x3 : IVec ⟨1, ![100000]⟩ 32) : Fin 100000 → Option (Fin 128) := fun n => rowIn 128 (x3 (ix1 n))
/-- The inverse square roots of a degree vector. -/
def rsq (d : A1 100000) : Fin 100000 → EReal := fun n => Ideal.rsqrt (d (ix1 n))

/-- The first call's result: from the first edge sum `raw`, the weights, and the two clipped degree columns. -/
def reg0 (raw : A2 100000 128) (W1 : A2 128 128) (b1 : A1 128) (W2 : A2 128 64) (dIc dOc : A2 100000 1) : A2 100000 64 :=
  arr2 (y2K (fun n => Ideal.rsqrt (col dOc n)) (fun n => Ideal.rsqrt (col dIc n)) (cur2 raw) (cur2 W1) (cur1 b1) (cur2 W2))

/-- The second call's results: the per-graph sums (transposed) of the second layer's features, and the counts. -/
def reg1sums (raw2 : A2 100000 64) (b2 : A1 64) (dIc : A2 100000 1) (gidc : IVec ⟨2, ![100000, 1]⟩ 32) : A2 64 128 :=
  arr2 (sumsK (fun n => rowIn 128 (gidc (ix2 n 0))) (layerK2 (fun n => Ideal.rsqrt (col dIc n)) (cur2 raw2) (cur1 b2)))
def reg1cnt (gidc : IVec ⟨2, ![100000, 1]⟩ 32) : A2 1 128 :=
  arr2 (fun _ g => cntK (fun n => rowIn 128 (gidc (ix2 n 0))) g)

/-- An extended real that is a real number. -/
def IsR (x : EReal) : Prop := ∃ r : ℝ, x = (r : EReal)
/-- An extended real that is a nonnegative real number. -/
def IsR0 (x : EReal) : Prop := ∃ r : ℝ, 0 ≤ r ∧ x = (r : EReal)

end Cert.GraphPool

end
-- ==== Proof.KRegion0.lean ====
import proofs.«411394_j16045997818200_2_alg».proof.Proof.Gen.KernelIdeal.Frame
import proofs.«411394_j16045997818200_2_alg».proof.Proof.Spec
import Idealize.ShloMosaic.Lib.Pipeline.Value
import Idealize.ShloMosaic.Lib.ValueLayout
import Idealize.ShloMosaic.PureOps.Ideal.Laws

noncomputable section

namespace Cert.KernelIdeal.R0

open Cert.KernelIdeal Cert.KernelIdeal.Facts₀ Cert.KernelIdeal.Facts Idealize.ShloMosaic Idealize.ShloMosaic.TcCoe Idealize.ShloMosaic.ValueIdx Idealize.SL.Sem Cert.GraphPool Cert.KernelIdeal.Gen

/-! ## Layout facts -/

/-- A one-column array broadcast along its unit axis reads, at `(p, c)`, the column at row `p`. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products at an index -/

private theorem lhs1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhs1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhs1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The first product onto the zero accumulator, at `(p, k)`: the row of the left operand against the column of the right. -/
private theorem mm1_apply (x : FVec Ideal S10000x128 .f32) (w : FVec Ideal S128x128 .f32) (p : Fin 10000) (k : Fin 128) :
    matmul dot_S10000x128_S128x128_S10000x128_1_0_0_1_n_n none x w (constant (F := Ideal) S10000x128 .f32 0x00000000#32) (ix2 p k)
      = ∑ j : Fin 128, x (ix2 p j) * w (ix2 j k) := by
  refine (Ideal.matmul_constant_zero_apply _ _ _ _ _).trans ?_
  rw [← Equiv.sum_comp (ValueIdx.contrEquiv1 dot_S10000x128_S128x128_S10000x128_1_0_0_1_n_n 128 rfl rfl).symm]
  refine Finset.sum_congr rfl fun j _ => ?_
  have hj := ValueIdx.contrEquiv1_symm_val dot_S10000x128_S128x128_S10000x128_1_0_0_1_n_n 128 rfl rfl j
  have el : dot_S10000x128_S128x128_S10000x128_1_0_0_1_n_n.lhsIdx (ix2 p k) ((ValueIdx.contrEquiv1 dot_S10000x128_S128x128_S10000x128_1_0_0_1_n_n 128 rfl rfl).symm j) = ix2 p j := funext fun a => Fin.ext (by
    match a with
    | ⟨0, _⟩ => exact lhs1_0 _ _
    | ⟨1, _⟩ => exact (lhs1_1 _ _).trans hj)
  have er : dot_S10000x128_S128x128_S10000x128_1_0_0_1_n_n.rhsIdx (ix2 p k) ((ValueIdx.contrEquiv1 dot_S10000x128_S128x128_S10000x128_1_0_0_1_n_n 128 rfl rfl).symm j) = ix2 j k := funext fun a => Fin.ext (by
    match a with
    | ⟨0, _⟩ => exact (rhs1_0 _ _).trans hj
    | ⟨1, _⟩ => exact rhs1_1 _ _)
  rw [el, er]

private theorem lhs2_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
private theorem lhs2_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
private theorem rhs2_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
private theorem rhs2_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The second product onto the zero accumulator, at `(p, f)`. -/
private theorem mm2_apply (x : FVec Ideal S10000x128 .f32) (w : FVec Ideal S128x64 .f32) (p : Fin 10000) (f : Fin 64) :
    matmul dot_S10000x128_S128x64_S10000x64_1_0_0_1_n_n none x w (constant (F := Ideal) S10000x64 .f32 0x00000000#32) (ix2 p f)
      = ∑ k : Fin 128, x (ix2 p k) * w (ix2 k f) := by
  refine (Ideal.matmul_constant_zero_apply _ _ _ _ _).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p f) ((ValueIdx.contrEquiv1 dot_S10000x128_S128x64_S10000x64_1_0_0_1_n_n 128 rfl rfl).symm k) = ix2 p k := funext fun a => Fin.ext (by
    match a with
    | ⟨0, _⟩ => exact lhs2_0 _ _
    | ⟨1, _⟩ => exact (lhs2_1 _ _).trans hk)
  have er : dot_S10000x128_S128x64_S10000x64_1_0_0_1_n_n.rhsIdx (ix2 p f) ((ValueIdx.contrEquiv1 dot_S10000x128_S128x64_S10000x64_1_0_0_1_n_n 128 rfl rfl).symm k) = ix2 k f := funext fun a => Fin.ext (by
    match a with
    | ⟨0, _⟩ => exact (rhs2_0 _ _).trans hk
    | ⟨1, _⟩ => exact rhs2_1 _ _)
  rw [el, er]

/-! ## The body's arithmetic at an index -/

/-- The hidden layer at `(p, k)`: the first product, scaled by the row's first factor, plus the bias, clamped at zero,
    scaled by the row's second factor. -/
private def hid (x0 : Vec Ideal S10000x128 .f32) (x1 : Vec Ideal S128x128 .f32) (x2 : Vec Ideal S128 .f32)
    (x4 x5 : Vec Ideal S10000x1 .f32) (p : Fin 10000) (k : Fin 128) : EReal :=
  max (((0 + ∑ j : Fin 128, x0 (ix2 p j) * x1 (ix2 j k)) * Ideal.rsqrt (x4 (ix2 p 0))) + x2 (ix1 k)) 0 * Ideal.rsqrt (x5 (ix2 p 0))

/-- The payload at `(p, f)`. -/
private theorem pay_apply (x0 : Vec Ideal S10000x128 .f32) (x1 : Vec Ideal S128x128 .f32) (x2 : Vec Ideal S128 .f32)
    (x3 : Vec Ideal S128x64 .f32) (x4 x5 : Vec Ideal S10000x1 .f32) (p : Fin 10000) (f : Fin 64) :
    k0_pay1 (F := Ideal) x0 x1 x4 x2 x5 x3 (ix2 p f) = 0 + ∑ k : Fin 128, hid x0 x1 x2 x4 x5 p k * x3 (ix2 k f) := by
  unfold k0_pay1
  refine (mm2_apply _ _ p f).trans ?_
  rw [zero_add]
  refine Finset.sum_congr rfl fun k _ => ?_
  congr 1
  simp only [mulf_apply, addf_apply, maximumf_apply, broadcast_apply, shapeCast_self]
  rw [mm1_apply, broadcastTo_col_apply, broadcastTo_col_apply, broadcastTo_1b_ab_apply, shapeCast_a_1a_apply]
  unfold hid
  rw [zero_add]
  show max (_ * Ideal.rsqrt (x4 (ix2 p 0)) + _) (Ideal.ofBits .f32 0x00000000#32) * Ideal.rsqrt (x5 (ix2 p 0)) = _
  rw [Ideal.ofBits_zero_f32]

/-! ## One point's block is the target's rows -/

/-- At a point whose blocks hold rows `r * 10000 …` of the row-blocked arrays and the whole of the weights, the payload at
    `y` is the target function at the array index `e y` that the block's index `y` stands for. -/
private theorem point_value (raw : A2 100000 128) (W1 : A2 128 128) (b1 : A1 128) (W2 : A2 128 64) (dI dO : A2 100000 1)
    (x0 : Vec Ideal S10000x128 .f32) (x1 : Vec Ideal S128x128 .f32) (x2 : Vec Ideal S128 .f32) (x3 : Vec Ideal S128x64 .f32)
    (x4 x5 : Vec Ideal S10000x1 .f32)
    (r : ℕ) (e : S10000x64.Idx → S100000x64.Idx)
    (he0 : ∀ y, ((e y) 0).val = r * 10000 + (y 0).val) (he1 : ∀ y, ((e y) 1).val = (y 1).val)
    (h0 : ∀ (y : S10000x128.Idx) (i : S100000x128.Idx), (i 0).val = r * 10000 + (y 0).val → (i 1).val = (y 1).val → x0 y = raw i)
    (h1 : x1 = W1) (h2 : x2 = b1) (h3 : x3 = W2)
    (h4 : ∀ (y : S10000x1.Idx) (i : S100000x1.Idx), (i 0).val = r * 10000 + (y 0).val → x4 y = dI i)
    (h5 : ∀ (y : S10000x1.Idx) (i : S100000x1.Idx), (i 0).val = r * 10000 + (y 0).val → x5 y = dO i)
    (y : S10000x64.Idx) :
    k0_pay1 (F := Ideal) x0 x1 x4 x2 x5 x3 y = reg0 raw W1 b1 W2 dI dO (e y) := by
  subst h1 h2 h3
  obtain ⟨p, q, rfl⟩ : ∃ (p : Fin 10000) (q : Fin 64), y = ix2 p q := ⟨y 0, y 1, eq_ix2 y⟩
  rw [pay_apply]
  have e0 := he0 (ix2 p q)
  have e1 := he1 (ix2 p q)
  show _ = y2K (fun n => Ideal.rsqrt (col dO n)) (fun n => Ideal.rsqrt (col dI n)) (cur2 raw) (cur2 x1) (cur1 x2) (cur2 x3)
      ⟨((e (ix2 p q)) 0).val, idx2_lt0 _⟩ ⟨((e (ix2 p q)) 1).val, idx2_lt1 _⟩
  have hq : (⟨((e (ix2 p q)) 1).val, idx2_lt1 _⟩ : Fin 64) = q := Fin.ext e1
  rw [hq]
  generalize hn : (⟨((e (ix2 p q)) 0).val, idx2_lt0 _⟩ : Fin 100000) = n
  have hnv : n.val = r * 10000 + p.val := by rw [← hn]; exact e0
  have r0 : ∀ j, x0 (ix2 p j) = raw (ix2 n j) := fun j => h0 (ix2 p j) (ix2 n j) hnv rfl
  have r4 : x4 (ix2 p 0) = dI (ix2 n 0) := h4 (ix2 p 0) (ix2 n 0) hnv
  have r5 : x5 (ix2 p 0) = dO (ix2 n 0) := h5 (ix2 p 0) (ix2 n 0) hnv
  unfold hid
  simp only [r0, r4, r5]
  rfl

/-! ## From the blocks to the array -/

private theorem hz2 : (![0, 0] : Fin 2 → Nat) = fun _ => 0 :=
  funext fun a => by match a with | ⟨0, _⟩ => rfl | ⟨1, _⟩ => rfl
private theorem hz1 : (![0] : Fin 1 → Nat) = fun _ => 0 :=
  funext fun a => by match a with | ⟨0, _⟩ => rfl

/-- The printed index maps over the grid: the row-blocked windows sit at block `t` of the rows, the weights' windows at
    the origin. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b)) (c : Dev nD)

/-- What point `t` writes back is block `t` of the target function of the arrays the region was entered with. -/
private theorem flushed_eq (t : Fin cfg0.N) :
    (dat0 (F := Ideal) V c).flushed 6 t = ((cfg0.win 6).blk t).view.read (Elt Ideal)
      (reg0 (V c main_v31) (V c main_arg4) (V c main_arg5) (V c main_arg6) (V c main_v10) (V c main_v11)) := by
  show (cfg0.win 6).cut (grid0.coords t) ((dat0 V c).after 6 t) = _
  rw [after0_6]
  unfold out0_6
  rw [View.canon_unit_zero hz2]
  simp only [View.ld_unit_zero (S := S10000x128) hz2, View.ld_unit_zero (S := S128x128) hz2, View.ld_unit_zero (S := S10000x1) hz2,
    View.ld_unit_zero (S := S128) hz1, View.ld_unit_zero (S := S128x64) hz2]
  obtain ⟨a00, a01, a10, a11, a20, a30, a31, a40, a41, a50, a51, a60, a61⟩ := idx_facts t
  have h0 : ∀ (y : S10000x128.Idx) (i : S100000x128.Idx), (i 0).val = t.val * 10000 + (y 0).val → (i 1).val = (y 1).val →
      (iblk0 V c 0 t : Vec Ideal S10000x128 .f32) y = (V c main_v31 : A2 100000 128) i := fun y i hi0 hi1 => by
    show V c main_v31 (((cfg0.win 0).blk t).view.emb y) = V c main_v31 i
    refine congrArg _ (funext fun a => Fin.ext ?_)
    match a with
    | ⟨0, _⟩ => show win0_0.index t (0 : Fin 2) * 10000 + 1 * (y 0).val = (i 0).val; omega
    | ⟨1, _⟩ => show win0_0.index t (1 : Fin 2) * 128 + 1 * (y 1).val = (i 1).val; omega
  have h1 : (iblk0 V c 1 t : Vec Ideal S128x128 .f32) = (V c main_arg4 : A2 128 128) := funext fun y => by
    show V c main_arg4 (((cfg0.win 1).blk t).view.emb y) = V c main_arg4 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have h2 : (iblk0 V c 2 t : Vec Ideal S128 .f32) = (V c main_arg5 : A1 128) := funext fun y => by
    show V c main_arg5 (((cfg0.win 2).blk t).view.emb y) = V c main_arg5 y
    refine congrArg _ (funext fun a => Fin.ext ?_)
    match a with
    | ⟨0, _⟩ => show win0_2.index t (0 : Fin 1) * 128 + 1 * (y 0).val = (y 0).val; omega
  have h3 : (iblk0 V c 3 t : Vec Ideal S128x64 .f32) = (V c main_arg6 : A2 128 64) := funext fun y => by
    show V c main_arg6 (((cfg0.win 3).blk t).view.emb y) = V c main_arg6 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 64 + 1 * (y 1).val = (y 1).val; omega
  have h4 : ∀ (y : S10000x1.Idx) (i : S100000x1.Idx), (i 0).val = t.val * 10000 + (y 0).val →
      (iblk0 V c 4 t : Vec Ideal S10000x1 .f32) y = (V c main_v10 : A2 100000 1) i := fun y i hi0 => by
    show V c main_v10 (((cfg0.win 4).blk t).view.emb y) = V c main_v10 i
    refine congrArg _ (funext fun a => Fin.ext ?_)
    have hy1 : (y 1).val < 1 := idx2_lt1 y
    have hi1 : (i 1).val < 1 := idx2_lt1 i
    match a with
    | ⟨0, _⟩ => show win0_4.index t (0 : Fin 2) * 10000 + 1 * (y 0).val = (i 0).val; omega
    | ⟨1, _⟩ => show win0_4.index t (1 : Fin 2) * 1 + 1 * (y 1).val = (i 1).val; omega
  have h5 : ∀ (y : S10000x1.Idx) (i : S100000x1.Idx), (i 0).val = t.val * 10000 + (y 0).val →
      (iblk0 V c 5 t : Vec Ideal S10000x1 .f32) y = (V c main_v11 : A2 100000 1) i := fun y i hi0 => by
    show V c main_v11 (((cfg0.win 5).blk t).view.emb y) = V c main_v11 i
    refine congrArg _ (funext fun a => Fin.ext ?_)
    have hy1 : (y 1).val < 1 := idx2_lt1 y
    have hi1 : (i 1).val < 1 := idx2_lt1 i
    match a with
    | ⟨0, _⟩ => show win0_5.index t (0 : Fin 2) * 10000 + 1 * (y 0).val = (i 0).val; omega
    | ⟨1, _⟩ => show win0_5.index t (1 : Fin 2) * 1 + 1 * (y 1).val = (i 1).val; omega
  have he0 : ∀ y : S10000x64.Idx, ((((cfg0.win 6).blk t).view.emb y : S100000x64.Idx) 0).val = t.val * 10000 + (y 0).val := fun y => by
    show win0_6.index t (0 : Fin 2) * 10000 + 1 * (y 0).val = _; omega
  have he1 : ∀ y : S10000x64.Idx, ((((cfg0.win 6).blk t).view.emb y : S100000x64.Idx) 1).val = (y 1).val := fun y => by
    show win0_6.index t (1 : Fin 2) * 64 + 1 * (y 1).val = _; omega
  funext j
  show k0_pay1 (F := Ideal) _ _ _ _ _ _ j = reg0 _ _ _ _ _ _ (((cfg0.win 6).blk t).view.emb j)
  exact point_value (V c main_v31) (V c main_arg4) (V c main_arg5) (V c main_arg6) (V c main_v10) (V c main_v11)
    (iblk0 V c 0 t) (iblk0 V c 1 t) (iblk0 V c 2 t) (iblk0 V c 3 t) (iblk0 V c 4 t) (iblk0 V c 5 t)
    t.val ((cfg0.win 6).blk t).view.emb he0 he1 h0 h1 h2 h3 h4 h5 j

end

/-- An index of the output array is in point `t`'s block iff each coordinate is in the block's range on its axis. -/
private theorem mem_blk6 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v32).slice (win0_6.rect t)).set ↔ _
  rw [View.set_slice_whole, Rect.mem_set_unit]
  exact Iff.rfl

/-- Every row `n` of the output array lies in the block of point `n / 10000`. -/
private theorem cover6 (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, -, a60, a61⟩ := idx_facts t
  refine ⟨t, flush0_6 t, ?_⟩
  rw [mem_blk6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- The output array after the region is the first call's target function of the arrays the region was entered with:
    every point writes its rows of it, and the ten points' blocks cover the array. -/
theorem region0_value (V : (c : Dev nD) → (b : Ref sig .tc) → Buf (Elt Ideal) ((c : Thread nD τ).loc b)) (c : Dev nD) :
    (dat0 (F := Ideal) V c).arrAt 6 cfg0.N
      = reg0 (V c main_v31) (V c main_arg4) (V c main_arg5) (V c main_arg6) (V c main_v10) (V c main_v11) :=
  (dat0 (F := Ideal) V c).arrAt_eq_of_cover 6 _ (fun t _ => flushed_eq V c t) (fun i => cover6 i)

end Cert.KernelIdeal.R0

end
-- ==== Proof.RegionMath.lean ====
import proofs.«411394_j16045997818200_2_alg».proof.Proof.Spec

noncomputable section

namespace Cert.GraphPool

open Idealize.ShloMosaic Idealize.ShloMosaic.ValueIdx

/-- A sum over the 100000 nodes is the sum over the ten row blocks of the sums inside each block of 10000. -/
theorem sum_blocks {M : Type*} [AddCommMonoid M] (F : Fin 100000 → M) :
    ∑ s : Fin 10, ∑ r : Fin 10000, F ⟨10000 * s.val + r.val, by have := s.isLt; have := r.isLt; omega⟩ = ∑ n : Fin 100000, F n := by
  -- the pair (block, row in block) ↦ 10000·block + row is a bijection onto the node range
  let e : Fin 10 × Fin 10000 ≃ Fin 100000 :=
    { toFun := fun p => ⟨10000 * p.1.val + p.2.val, by have := p.1.isLt; have := p.2.isLt; omega⟩
      invFun := fun n => (⟨n.val / 10000, by have := n.isLt; omega⟩, ⟨n.val % 10000, by omega⟩)
      left_inv := fun p => by
        have h1 := p.1.isLt
        have h2 := p.2.isLt
        refine Prod.ext (Fin.ext ?_) (Fin.ext ?_)
        · show (10000 * p.1.val + p.2.val) / 10000 = p.1.val
          omega
        · show (10000 * p.1.val + p.2.val) % 10000 = p.2.val
          omega
      right_inv := fun n => by
        refine Fin.ext ?_
        show 10000 * (n.val / 10000) + n.val % 10000 = n.val
        omega }
  have h := Fintype.sum_equiv e (fun p => F (e p)) F (fun _ => rfl)
  rw [Fintype.sum_prod_type] at h
  exact h

/-- A 32-bit word equals the word of a graph number `g < 128` exactly when, read signed, it names graph `g`. -/
theorem word_eq_iff_rowIn (v : BitVec 32) (g : Fin 128) : v = BitVec.ofNat 32 g.val ↔ rowIn 128 v = some g := by
  have hg := g.isLt
  have hlt : v.toNat < 2 ^ 32 := v.isLt
  have hti := BitVec.toInt_eq_toNat_cond v
  have hon : (BitVec.ofNat 32 g.val).toNat = g.val := by
    rw [BitVec.toNat_ofNat]; exact Nat.mod_eq_of_lt (by omega)
  unfold rowIn
  constructor
  · -- the word of `g` reads signed as `g`, which is below 128
    intro h
    have hvn : v.toNat = g.val := by rw [h, hon]
    have hvi : v.toInt = (g.val : Int) := by
      rw [hti, hvn]; split <;> omega
    rw [dif_pos ⟨by omega, by omega⟩]
    congr 1
    apply Fin.ext
    show v.toInt.toNat = g.val
    omega
  · -- a word that reads signed as a number in [0, 128) is that number's word
    intro h
    split at h
    · have h2 : v.toInt.toNat = g.val := congrArg Fin.val (Option.some.inj h)
      apply BitVec.eq_of_toNat_eq
      rw [hon]
      split at hti <;> omega
    · exact absurd h (by simp)

/-- The membership entry as the kernel computes it: the comparison bit, widened to 32 bits, read as a signed integer. -/
theorem oh_of_word (grow : Fin 100000 → Option (Fin 128)) (n : Fin 100000) (g : Fin 128) (v : BitVec 32)
    (hv : grow n = rowIn 128 v) :
    (((if v = BitVec.ofNat 32 g.val then (1#1 : BitVec 1) else 0#1).setWidth 32).toInt : ℝ) = (if grow n = some g then (1 : ℝ) else 0) := by
  rw [hv]
  by_cases h : v = BitVec.ofNat 32 g.val
  · rw [if_pos h, if_pos ((word_eq_iff_rowIn v g).1 h)]
    have h1 : ((1#1 : BitVec 1).setWidth 32).toInt = 1 := by decide
    rw [h1]; simp
  · rw [if_neg h, if_neg (fun hh => h ((word_eq_iff_rowIn v g).2 hh))]
    have h0 : ((0#1 : BitVec 1).setWidth 32).toInt = 0 := by decide
    rw [h0]; simp

end Cert.GraphPool

end
-- ==== Proof.KRegion1.lean ====
import proofs.«411394_j16045997818200_2_alg».proof.Proof.Gen.KernelIdeal.Frame
import proofs.«411394_j16045997818200_2_alg».proof.Proof.Spec
import proofs.«411394_j16045997818200_2_alg».proof.Proof.RegionMath
import Idealize.ShloMosaic.Lib.Pipeline.Value
import Idealize.ShloMosaic.Lib.ValueLayout
import Idealize.ShloMosaic.PureOps.Ideal.Laws

noncomputable section

namespace Cert.KernelIdeal.R1

open Cert.KernelIdeal Cert.KernelIdeal.Facts₀ Cert.KernelIdeal.Facts Idealize.ShloMosaic Idealize.ShloMosaic.TcCoe Idealize.ShloMosaic.ValueIdx Idealize.SL.Sem Cert.GraphPool Cert.KernelIdeal.Gen

/-! ## What each control case leaves in the two carried outputs -/

section Pieces
variable {F : FTy → Type} [FloatOps F]

private theorem hz2 : (![0, 0] : Fin 2 → Nat) = fun _ => 0 := funext fun a => by fin_cases a <;> rfl
private theorem hz1 : (![0] : Fin 1 → Nat) = fun _ => 0 := funext fun a => by fin_cases a; rfl

/-- A later point adds its block's product to the sums it finds. -/
theorem out_B_4 (c : Dev nD) (i : grid1.Coords) (arg1 : Memref sig .tc .vmem S10000x64 .f32) (harg1 : arg1.IsWhole) (arg2 : Memref sig .tc .vmem S64 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S64x128 .f32) (harg5 : arg5.IsWhole) (arg6 : Memref sig .tc .vmem S1x128 .f32) (harg6 : arg6.IsWhole) (hc0 : ¬cond1_0 i)
    (x0 : Vec F S10000x64 .f32) (x1 : Vec F S64 .f32) (x2 : Vec F S10000x1 .f32) (x3 : Vec F S10000x1 .i32) (xo4 : Vec F S64x128 .f32) (xo5 : Vec F S1x128 .f32) :
    out1_B_4 c i arg1 harg1 arg2 harg2 arg3 harg3 arg4 harg4 arg5 harg5 arg6 harg6 hc0 x0 x1 x2 x3 xo4 xo5 = k1_pay4 x0 x2 x1 x3 xo4 := by
  unfold out1_B_4
  rw [View.read_writes_eq_canon _ _ _ (cover1_B_4 c i arg1 harg1 arg2 harg2 arg3 harg3 arg4 harg4 arg5 harg5 arg6 harg6 hc0 x0 x1 x2 x3 xo4 xo5)]
  unfold kernelRun1_B
  dsimp only
  sl_unfold_words
  rw [View.canon_unit_zero hz2]
  simp only [View.readAt_eq_ld, harg1.read_unread, harg2.read_unread, harg3.read_unread, harg4.read_unread, harg5.read_unread,
    View.ld_unit_zero (S := S10000x64) hz2, View.ld_unit_zero (S := S10000x1) hz2, View.ld_unit_zero (S := S64x128) hz2,
    View.ld_unit_zero (S := S64) hz1]

/-- A later point adds its block's column sums to the counts it finds. -/
theorem out_B_5 (c : Dev nD) (i : grid1.Coords) (arg1 : Memref sig .tc .vmem S10000x64 .f32) (harg1 : arg1.IsWhole) (arg2 : Memref sig .tc .vmem S64 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S64x128 .f32) (harg5 : arg5.IsWhole) (arg6 : Memref sig .tc .vmem S1x128 .f32) (harg6 : arg6.IsWhole) (hc0 : ¬cond1_0 i)
    (x0 : Vec F S10000x64 .f32) (x1 : Vec F S64 .f32) (x2 : Vec F S10000x1 .f32) (x3 : Vec F S10000x1 .i32) (xo4 : Vec F S64x128 .f32) (xo5 : Vec F S1x128 .f32) :
    out1_B_5 c i arg1 harg1 arg2 harg2 arg3 harg3 arg4 harg4 arg5 harg5 arg6 harg6 hc0 x0 x1 x2 x3 xo4 xo5 = k1_pay5 x3 xo5 := by
  unfold out1_B_5
  rw [View.read_writes_eq_canon _ _ _ (cover1_B_5 c i arg1 harg1 arg2 harg2 arg3 harg3 arg4 harg4 arg5 harg5 arg6 harg6 hc0 x0 x1 x2 x3 xo4 xo5)]
  unfold kernelRun1_B
  dsimp only
  sl_unfold_words
  rw [View.canon_unit_zero hz2]
  simp only [View.readAt_eq_ld, harg4.read_unread, harg6.read_unread,
    View.ld_unit_zero (S := S10000x1) hz2, View.ld_unit_zero (S := S1x128) hz2]

/-- The first point stores zeros and adds its block's product to them. -/
theorem out_A_4 (c : Dev nD) (i : grid1.Coords) (arg1 : Memref sig .tc .vmem S10000x64 .f32) (harg1 : arg1.IsWhole) (arg2 : Memref sig .tc .vmem S64 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S64x128 .f32) (harg5 : arg5.IsWhole) (arg6 : Memref sig .tc .vmem S1x128 .f32) (harg6 : arg6.IsWhole) (hc0 : cond1_0 i)
    (x0 : Vec F S10000x64 .f32) (x1 : Vec F S64 .f32) (x2 : Vec F S10000x1 .f32) (x3 : Vec F S10000x1 .i32) :
    out1_A_4 c i arg1 harg1 arg2 harg2 arg3 harg3 arg4 harg4 arg5 harg5 arg6 harg6 hc0 x0 x1 x2 x3 = k1_pay4 x0 x2 x1 x3 k1_pay1 := by
  unfold out1_A_4
  rw [View.read_writes_eq_canon _ _ _ (cover1_A_4 c i arg1 harg1 arg2 harg2 arg3 harg3 arg4 harg4 arg5 harg5 arg6 harg6 hc0 x0 x1 x2 x3)]
  unfold kernelRun1_A
  dsimp only
  sl_unfold_words
  rw [View.canon_cons_unit_zero (S := S64x128) hz2, View.readCov_unit_zero (S := S64x128) _ hz2]
  simp only [View.readAt_eq_ld, harg1.read_unread, harg2.read_unread, harg3.read_unread, harg4.read_unread,
    View.ld_unit_zero (S := S10000x64) hz2, View.ld_unit_zero (S := S10000x1) hz2, View.ld_unit_zero (S := S64x128) hz2,
    View.ld_unit_zero (S := S64) hz1]

/-- The first point stores zeros and adds its block's column sums to them. -/
theorem out_A_5 (c : Dev nD) (i : grid1.Coords) (arg1 : Memref sig .tc .vmem S10000x64 .f32) (harg1 : arg1.IsWhole) (arg2 : Memref sig .tc .vmem S64 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S64x128 .f32) (harg5 : arg5.IsWhole) (arg6 : Memref sig .tc .vmem S1x128 .f32) (harg6 : arg6.IsWhole) (hc0 : cond1_0 i)
    (x0 : Vec F S10000x64 .f32) (x1 : Vec F S64 .f32) (x2 : Vec F S10000x1 .f32) (x3 : Vec F S10000x1 .i32) :
    out1_A_5 c i arg1 harg1 arg2 harg2 arg3 harg3 arg4 harg4 arg5 harg5 arg6 harg6 hc0 x0 x1 x2 x3 = k1_pay5 x3 k1_pay2 := by
  unfold out1_A_5
  rw [View.read_writes_eq_canon _ _ _ (cover1_A_5 c i arg1 harg1 arg2 harg2 arg3 harg3 arg4 harg4 arg5 harg5 arg6 harg6 hc0 x0 x1 x2 x3)]
  unfold kernelRun1_A
  dsimp only
  sl_unfold_words
  rw [View.canon_cons_unit_zero (S := S1x128) hz2, View.readCov_unit_zero (S := S1x128) _ hz2]
  simp only [View.readAt_eq_ld, harg4.read_unread,
    View.ld_unit_zero (S := S10000x1) hz2, View.ld_unit_zero (S := S1x128) hz2]

end Pieces

/-! ## The payloads, entry by entry, over the extended reals -/

section Payloads

/-- The membership entry: the sign-read of the widened bit of "the row's word is the column's number". -/
theorem memb_apply (v16 : Vec Ideal S10000x1 .i32) (p : Fin 10000) (g : Fin 128) :
    k1_pay3 (F := Ideal) v16 (ix2 p g) = if v16 (ix2 p 0) = BitVec.ofNat 32 g.val then 1 else 0 := by
  unfold k1_pay3
  simp only [sitofp_apply, extui_apply]
  show FloatOps.sitofp (F := Ideal) .f32 ((IntOp.cmpi .eq (broadcastTo S10000x128 (shapeCast S10000x1 v16 _) _ (ix2 p g)) (iota .tc S10000x128 32 [1] _ (ix2 p g))).setWidth 32) = _
  rw [shapeCast_self, iota_single_apply, broadcastTo_apply v16 _ (ix2 p g) (ix2 p 0)
    (fun a => by match a with
      | ⟨0, _⟩ => rfl
      | ⟨1, _⟩ => rfl)]
  show (((((IntOp.cmpi .eq (v16 (ix2 p 0)) (BitVec.ofNat 32 g.val)).setWidth 32).toInt : ℤ) : ℝ) : EReal) = _
  by_cases h : v16 (ix2 p 0) = BitVec.ofNat 32 g.val
  · have e : IntOp.cmpi .eq (v16 (ix2 p 0)) (BitVec.ofNat 32 g.val) = 1#1 := by
      show BitVec.ofBool (v16 (ix2 p 0) == BitVec.ofNat 32 g.val) = 1#1
      rw [beq_iff_eq.mpr h]; rfl
    rw [if_pos h, e]
    norm_num
  · have e : IntOp.cmpi .eq (v16 (ix2 p 0)) (BitVec.ofNat 32 g.val) = 0#1 := by
      show BitVec.ofBool (v16 (ix2 p 0) == BitVec.ofNat 32 g.val) = 0#1
      rw [beq_eq_false_iff_ne.mpr h]; rfl
    rw [if_neg h, e]
    norm_num

/-- The product's operand indices: the contracted row on axis 0 of both, the output's coordinates on axis 1. -/
private theorem lhsK_0 (i : S64x128.Idx) (q : dot_S10000x64_S10000x128_S64x128_0_0_1_1_n_n.contr.Idx) :
    (dot_S10000x64_S10000x128_S64x128_0_0_1_1_n_n.lhsIdx i q 0).val = (q ⟨0, by decide⟩).val :=
  dot_S10000x64_S10000x128_S64x128_0_0_1_1_n_n.lhsIdx_val_of_single rfl i q
private theorem lhsK_1 (i : S64x128.Idx) (q : dot_S10000x64_S10000x128_S64x128_0_0_1_1_n_n.contr.Idx) :
    (dot_S10000x64_S10000x128_S64x128_0_0_1_1_n_n.lhsIdx i q 1).val = (i 0).val := by
  unfold DotDims.lhsIdx
  rw [dif_neg (show ¬(1 : Fin S10000x64.rank) ∈ dot_S10000x64_S10000x128_S64x128_0_0_1_1_n_n.lhsBatch by decide), dif_pos (show (1 : Fin S10000x64.rank) ∈ dot_S10000x64_S10000x128_S64x128_0_0_1_1_n_n.lhsNonContracting by decide)]
  rfl
private theorem rhsK_0 (i : S64x128.Idx) (q : dot_S10000x64_S10000x128_S64x128_0_0_1_1_n_n.contr.Idx) :
    (dot_S10000x64_S10000x128_S64x128_0_0_1_1_n_n.rhsIdx i q 0).val = (q ⟨0, by decide⟩).val :=
  dot_S10000x64_S10000x128_S64x128_0_0_1_1_n_n.rhsIdx_val_of_single rfl i q
private theorem rhsK_1 (i : S64x128.Idx) (q : dot_S10000x64_S10000x128_S64x128_0_0_1_1_n_n.contr.Idx) :
    (dot_S10000x64_S10000x128_S64x128_0_0_1_1_n_n.rhsIdx i q 1).val = (i 1).val := by
  unfold DotDims.rhsIdx
  rw [dif_neg (show ¬(1 : Fin S10000x128.rank) ∈ dot_S10000x64_S10000x128_S64x128_0_0_1_1_n_n.rhsBatch by decide), dif_pos (show (1 : Fin S10000x128.rank) ∈ dot_S10000x64_S10000x128_S64x128_0_0_1_1_n_n.rhsNonContracting by decide)]
  rfl

/-- The product over the rows into a zero accumulator: the sum over the block's rows. -/
theorem mm_apply (L : FVec Ideal S10000x64 .f32) (R : FVec Ideal S10000x128 .f32) (f : Fin 64) (g : Fin 128) :
    matmul dot_S10000x64_S10000x128_S64x128_0_0_1_1_n_n none L R (constant (F := Ideal) S64x128 .f32 0x00000000#32) (ix2 f g)
      = ∑ r : Fin 10000, L (ix2 r f) * R (ix2 r g) := by
  refine (Ideal.matmul_constant_zero_apply dot_S10000x64_S10000x128_S64x128_0_0_1_1_n_n none L R (ix2 f g)).trans ?_
  rw [← Equiv.sum_comp (contrEquiv1 dot_S10000x64_S10000x128_S64x128_0_0_1_1_n_n 10000 rfl rfl).symm]
  refine Finset.sum_congr rfl fun k _ => ?_
  have hk := contrEquiv1_symm_val dot_S10000x64_S10000x128_S64x128_0_0_1_1_n_n 10000 rfl rfl k
  have el : dot_S10000x64_S10000x128_S64x128_0_0_1_1_n_n.lhsIdx (ix2 f g) ((contrEquiv1 dot_S10000x64_S10000x128_S64x128_0_0_1_1_n_n 10000 rfl rfl).symm k) = ix2 k f := funext fun a => Fin.ext (by
    match a with
    | ⟨0, _⟩ => exact (lhsK_0 _ _).trans hk
    | ⟨1, _⟩ => exact lhsK_1 _ _)
  have er : dot_S10000x64_S10000x128_S64x128_0_0_1_1_n_n.rhsIdx (ix2 f g) ((contrEquiv1 dot_S10000x64_S10000x128_S64x128_0_0_1_1_n_n 10000 rfl rfl).symm k) = ix2 k g := funext fun a => Fin.ext (by
    match a with
    | ⟨0, _⟩ => exact (rhsK_0 _ _).trans hk
    | ⟨1, _⟩ => exact rhsK_1 _ _)
  rw [el, er]

/-- A column spread along the rows' 64 lanes reads the row's entry. -/
private theorem colB_apply (x : FVec Ideal S10000x1 .f32) (r : Fin 10000) (f : Fin 64) :
    broadcastTo S10000x64 x Gen.broadcasts_S10000x1_S10000x64 (ix2 r f) = x (ix2 r 0) :=
  broadcastTo_apply x _ (ix2 r f) (ix2 r 0) (fun a => by
    match a with
    | ⟨0, _⟩ => rfl
    | ⟨1, _⟩ => rfl)

/-- A vector laid as one row and spread down the rows reads the lane's entry. -/
private theorem rowB_apply (x : FVec Ideal S64 .f32) (r : Fin 10000) (f : Fin 64) :
    broadcastTo S10000x64 (shapeCast S1x64 x Gen.shapeCasts_S64_S1x64) Gen.broadcasts_S1x64_S10000x64 (ix2 r f) = x (ix1 f) := by
  refine (broadcastTo_apply _ _ (ix2 r f) (ix2 (0 : Fin 1) f) (fun a => by
    match a with
    | ⟨0, _⟩ => rfl
    | ⟨1, _⟩ => rfl)).trans ?_
  refine (shapeCast_addUnit_apply ![64] x _ (ix2 (0 : Fin 1) f)).trans (congrArg x (funext fun a => ?_))
  match a with
  | ⟨0, _⟩ => rfl

/-- The block's features: the scaled row plus the bias, clamped at zero. -/
theorem feat_apply (v3 : Vec Ideal S10000x64 .f32) (v5 : Vec Ideal S10000x1 .f32) (v10 : Vec Ideal S64 .f32) (r : Fin 10000) (f : Fin 64) :
    maximumf (addf (mulf (shapeCast S10000x64 v3 Gen.shapeCasts_S10000x64_S10000x64)
        (broadcastTo S10000x64 (rsqrt (shapeCast S10000x1 v5 Gen.shapeCasts_S10000x1_S10000x1)) Gen.broadcasts_S10000x1_S10000x64))
        (broadcastTo S10000x64 (shapeCast S1x64 v10 Gen.shapeCasts_S64_S1x64) Gen.broadcasts_S1x64_S10000x64))
      (broadcast S10000x64 (Scalar.ofBits (F := Ideal) .f32 0x00000000#32)) (ix2 r f)
    = max (v3 (ix2 r f) * Ideal.rsqrt (v5 (ix2 r 0)) + v10 (ix1 f)) 0 := by
  rw [maximumf_apply, addf_apply, mulf_apply, broadcast_apply, colB_apply, rowB_apply, shapeCast_self, shapeCast_self]
  show max (v3 (ix2 r f) * Ideal.rsqrt (v5 (ix2 r 0)) + v10 (ix1 f)) (Ideal.ofBits .f32 0x00000000#32) = _
  rw [Ideal.ofBits_zero_f32]

/-- The sums' update at an entry: what was there plus the block's product. -/
theorem pay4_apply (v3 : Vec Ideal S10000x64 .f32) (v5 : Vec Ideal S10000x1 .f32) (v10 : Vec Ideal S64 .f32)
    (v16 : Vec Ideal S10000x1 .i32) (v23 : Vec Ideal S64x128 .f32) (f : Fin 64) (g : Fin 128) :
    k1_pay4 (F := Ideal) v3 v5 v10 v16 v23 (ix2 f g)
      = v23 (ix2 f g) + ∑ r : Fin 10000, max (v3 (ix2 r f) * Ideal.rsqrt (v5 (ix2 r 0)) + v10 (ix1 f)) 0
          * (if v16 (ix2 r 0) = BitVec.ofNat 32 g.val then 1 else 0) := by
  unfold k1_pay4
  refine (addf_apply _ _ _).trans ?_
  refine (congrArg₂ (· + ·) (congrFun (shapeCast_self v23 _) (ix2 f g)) (mm_apply _ _ f g)).trans ?_
  refine congrArg (v23 (ix2 f g) + ·) (Finset.sum_congr rfl fun r _ => ?_)
  exact congrArg₂ (· * ·) (feat_apply v3 v5 v10 r f) (memb_apply v16 r g)

end Payloads

section Counts

/-- The column sums of a block: over its rows. -/
private theorem colsum_apply (src : FVec Ideal S10000x128 .f32) (hacc : (0x00000000#32 : BitVec 32) = 0x00000000#32) (g : Fin 128) :
    multiReduction (F := Ideal) .add [0] S128 src 0x00000000#32 Gen.reduces_S10000x128_S128 (.inl rfl) hacc (ix1 g)
      = ∑ r : Fin 10000, src (ix2 r g) := by
  refine (Ideal.multiReduction_add_single src 0x00000000#32 Gen.reduces_S10000x128_S128 (.inl rfl) hacc (ix1 g)).trans ?_
  refine Finset.sum_congr rfl fun k _ => congrArg src (funext fun a => Fin.ext ?_)
  match a with
  | ⟨0, _⟩ => rfl
  | ⟨1, _⟩ => rfl

/-- The counts' update at an entry: what was there plus the block's members of the graph. -/
theorem pay5_apply (v16 : Vec Ideal S10000x1 .i32) (v28 : Vec Ideal S1x128 .f32) (g : Fin 128) :
    k1_pay5 (F := Ideal) v16 v28 (ix2 (0 : Fin 1) g)
      = v28 (ix2 (0 : Fin 1) g) + ∑ r : Fin 10000, (if v16 (ix2 r 0) = BitVec.ofNat 32 g.val then 1 else 0) := by
  unfold k1_pay5
  refine (addf_apply _ _ _).trans ?_
  have e1 : shapeCast S1x128 v28 Gen.shapeCasts_S1x128_S1x128 (ix2 (0 : Fin 1) g) = v28 (ix2 (0 : Fin 1) g) :=
    congrFun (shapeCast_self v28 _) _
  have e2 : ∀ src : FVec Ideal S128 .f32, shapeCast S1x128 src Gen.shapeCasts_S128_S1x128 (ix2 (0 : Fin 1) g) = src (ix1 g) := fun src =>
    (shapeCast_addUnit_apply ![128] src _ (ix2 (0 : Fin 1) g)).trans (congrArg src (funext fun a => by
      match a with
      | ⟨0, _⟩ => rfl))
  refine (congrArg₂ (· + ·) e1 ((e2 _).trans (colsum_apply (k1_pay3 (F := Ideal) v16) _ g))).trans ?_
  exact congrArg (v28 (ix2 (0 : Fin 1) g) + ·) (Finset.sum_congr rfl fun r _ => memb_apply v16 r g)

end Counts

/-! ## The blocks of a point, read off the arrays -/

section Blocks
variable (V : (c : Dev nD) → (b : Ref sig .tc) → Buf (Elt Ideal) ((c : Thread nD τ).loc b))

/-- The arrays the region is entered with, under their literal types. -/
abbrev xarr (c : Dev nD) : A2 100000 64 := V c main_v42
abbrev barr (c : Dev nD) : A1 64 := V c main_arg7
abbrev darr (c : Dev nD) : A2 100000 1 := V c main_v10
abbrev garr (c : Dev nD) : IVec ⟨2, ![100000, 1]⟩ 32 := V c main_v43

/-- The blocks of point `t`, under their literal types. -/
abbrev xblk (c : Dev nD) (t : Fin cfg1.N) : Vec Ideal S10000x64 .f32 := iblk1 V c 0 t
abbrev bblk (c : Dev nD) (t : Fin cfg1.N) : Vec Ideal S64 .f32 := iblk1 V c 1 t
abbrev dblk (c : Dev nD) (t : Fin cfg1.N) : Vec Ideal S10000x1 .f32 := iblk1 V c 2 t
abbrev gblk (c : Dev nD) (t : Fin cfg1.N) : Vec Ideal S10000x1 .i32 := iblk1 V c 3 t

/-- The printed index maps over the grid: the row blocks move with the point, the bias stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem xblk_apply (c : Dev nD) (t : Fin cfg1.N) (r : Fin 10000) (f : Fin 64) (h : 10000 * t.val + r.val < 100000) :
    xblk V c t (ix2 r f) = xarr V c (ix2 ⟨10000 * t.val + r.val, h⟩ f) := by
  obtain ⟨e0, e1, -⟩ := idx_facts t
  show V c main_v42 (((cfg1.win 0).blk t).view.emb (ix2 r f)) = V c main_v42 _
  refine congrArg (V c main_v42) (funext fun a => Fin.ext ?_)
  match a with
  | ⟨0, _⟩ => show win1_0.index t (0 : Fin 2) * 10000 + 1 * r.val = 10000 * t.val + r.val; omega
  | ⟨1, _⟩ => show win1_0.index t (1 : Fin 2) * 64 + 1 * f.val = f.val; omega

theorem bblk_apply (c : Dev nD) (t : Fin cfg1.N) (f : Fin 64) :
    bblk V c t (ix1 f) = barr V c (ix1 f) := by
  obtain ⟨-, -, e2, -⟩ := idx_facts t
  show V c main_arg7 (((cfg1.win 1).blk t).view.emb (ix1 f)) = V c main_arg7 _
  refine congrArg (V c main_arg7) (funext fun a => Fin.ext ?_)
  match a with
  | ⟨0, _⟩ => show win1_1.index t (0 : Fin 1) * 64 + 1 * f.val = f.val; omega

theorem dblk_apply (c : Dev nD) (t : Fin cfg1.N) (r : Fin 10000) (h : 10000 * t.val + r.val < 100000) :
    dblk V c t (ix2 r 0) = darr V c (ix2 ⟨10000 * t.val + r.val, h⟩ 0) := by
  obtain ⟨-, -, -, e3, e4, -⟩ := idx_facts t
  show V c main_v10 (((cfg1.win 2).blk t).view.emb (ix2 r 0)) = V c main_v10 _
  refine congrArg (V c main_v10) (funext fun a => Fin.ext ?_)
  match a with
  | ⟨0, _⟩ => show win1_2.index t (0 : Fin 2) * 10000 + 1 * r.val = 10000 * t.val + r.val; omega
  | ⟨1, _⟩ => show win1_2.index t (1 : Fin 2) * 1 + 1 * 0 = 0; omega

theorem gblk_apply (c : Dev nD) (t : Fin cfg1.N) (r : Fin 10000) (h : 10000 * t.val + r.val < 100000) :
    gblk V c t (ix2 r 0) = garr V c (ix2 ⟨10000 * t.val + r.val, h⟩ 0) := by
  obtain ⟨-, -, -, -, -, e5, e6⟩ := idx_facts t
  show V c main_v43 (((cfg1.win 3).blk t).view.emb (ix2 r 0)) = V c main_v43 _
  refine congrArg (V c main_v43) (funext fun a => Fin.ext ?_)
  match a with
  | ⟨0, _⟩ => show win1_3.index t (0 : Fin 2) * 10000 + 1 * r.val = 10000 * t.val + r.val; omega
  | ⟨1, _⟩ => show win1_3.index t (1 : Fin 2) * 1 + 1 * 0 = 0; omega

end Blocks

/-! ## The accumulation over the ten points -/

section Accumulation
variable (V : (c : Dev nD) → (b : Ref sig .tc) → Buf (Elt Ideal) ((c : Thread nD τ).loc b))

/-- The second layer's features of every node, and every node's graph, off the entry arrays. -/
def feat (c : Dev nD) : Fin 100000 → Fin 64 → EReal :=
  layerK2 (fun n => Ideal.rsqrt (col (darr V c) n)) (cur2 (xarr V c)) (cur1 (barr V c))
def grp (c : Dev nD) : Fin 100000 → Option (Fin 128) := fun n => rowIn 128 (garr V c (ix2 n 0))

/-- Row block `s`'s share of the sums and of the counts (nothing beyond the tenth block). -/
def blkSum (c : Dev nD) (f : Fin 64) (g : Fin 128) (s : ℕ) : EReal :=
  if h : s < 10 then ∑ r : Fin 10000, feat V c ⟨10000 * s + r.val, by have := r.isLt; omega⟩ f * oh (grp V c) ⟨10000 * s + r.val, by have := r.isLt; omega⟩ g else 0
def blkCnt (c : Dev nD) (g : Fin 128) (s : ℕ) : EReal :=
  if h : s < 10 then ∑ r : Fin 10000, oh (grp V c) ⟨10000 * s + r.val, by have := r.isLt; omega⟩ g else 0

/-- One point's update of the sums: what was there plus the point's row block's share. -/
theorem step_sum (c : Dev nD) (t : Fin cfg1.N) (acc : Vec Ideal S64x128 .f32) (f : Fin 64) (g : Fin 128) :
    k1_pay4 (F := Ideal) (xblk V c t) (dblk V c t) (bblk V c t) (gblk V c t) acc (ix2 f g)
      = acc (ix2 f g) + blkSum V c f g t.val := by
  have ht : t.val < 10 := lt_of_lt_of_eq t.isLt N_1
  rw [pay4_apply, blkSum, dif_pos ht]
  refine congrArg (acc (ix2 f g) + ·) (Finset.sum_congr rfl fun r _ => ?_)
  have hr : 10000 * t.val + r.val < 100000 := by have := r.isLt; omega
  rw [xblk_apply V c t r f hr, dblk_apply V c t r hr, bblk_apply V c t f, gblk_apply V c t r hr]
  exact congrArg₂ (· * ·) rfl (if_congr (word_eq_iff_rowIn _ g) rfl rfl)

/-- One point's update of the counts. -/
theorem step_cnt (c : Dev nD) (t : Fin cfg1.N) (acc : Vec Ideal S1x128 .f32) (g : Fin 128) :
    k1_pay5 (F := Ideal) (gblk V c t) acc (ix2 (0 : Fin 1) g) = acc (ix2 (0 : Fin 1) g) + blkCnt V c g t.val := by
  have ht : t.val < 10 := lt_of_lt_of_eq t.isLt N_1
  rw [pay5_apply, blkCnt, dif_pos ht]
  refine congrArg (acc (ix2 (0 : Fin 1) g) + ·) (Finset.sum_congr rfl fun r _ => ?_)
  have hr : 10000 * t.val + r.val < 100000 := by have := r.isLt; omega
  rw [gblk_apply V c t r hr]
  exact if_congr (word_eq_iff_rowIn _ g) rfl rfl

/-- After point `n` the sums hold the shares of the row blocks up to `n`, added in point order. -/
theorem sums_inv (c : Dev nD) (f : Fin 64) (g : Fin 128) : ∀ (n : ℕ) (hn : n < cfg1.N),
    (outsAt1 V c n hn).1 (ix2 f g) = ∑ s ∈ Finset.range (n + 1), blkSum V c f g s
  | 0, hn => by
    rw [outsAt1_A V c ⟨0, hn⟩ rfl]; dsimp only
    refine (congrFun (out_A_4 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr rfl) (xblk V c ⟨0, hn⟩) (bblk V c ⟨0, hn⟩) (dblk V c ⟨0, hn⟩) (gblk V c ⟨0, hn⟩)) (ix2 f g)).trans ?_
    rw [step_sum V c ⟨0, hn⟩, Finset.sum_range_one]
    show Ideal.ofBits .f32 0x00000000#32 + _ = _
    rw [Ideal.ofBits_zero_f32, zero_add]
  | n + 1, hn => by
    have hN : cfg1.N = 10 := N_1
    have hB : ¬(⟨n + 1, hn⟩ : Fin cfg1.N).val % 10 = 0 := by dsimp only; omega
    rw [outsAt1_B V c ⟨n + 1, hn⟩ hB]; dsimp only
    refine (congrFun (out_B_4 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => hB ((hcond1_0 ⟨n + 1, hn⟩).mp h)) (xblk V c ⟨n + 1, hn⟩) (bblk V c ⟨n + 1, hn⟩) (dblk V c ⟨n + 1, hn⟩) (gblk V c ⟨n + 1, hn⟩)
      (outsAt1 V c n (Nat.lt_of_succ_lt hn)).1 (outsAt1 V c n (Nat.lt_of_succ_lt hn)).2) (ix2 f g)).trans ?_
    rw [step_sum V c ⟨n + 1, hn⟩, Finset.sum_range_succ _ (n + 1)]
    exact congrArg (· + blkSum V c f g (n + 1)) (sums_inv c f g n (Nat.lt_of_succ_lt hn))

/-- After point `n` the counts hold the shares of the row blocks up to `n`. -/
theorem cnt_inv (c : Dev nD) (g : Fin 128) : ∀ (n : ℕ) (hn : n < cfg1.N),
    (outsAt1 V c n hn).2 (ix2 (0 : Fin 1) g) = ∑ s ∈ Finset.range (n + 1), blkCnt V c g s
  | 0, hn => by
    rw [outsAt1_A V c ⟨0, hn⟩ rfl]; dsimp only
    refine (congrFun (out_A_5 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr rfl) (xblk V c ⟨0, hn⟩) (bblk V c ⟨0, hn⟩) (dblk V c ⟨0, hn⟩) (gblk V c ⟨0, hn⟩)) (ix2 (0 : Fin 1) g)).trans ?_
    rw [step_cnt V c ⟨0, hn⟩, Finset.sum_range_one]
    show Ideal.ofBits .f32 0x00000000#32 + _ = _
    rw [Ideal.ofBits_zero_f32, zero_add]
  | n + 1, hn => by
    have hN : cfg1.N = 10 := N_1
    have hB : ¬(⟨n + 1, hn⟩ : Fin cfg1.N).val % 10 = 0 := by dsimp only; omega
    rw [outsAt1_B V c ⟨n + 1, hn⟩ hB]; dsimp only
    refine (congrFun (out_B_5 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => hB ((hcond1_0 ⟨n + 1, hn⟩).mp h)) (xblk V c ⟨n + 1, hn⟩) (bblk V c ⟨n + 1, hn⟩) (dblk V c ⟨n + 1, hn⟩) (gblk V c ⟨n + 1, hn⟩)
      (outsAt1 V c n (Nat.lt_of_succ_lt hn)).1 (outsAt1 V c n (Nat.lt_of_succ_lt hn)).2) (ix2 (0 : Fin 1) g)).trans ?_
    rw [step_cnt V c ⟨n + 1, hn⟩, Finset.sum_range_succ _ (n + 1)]
    exact congrArg (· + blkCnt V c g (n + 1)) (cnt_inv c g n (Nat.lt_of_succ_lt hn))

end Accumulation

/-! ## The arrays after the last point -/

section Final
variable (V : (c : Dev nD) → (b : Ref sig .tc) → Buf (Elt Ideal) ((c : Thread nD τ).loc b))

/-- The ten shares are the sum over all the nodes. -/
theorem sums_last (c : Dev nD) (f : Fin 64) (g : Fin 128) (h9 : 9 < cfg1.N) :
    (outsAt1 V c 9 h9).1 (ix2 f g) = sumsK (grp V c) (feat V c) f g := by
  rw [sums_inv V c f g 9 h9]
  show ∑ s ∈ Finset.range 10, blkSum V c f g s = ∑ n, feat V c n f * oh (grp V c) n g
  rw [Finset.sum_range, ← sum_blocks (fun n => feat V c n f * oh (grp V c) n g)]
  refine Finset.sum_congr rfl fun s _ => ?_
  rw [blkSum, dif_pos s.isLt]

theorem cnt_last (c : Dev nD) (g : Fin 128) (h9 : 9 < cfg1.N) :
    (outsAt1 V c 9 h9).2 (ix2 (0 : Fin 1) g) = cntK (grp V c) g := by
  rw [cnt_inv V c g 9 h9]
  show ∑ s ∈ Finset.range 10, blkCnt V c g s = ∑ n, oh (grp V c) n g
  rw [Finset.sum_range, ← sum_blocks (fun n => oh (grp V c) n g)]
  refine Finset.sum_congr rfl fun s _ => ?_
  rw [blkCnt, dif_pos s.isLt]

/-- What the last point leaves in the sums' buffer is the target array. -/
theorem sums_at_last (c : Dev nD) (t : Fin cfg1.N) (h9 : t.val = 9) :
    (outsAt1 V c t.val t.isLt).1 = (reg1sums (V c main_v42) (V c main_arg7) (V c main_v10) (V c main_v43)) := by
  obtain ⟨n, hn⟩ := t
  obtain rfl : n = 9 := h9
  funext i
  obtain ⟨f, g, rfl⟩ : ∃ (f : Fin 64) (g : Fin 128), i = ix2 f g := ⟨i 0, i 1, eq_ix2 i⟩
  exact sums_last V c f g hn

theorem cnt_at_last (c : Dev nD) (t : Fin cfg1.N) (h9 : t.val = 9) :
    (outsAt1 V c t.val t.isLt).2 = (reg1cnt (V c main_v43)) := by
  obtain ⟨n, hn⟩ := t
  obtain rfl : n = 9 := h9
  funext i
  obtain ⟨z, g, rfl⟩ : ∃ (z : Fin 1) (g : Fin 128), i = ix2 z g := ⟨i 0, i 1, eq_ix2 i⟩
  obtain rfl : z = 0 := Subsingleton.elim _ _
  exact cnt_last V c g hn

/-- The one write-back of the sums, at the last point, writes the target array. -/
theorem flushed4_eq (c : Dev nD) (t : Fin cfg1.N) (hf : (cfg1.win 4).flush t = true) :
    (dat1 (F := Ideal) V c).flushed 4 t = ((cfg1.win 4).blk t).view.read (Elt Ideal) (reg1sums (V c main_v42) (V c main_arg7) (V c main_v10) (V c main_v43)) := by
  have hN : cfg1.N = 10 := N_1
  have h9 : t.val = 9 := by have := (flush1_4 t).mp hf; have := t.isLt; omega
  show (cfg1.win 4).cut (grid1.coords t) ((dat1 V c).after 4 t) = _
  rw [after1_4, sums_at_last V c t h9]
  obtain rfl : t = t1_9 := Fin.ext h9
  have hz' : (fun a => win1_4.index t1_9 a * main_v44_0.ty.shape.size a) = fun _ => 0 := funext fun a => by fin_cases a <;> decide
  exact (Memref.read_access_unit_zero (Elt Ideal) main_v44_0 hz' (fun a => by rw [congrFun hz' a]; simp) _).symm

theorem flushed5_eq (c : Dev nD) (t : Fin cfg1.N) (hf : (cfg1.win 5).flush t = true) :
    (dat1 (F := Ideal) V c).flushed 5 t = ((cfg1.win 5).blk t).view.read (Elt Ideal) (reg1cnt (V c main_v43)) := by
  have hN : cfg1.N = 10 := N_1
  have h9 : t.val = 9 := by have := (flush1_5 t).mp hf; have := t.isLt; omega
  show (cfg1.win 5).cut (grid1.coords t) ((dat1 V c).after 5 t) = _
  rw [after1_5, cnt_at_last V c t h9]
  obtain rfl : t = t1_9 := Fin.ext h9
  have hz' : (fun a => win1_5.index t1_9 a * main_v44_1.ty.shape.size a) = fun _ => 0 := funext fun a => by fin_cases a <;> decide
  exact (Memref.read_access_unit_zero (Elt Ideal) main_v44_1 hz' (fun a => by rw [congrFun hz' a]; simp) _).symm

end Final

theorem region1_sums (V : (c : Dev nD) → (b : Ref sig .tc) → Buf (Elt Ideal) ((c : Thread nD τ).loc b)) (c : Dev nD) :
    (dat1 (F := Ideal) V c).arrAt 4 cfg1.N
      = reg1sums (V c main_v42) (V c main_arg7) (V c main_v10) (V c main_v43) :=
  (dat1 (F := Ideal) V c).arrAt_eq_of_cover 4 _ (flushed4_eq V c) fun i => ⟨t1_9, (flush1_4 t1_9).mpr rfl, by
      show i ∈ ((View.whole main_v44_0).slice (win1_4.rect t1_9)).set
      rw [View.set_slice_whole, Rect.mem_set_unit]
      intro a
      have h0 : (i 0 : Nat) < 64 := (i 0).isLt
      have h1 : (i 1 : Nat) < 128 := (i 1).isLt
      match a with
      | ⟨0, _⟩ =>
        show win1_4.index t1_9 0 * win1_4.size 0 ≤ (i 0 : Nat) ∧ (i 0 : Nat) < win1_4.index t1_9 0 * win1_4.size 0 + win1_4.xsize (grid1.coords t1_9) 0
        rw [show win1_4.index t1_9 0 * win1_4.size 0 = 0 from by decide +kernel, show win1_4.xsize (grid1.coords t1_9) 0 = 64 from by decide +kernel]; omega
      | ⟨1, _⟩ =>
        show win1_4.index t1_9 1 * win1_4.size 1 ≤ (i 1 : Nat) ∧ (i 1 : Nat) < win1_4.index t1_9 1 * win1_4.size 1 + win1_4.xsize (grid1.coords t1_9) 1
        rw [show win1_4.index t1_9 1 * win1_4.size 1 = 0 from by decide +kernel, show win1_4.xsize (grid1.coords t1_9) 1 = 128 from by decide +kernel]; omega⟩

theorem region1_cnt (V : (c : Dev nD) → (b : Ref sig .tc) → Buf (Elt Ideal) ((c : Thread nD τ).loc b)) (c : Dev nD) :
    (dat1 (F := Ideal) V c).arrAt 5 cfg1.N = reg1cnt (V c main_v43) :=
  (dat1 (F := Ideal) V c).arrAt_eq_of_cover 5 _ (flushed5_eq V c) fun i => ⟨t1_9, (flush1_5 t1_9).mpr rfl, by
      show i ∈ ((View.whole main_v44_1).slice (win1_5.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_5.index t1_9 0 * win1_5.size 0 ≤ (i 0 : Nat) ∧ (i 0 : Nat) < win1_5.index t1_9 0 * win1_5.size 0 + win1_5.xsize (grid1.coords t1_9) 0
        rw [show win1_5.index t1_9 0 * win1_5.size 0 = 0 from by decide +kernel, show win1_5.xsize (grid1.coords t1_9) 0 = 1 from by decide +kernel]; omega
      | ⟨1, _⟩ =>
        show win1_5.index t1_9 1 * win1_5.size 1 ≤ (i 1 : Nat) ∧ (i 1 : Nat) < win1_5.index t1_9 1 * win1_5.size 1 + win1_5.xsize (grid1.coords t1_9) 1
        rw [show win1_5.index t1_9 1 * win1_5.size 1 = 0 from by decide +kernel, show win1_5.xsize (grid1.coords t1_9) 1 = 128 from by decide +kernel]; omega⟩

end Cert.KernelIdeal.R1
end
-- ==== Proof.KRegion2.lean ====
import proofs.«411394_j16045997818200_2_alg».proof.Proof.Gen.KernelIdeal.Frame
import Idealize.ShloMosaic.PureOps.Ideal
import Idealize.ShloMosaic.Lib.Pipeline.Value

noncomputable section

namespace Cert.KernelIdeal.R2

open Cert.KernelIdeal Cert.KernelIdeal.Facts₀ Cert.KernelIdeal.Facts Idealize.ShloMosaic Idealize.ShloMosaic.TcCoe Idealize.SL.Sem Cert.KernelIdeal.Gen

section Blocks

variable (V : (c : Dev nD) → (b : Ref sig .tc) → Buf (Elt Ideal) ((c : Thread nD τ).loc b))

/-! # Region 2: the output array is the body's function of the whole entry arrays

The grid has one point, and at it every window's block index is zero on every axis, so each block is
its whole array: coordinate `y` of a block sits at `0 * size + 1 * y = y` of the array. -/

/-- Every window's block index is zero on each of its axes, at every grid point. -/
private theorem index_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

/-- Window 0's block is the whole array `main_v50`. -/
private theorem block0_eq (c : Dev nD) (t : Fin cfg2.N) :
    (iblk2 (F := Ideal) V c 0 t : Vec Ideal S128x64 .f32) = V c main_v50 := by
  obtain ⟨e0, e1, -⟩ := index_zero t
  funext y
  show V c main_v50 (((cfg2.win 0).blk t).view.emb y) = V c main_v50 y
  congr 1
  funext a; apply Fin.ext
  match a with
  | ⟨0, _⟩ => show win2_0.index t (0 : Fin 2) * 128 + 1 * (y 0).val = (y 0).val; omega
  | ⟨1, _⟩ => show win2_0.index t (1 : Fin 2) * 64 + 1 * (y 1).val = (y 1).val; omega

/-- Window 1's block is the whole array `main_arg8`. -/
private theorem block1_eq (c : Dev nD) (t : Fin cfg2.N) :
    (iblk2 (F := Ideal) V c 1 t : Vec Ideal S64x10 .f32) = V c main_arg8 := by
  obtain ⟨-, -, e0, e1, -⟩ := index_zero t
  funext y
  show V c main_arg8 (((cfg2.win 1).blk t).view.emb y) = V c main_arg8 y
  congr 1
  funext a; apply Fin.ext
  match a with
  | ⟨0, _⟩ => show win2_1.index t (0 : Fin 2) * 64 + 1 * (y 0).val = (y 0).val; omega
  | ⟨1, _⟩ => show win2_1.index t (1 : Fin 2) * 10 + 1 * (y 1).val = (y 1).val; omega

/-- Window 2's block is the whole array `main_arg9`. -/
private theorem block2_eq (c : Dev nD) (t : Fin cfg2.N) :
    (iblk2 (F := Ideal) V c 2 t : Vec Ideal S10 .f32) = V c main_arg9 := by
  obtain ⟨-, -, -, -, e0, -⟩ := index_zero t
  funext y
  show V c main_arg9 (((cfg2.win 2).blk t).view.emb y) = V c main_arg9 y
  congr 1
  funext a; apply Fin.ext
  match a with
  | ⟨0, _⟩ => show win2_2.index t (0 : Fin 1) * 10 + 1 * (y 0).val = (y 0).val; omega

/-- Window 3's block is the whole array `main_arg10`. -/
private theorem block3_eq (c : Dev nD) (t : Fin cfg2.N) :
    (iblk2 (F := Ideal) V c 3 t : Vec Ideal S10x10 .f32) = V c main_arg10 := by
  obtain ⟨-, -, -, -, -, e0, e1, -⟩ := index_zero t
  funext y
  show V c main_arg10 (((cfg2.win 3).blk t).view.emb y) = V c main_arg10 y
  congr 1
  funext a; apply Fin.ext
  match a with
  | ⟨0, _⟩ => show win2_3.index t (0 : Fin 2) * 10 + 1 * (y 0).val = (y 0).val; omega
  | ⟨1, _⟩ => show win2_3.index t (1 : Fin 2) * 10 + 1 * (y 1).val = (y 1).val; omega

/-- Window 4's block is the whole array `main_arg11`. -/
private theorem block4_eq (c : Dev nD) (t : Fin cfg2.N) :
    (iblk2 (F := Ideal) V c 4 t : Vec Ideal S10 .f32) = V c main_arg11 := by
  obtain ⟨-, -, -, -, -, -, -, e0, -⟩ := index_zero t
  funext y
  show V c main_arg11 (((cfg2.win 4).blk t).view.emb y) = V c main_arg11 y
  congr 1
  funext a; apply Fin.ext
  match a with
  | ⟨0, _⟩ => show win2_4.index t (0 : Fin 1) * 10 + 1 * (y 0).val = (y 0).val; omega

/-- The output window's block sits in the output array at the identity. -/
private theorem emb5_eq (t : Fin cfg2.N) (y : S128x10.Idx) :
    ((cfg2.win 5).blk t).view.emb y = y := by
  obtain ⟨-, -, -, -, -, -, -, -, e0, e1⟩ := index_zero t
  funext a; apply Fin.ext
  match a with
  | ⟨0, _⟩ => show win2_5.index t (0 : Fin 2) * 128 + 1 * (y 0).val = (y 0).val; omega
  | ⟨1, _⟩ => show win2_5.index t (1 : Fin 2) * 10 + 1 * (y 1).val = (y 1).val; omega

/-- What the point writes back to the output array is the output block of the body's function of the
    whole entry arrays. -/
private theorem flushed5_eq (c : Dev nD) (t : Fin cfg2.N) :
    (dat2 (F := Ideal) V c).flushed 5 t
      = ((cfg2.win 5).blk t).view.read (Elt Ideal)
          (out2_5 (F := Ideal) (V c main_v50) (V c main_arg8) (V c main_arg9) (V c main_arg10) (V c main_arg11)) := by
  show (cfg2.win 5).cut (grid2.coords t) ((dat2 V c).after 5 t) = _
  rw [after2_5, block0_eq, block1_eq, block2_eq, block3_eq, block4_eq]
  funext y
  exact congrArg
    (out2_5 (F := Ideal) (V c main_v50) (V c main_arg8) (V c main_arg9) (V c main_arg10) (V c main_arg11))
    (emb5_eq t y).symm

/-- The one point's block of the output window is the whole output array. -/
private theorem mem_block5 (t : Fin cfg2.N) (i : S128x10.Idx) : i ∈ ((cfg2.win 5).blk t).view.set := by
  show i ∈ ((View.whole main_v51).slice (win2_5.rect t)).set
  rw [View.set_slice_whole, Rect.mem_set_unit]
  obtain ⟨-, -, -, -, -, -, -, -, e0, e1⟩ := index_zero t
  intro a
  match a with
  | ⟨0, _⟩ =>
    show win2_5.index t (0 : Fin 2) * 128 ≤ (i 0).val ∧ (i 0).val < win2_5.index t (0 : Fin 2) * 128 + 128
    have hi : (i 0).val < 128 := (i 0).isLt; omega
  | ⟨1, _⟩ =>
    show win2_5.index t (1 : Fin 2) * 10 ≤ (i 1).val ∧ (i 1).val < win2_5.index t (1 : Fin 2) * 10 + 10
    have hi : (i 1).val < 10 := (i 1).isLt; omega

end Blocks

/-- The output array after the region's single point is the body's function of the whole entry arrays:
    the point writes back its block of that function, and that block is the whole array. -/
theorem region2_value (V : (c : Dev nD) → (b : Ref sig .tc) → Buf (Elt Ideal) ((c : Thread nD τ).loc b)) (c : Dev nD) :
    (dat2 (F := Ideal) V c).arrAt 5 cfg2.N
      = out2_5 (F := Ideal) (V c main_v50) (V c main_arg8) (V c main_arg9) (V c main_arg10) (V c main_arg11) :=
  (dat2 (F := Ideal) V c).arrAt_eq_of_cover 5 _ (fun t _ => flushed5_eq V c t)
    (fun i => ⟨t2_0, flush2_5 t2_0, mem_block5 t2_0 i⟩)

end Cert.KernelIdeal.R2

end
-- ==== Proof.KValue.lean ====
import proofs.«411394_j16045997818200_2_alg».proof.Proof.Gen.KernelIdeal.Frame
import proofs.«411394_j16045997818200_2_alg».proof.Proof.HostRead
import proofs.«411394_j16045997818200_2_alg».proof.Proof.KRegion0
import proofs.«411394_j16045997818200_2_alg».proof.Proof.KRegion1
import proofs.«411394_j16045997818200_2_alg».proof.Proof.KRegion2

set_option maxRecDepth 16384

noncomputable section

namespace Cert.KernelIdeal.Value

open Cert.KernelIdeal Cert.KernelIdeal.Gen Cert.KernelIdeal.Facts₀ Cert.KernelIdeal.Facts
open Idealize.ShloMosaic Idealize.ShloMosaic.TcCoe Idealize.ShloMosaic.StableHlo Idealize.SL.Sem Cert.GraphPool

variable (m : (ℓ : Loc nD τ sig) → Buf (Elt Ideal) ℓ) (ρ : Dev nD → PrngReg)

/-- A buffer that no operation of a host stretch writes keeps its contents across the stretch. -/
local macro "unwritten" : tactic => `(tactic| (
  refine StableHlo.after_of_forall_not_mem _ _ (List.forall_iff_forall_mem.mp ?_)
  simp only [hostOps0, hostOps0_1, hostOps0_2, hostOps0_3, hostOps0_4, hostOps1, hostOps2, hostOps2_1, hostOps2_2,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The same, back through every stretch a boundary's contents are folded from. -/
local macro "unwritten_back" : tactic => `(tactic| (repeat (refine Eq.trans (by unwritten) ?_)))

/-! ## The kernel program's result as one function of its arguments -/

/-- The pooled array the third call is entered with. -/
def KP (x0 : KT.Ff (F := Ideal) S100000x128) (x1 x2 : KT.Fi (F := Ideal) S1600000) (x3 : KT.Fi (F := Ideal) S100000)
    (x4 : KT.Ff (F := Ideal) S128x128) (x5 : KT.Ff (F := Ideal) S128) (x6 : KT.Ff (F := Ideal) S128x64)
    (x7 : KT.Ff (F := Ideal) S64) : KT.Ff (F := Ideal) S128x64 :=
  KT.pool (F := Ideal)
    (reg1sums
      (KT.raw2 (F := Ideal)
        (reg0 (KT.raw1 (F := Ideal) x0 x1 x2 (KT.deg (F := Ideal) x1)) x4 x5 x6
          (KT.colOf (F := Ideal) (KT.deg (F := Ideal) x2)) (KT.colOf (F := Ideal) (KT.deg (F := Ideal) x1)))
        x1 x2)
      x7 (KT.colOf (F := Ideal) (KT.deg (F := Ideal) x2)) (KT.colOfI (F := Ideal) x3))
    (reg1cnt (KT.colOfI (F := Ideal) x3))

/-- The result: the third call on the pooled array and the classifier's weights. -/
def KV (x0 : KT.Ff (F := Ideal) S100000x128) (x1 x2 : KT.Fi (F := Ideal) S1600000) (x3 : KT.Fi (F := Ideal) S100000)
    (x4 : KT.Ff (F := Ideal) S128x128) (x5 : KT.Ff (F := Ideal) S128) (x6 : KT.Ff (F := Ideal) S128x64)
    (x7 : KT.Ff (F := Ideal) S64) (x8 : KT.Ff (F := Ideal) S64x10) (x9 : KT.Ff (F := Ideal) S10)
    (x10 : KT.Ff (F := Ideal) S10x10) (x11 : KT.Ff (F := Ideal) S10) : KT.Ff (F := Ideal) S128x10 :=
  out2_5 (F := Ideal) (KP x0 x1 x2 x3 x4 x5 x6 x7) x8 x9 x10 x11

/-! ## The arguments at the boundaries where a stretch or a call reads them -/

theorem W4_arg0 (c : Dev nD) : W4 m ρ c (Proc.devRef .tc main_arg0) = m ((c : Thread nD τ).loc main_arg0) := by
  unwritten_back
  rfl

theorem W4_arg1 (c : Dev nD) : W4 m ρ c (Proc.devRef .tc main_arg1) = m ((c : Thread nD τ).loc main_arg1) := by
  unwritten_back
  rfl

theorem W4_arg2 (c : Dev nD) : W4 m ρ c (Proc.devRef .tc main_arg2) = m ((c : Thread nD τ).loc main_arg2) := by
  unwritten_back
  rfl

theorem W2_arg2 (c : Dev nD) : W2 m ρ c (Proc.devRef .tc main_arg2) = m ((c : Thread nD τ).loc main_arg2) := by
  unwritten_back
  rfl

theorem W5_arg1 (c : Dev nD) : W5 m ρ c (Proc.devRef .tc main_arg1) = m ((c : Thread nD τ).loc main_arg1) := by
  unwritten_back
  rfl

theorem W5_arg2 (c : Dev nD) : W5 m ρ c (Proc.devRef .tc main_arg2) = m ((c : Thread nD τ).loc main_arg2) := by
  unwritten_back
  rfl

theorem W5_arg3 (c : Dev nD) : W5 m ρ c (Proc.devRef .tc main_arg3) = m ((c : Thread nD τ).loc main_arg3) := by
  unwritten_back
  rfl

theorem W5_arg4 (c : Dev nD) : W5 m ρ c (Proc.devRef .tc main_arg4) = m ((c : Thread nD τ).loc main_arg4) := by
  unwritten_back
  rfl

theorem W5_arg5 (c : Dev nD) : W5 m ρ c (Proc.devRef .tc main_arg5) = m ((c : Thread nD τ).loc main_arg5) := by
  unwritten_back
  rfl

theorem W5_arg6 (c : Dev nD) : W5 m ρ c (Proc.devRef .tc main_arg6) = m ((c : Thread nD τ).loc main_arg6) := by
  unwritten_back
  rfl

theorem W5_arg7 (c : Dev nD) : W5 m ρ c (Proc.devRef .tc main_arg7) = m ((c : Thread nD τ).loc main_arg7) := by
  unwritten_back
  rfl

/-! ## Before the first call -/

theorem W4_v4 (c : Dev nD) : W4 m ρ c (Proc.devRef .tc main_v4) = KT.deg (F := Ideal) (m ((c : Thread nD τ).loc main_arg1)) := by
  refine Eq.trans (by unwritten) (Eq.trans (by unwritten) ?_)
  exact HostRead.v4_eq (W0 m ρ c)

theorem W4_v8 (c : Dev nD) : W4 m ρ c (Proc.devRef .tc main_v8) = KT.deg (F := Ideal) (m ((c : Thread nD τ).loc main_arg2)) := by
  refine (HostRead.v8_eq (W2 m ρ c) ?_).trans ?_
  · refine Eq.trans (by unwritten) ?_
    exact HostRead.v0_eq (W0 m ρ c)
  · rw [W2_arg2]

theorem W5_v31 (c : Dev nD) : W5 m ρ c (Proc.devRef .tc main_v31)
    = KT.raw1 (F := Ideal) (m ((c : Thread nD τ).loc main_arg0)) (m ((c : Thread nD τ).loc main_arg1)) (m ((c : Thread nD τ).loc main_arg2)) (KT.deg (F := Ideal) (m ((c : Thread nD τ).loc main_arg1))) := by
  refine (HostRead.v31_eq (W4 m ρ c)).trans ?_
  rw [W4_arg0, W4_arg1, W4_arg2, W4_v4]

theorem W5_v10 (c : Dev nD) : W5 m ρ c (Proc.devRef .tc main_v10) = KT.colOf (F := Ideal) (KT.deg (F := Ideal) (m ((c : Thread nD τ).loc main_arg2))) := by
  refine (HostRead.v10_eq (W4 m ρ c)).trans ?_
  rw [W4_v8]

theorem W5_v11 (c : Dev nD) : W5 m ρ c (Proc.devRef .tc main_v11) = KT.colOf (F := Ideal) (KT.deg (F := Ideal) (m ((c : Thread nD τ).loc main_arg1))) := by
  refine (HostRead.v11_eq (W4 m ρ c)).trans ?_
  rw [W4_v4]

/-! ## The first call, and the stretch after it -/

theorem W6_v32 (c : Dev nD) : W6 m ρ c (Proc.devRef .tc main_v32)
    = reg0 (KT.raw1 (F := Ideal) (m ((c : Thread nD τ).loc main_arg0)) (m ((c : Thread nD τ).loc main_arg1)) (m ((c : Thread nD τ).loc main_arg2)) (KT.deg (F := Ideal) (m ((c : Thread nD τ).loc main_arg1)))) (m ((c : Thread nD τ).loc main_arg4)) (m ((c : Thread nD τ).loc main_arg5)) (m ((c : Thread nD τ).loc main_arg6))
        (KT.colOf (F := Ideal) (KT.deg (F := Ideal) (m ((c : Thread nD τ).loc main_arg2)))) (KT.colOf (F := Ideal) (KT.deg (F := Ideal) (m ((c : Thread nD τ).loc main_arg1)))) := by
  refine (W6_arr m ρ c 6).trans ?_
  rw [R0.region0_value (V5 m ρ) c]
  show reg0 (W5 m ρ c (Proc.devRef .tc main_v31)) (W5 m ρ c (Proc.devRef .tc main_arg4)) (W5 m ρ c (Proc.devRef .tc main_arg5))
    (W5 m ρ c (Proc.devRef .tc main_arg6)) (W5 m ρ c (Proc.devRef .tc main_v10)) (W5 m ρ c (Proc.devRef .tc main_v11)) = _
  rw [W5_v31, W5_arg4, W5_arg5, W5_arg6, W5_v10, W5_v11]

theorem W6_arg (c : Dev nD) :
    W6 m ρ c (Proc.devRef .tc main_arg1) = (m ((c : Thread nD τ).loc main_arg1)) ∧ W6 m ρ c (Proc.devRef .tc main_arg2) = (m ((c : Thread nD τ).loc main_arg2))
    ∧ W6 m ρ c (Proc.devRef .tc main_arg3) = (m ((c : Thread nD τ).loc main_arg3)) ∧ W6 m ρ c (Proc.devRef .tc main_arg7) = (m ((c : Thread nD τ).loc main_arg7))
    ∧ W6 m ρ c (Proc.devRef .tc main_v10) = KT.colOf (F := Ideal) (KT.deg (F := Ideal) (m ((c : Thread nD τ).loc main_arg2))) :=
  ⟨(W6_of_ne m ρ c main_arg1 (by decide)).trans (W5_arg1 m ρ c), (W6_of_ne m ρ c main_arg2 (by decide)).trans (W5_arg2 m ρ c),
   (W6_of_ne m ρ c main_arg3 (by decide)).trans (W5_arg3 m ρ c), (W6_of_ne m ρ c main_arg7 (by decide)).trans (W5_arg7 m ρ c),
   ((W6_arr m ρ c 4).trans (((dat0 (V5 m ρ) c).arrAt_in 4 rfl _).trans (A_eq0 (V5 m ρ) c 4))).trans (W5_v10 m ρ c)⟩

theorem W7_v42 (c : Dev nD) : W7 m ρ c (Proc.devRef .tc main_v42)
    = KT.raw2 (F := Ideal)
        (reg0 (KT.raw1 (F := Ideal) (m ((c : Thread nD τ).loc main_arg0)) (m ((c : Thread nD τ).loc main_arg1)) (m ((c : Thread nD τ).loc main_arg2)) (KT.deg (F := Ideal) (m ((c : Thread nD τ).loc main_arg1)))) (m ((c : Thread nD τ).loc main_arg4)) (m ((c : Thread nD τ).loc main_arg5)) (m ((c : Thread nD τ).loc main_arg6))
          (KT.colOf (F := Ideal) (KT.deg (F := Ideal) (m ((c : Thread nD τ).loc main_arg2)))) (KT.colOf (F := Ideal) (KT.deg (F := Ideal) (m ((c : Thread nD τ).loc main_arg1)))))
        (m ((c : Thread nD τ).loc main_arg1)) (m ((c : Thread nD τ).loc main_arg2)) := by
  refine (HostRead.v42_eq (W6 m ρ c)).trans ?_
  rw [W6_v32, (W6_arg m ρ c).1, (W6_arg m ρ c).2.1]

theorem W7_v43 (c : Dev nD) : W7 m ρ c (Proc.devRef .tc main_v43) = KT.colOfI (F := Ideal) (m ((c : Thread nD τ).loc main_arg3)) := by
  refine (HostRead.v43_eq (W6 m ρ c)).trans ?_
  rw [(W6_arg m ρ c).2.2.1]

theorem W7_v10 (c : Dev nD) : W7 m ρ c (Proc.devRef .tc main_v10) = KT.colOf (F := Ideal) (KT.deg (F := Ideal) (m ((c : Thread nD τ).loc main_arg2))) := by
  refine Eq.trans (by unwritten) ?_
  exact (W6_arg m ρ c).2.2.2.2

theorem W7_arg7 (c : Dev nD) : W7 m ρ c (Proc.devRef .tc main_arg7) = (m ((c : Thread nD τ).loc main_arg7)) := by
  refine Eq.trans (by unwritten) ?_
  exact (W6_arg m ρ c).2.2.2.1

/-! ## The second call, and the stretches after it -/

theorem W8_v44_0 (c : Dev nD) : W8 m ρ c (Proc.devRef .tc main_v44_0)
    = reg1sums
        (KT.raw2 (F := Ideal)
          (reg0 (KT.raw1 (F := Ideal) (m ((c : Thread nD τ).loc main_arg0)) (m ((c : Thread nD τ).loc main_arg1)) (m ((c : Thread nD τ).loc main_arg2)) (KT.deg (F := Ideal) (m ((c : Thread nD τ).loc main_arg1)))) (m ((c : Thread nD τ).loc main_arg4)) (m ((c : Thread nD τ).loc main_arg5)) (m ((c : Thread nD τ).loc main_arg6))
            (KT.colOf (F := Ideal) (KT.deg (F := Ideal) (m ((c : Thread nD τ).loc main_arg2)))) (KT.colOf (F := Ideal) (KT.deg (F := Ideal) (m ((c : Thread nD τ).loc main_arg1)))))
          (m ((c : Thread nD τ).loc main_arg1)) (m ((c : Thread nD τ).loc main_arg2)))
        (m ((c : Thread nD τ).loc main_arg7)) (KT.colOf (F := Ideal) (KT.deg (F := Ideal) (m ((c : Thread nD τ).loc main_arg2)))) (KT.colOfI (F := Ideal) (m ((c : Thread nD τ).loc main_arg3))) := by
  refine (W8_arr m ρ c 4).trans ?_
  rw [R1.region1_sums (V7 m ρ) c]
  show reg1sums (W7 m ρ c (Proc.devRef .tc main_v42)) (W7 m ρ c (Proc.devRef .tc main_arg7)) (W7 m ρ c (Proc.devRef .tc main_v10))
    (W7 m ρ c (Proc.devRef .tc main_v43)) = _
  rw [W7_v42, W7_arg7, W7_v10, W7_v43]

theorem W8_v44_1 (c : Dev nD) : W8 m ρ c (Proc.devRef .tc main_v44_1) = reg1cnt (KT.colOfI (F := Ideal) (m ((c : Thread nD τ).loc main_arg3))) := by
  refine (W8_arr m ρ c 5).trans ?_
  rw [R1.region1_cnt (V7 m ρ) c]
  show reg1cnt (W7 m ρ c (Proc.devRef .tc main_v43)) = _
  rw [W7_v43]

theorem W11_v50 (c : Dev nD) : W11 m ρ c (Proc.devRef .tc main_v50)
    = KP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (HostRead.v50_eq (W8 m ρ c)).trans ?_
  rw [W8_v44_0, W8_v44_1]
  rfl

/-! ## The third call: the result buffer at the last boundary -/

theorem W12_v51 (c : Dev nD) : W12 m ρ c (Proc.devRef .tc main_v51)
    = KV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 5).trans ?_
  rw [R2.region2_value (V11 m ρ) c]
  show out2_5 (F := Ideal) (W11 m ρ c (Proc.devRef .tc main_v50)) (W11 m ρ c (Proc.devRef .tc main_arg8))
    (W11 m ρ c (Proc.devRef .tc main_arg9)) (W11 m ρ c (Proc.devRef .tc main_arg10)) (W11 m ρ c (Proc.devRef .tc main_arg11)) = _
  have h8 : W11 m ρ c (Proc.devRef .tc main_arg8) = (m ((c : Thread nD τ).loc main_arg8)) :=
    ((W12_arr m ρ c 1).trans (((dat2 (V11 m ρ) c).arrAt_in 1 rfl _).trans (A_eq2 (V11 m ρ) c 1))).symm.trans (W12_main_arg8 m ρ c)
  have h9 : W11 m ρ c (Proc.devRef .tc main_arg9) = (m ((c : Thread nD τ).loc main_arg9)) :=
    ((W12_arr m ρ c 2).trans (((dat2 (V11 m ρ) c).arrAt_in 2 rfl _).trans (A_eq2 (V11 m ρ) c 2))).symm.trans (W12_main_arg9 m ρ c)
  have h10 : W11 m ρ c (Proc.devRef .tc main_arg10) = (m ((c : Thread nD τ).loc main_arg10)) :=
    ((W12_arr m ρ c 3).trans (((dat2 (V11 m ρ) c).arrAt_in 3 rfl _).trans (A_eq2 (V11 m ρ) c 3))).symm.trans (W12_main_arg10 m ρ c)
  have h11 : W11 m ρ c (Proc.devRef .tc main_arg11) = (m ((c : Thread nD τ).loc main_arg11)) :=
    ((W12_arr m ρ c 4).trans (((dat2 (V11 m ρ) c).arrAt_in 4 rfl _).trans (A_eq2 (V11 m ρ) c 4))).symm.trans (W12_main_arg11 m ρ c)
  rw [W11_v50, h8, h9, h10, h11]
  rfl

end Cert.KernelIdeal.Value

end
-- ==== Proof.Decode.lean ====
import proofs.«411394_j16045997818200_2_alg».proof.Proof.Spec
import Idealize.ShloMosaic.PureOps.ShapeOps
import Idealize.ShloMosaic.Lib.StableHlo.Predicate

noncomputable section

namespace Cert.GraphPool

open Idealize.ShloMosaic Idealize.ShloMosaic.ValueIdx

/-- Any entry of a list that is a singleton is its one element. -/
private theorem getElem_of_eq_singleton {α : Type} {l : List α} {a : α} (h : l = [a]) (i : Nat) (hi : i < l.length) :
    l[i] = a := by
  subst h
  have : i = 0 := by simpa using hi
  subst this
  rfl

/-- The position of an element in the singleton list holding it is zero. -/
private theorem idxOf_of_eq_singleton {α : Type} [DecidableEq α] {l : List α} {a : α} (h : l = [a]) : l.idxOf a = 0 := by
  subst h; simp

theorem gather_rows_apply {α : Type} {C : Nat} (d : GatherDims ⟨2, ![100000, C]⟩ ⟨2, ![1600000, 1]⟩ ⟨2, ![1600000, C]⟩)
    (hod : d.offsetDims = [1]) (hcoll : d.collapsedSliceDims = [0]) (hob : d.operandBatchingDims = [])
    (hsim : d.startIndexMap = [0]) (hivd : d.indexVectorDim = 1) (hss : d.sliceSizes = ![1, C])
    (x : (⟨2, ![100000, C]⟩ : Shape).Idx → α) (idx : IVec ⟨2, ![1600000, 1]⟩ 32) (e : Fin 1600000) (k : Fin C) :
    Host.gather d x idx (ix2 e k) = x (ix2 (rowClamp (idx (ix2 e 0))) k) := by
  have hb : ∀ a, a ∉ d.operandBatchingDims := fun a => by rw [hob]; exact List.not_mem_nil
  -- the result's batch axes are the axes that are not offset axes: axis 0 alone
  have hbatch : d.batchDims = [0] := by
    show Shape.kept _ d.offsetDims = [0]
    rw [hod]; rfl
  -- axis 0 is collapsed and start-indexed: the clamped start, no batching and no offset coordinate
  have h0 : (d.operandIdx (ix2 e k) idx 0).val = min (idx (ix2 e 0)).toInt.toNat 99999 := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e k) idx 0 + d.batchCoord (ix2 e k) 0 + d.offCoord (ix2 e k) 0 = _
    rw [d.batchCoord_eq_zero _ _ (hb _), d.offCoord_eq_zero _ _ hk, Nat.add_zero]
    unfold GatherDims.start
    rw [dif_pos hm]
    show min (idx _).toInt.toNat (100000 - d.sliceSizes 0) = _
    rw [hsl]
    have hsi : d.siIdx (ix2 e k) ⟨d.startIndexMap.idxOf 0, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        rw [getElem_of_eq_singleton hbatch]
        rfl
      | ⟨1, _⟩ =>
        unfold GatherDims.siIdx
        rw [dif_pos (by rw [hivd])]
        apply Fin.ext
        show List.idxOf (0 : Fin 2) d.startIndexMap = 0
        exact idxOf_of_eq_singleton hsim
    rw [hsi]
  -- axis 1 is the offset axis: start 0, no batching, the result's own coordinate on its offset axis 1
  have h1 : (d.operandIdx (ix2 e k) idx 1).val = k.val := by
    have hk : (1 : Fin 2) ∈ d.sKept := by rw [GatherDims.mem_sKept, hcoll]; simp [hob]
    have hm : (1 : Fin 2) ∉ d.startIndexMap := by rw [hsim]; simp
    show d.start (ix2 e k) idx 1 + d.batchCoord (ix2 e k) 1 + d.offCoord (ix2 e k) 1 = _
    rw [d.batchCoord_eq_zero _ _ (hb _), Nat.add_zero]
    unfold GatherDims.start GatherDims.offCoord
    rw [dif_neg hm, dif_pos hk, Nat.zero_add, getElem_of_eq_singleton hod]
    rfl
  unfold Host.gather
  congr 1
  funext a
  apply Fin.ext
  match a with
  | ⟨0, _⟩ => exact h0
  | ⟨1, _⟩ => exact h1

theorem gather_flat_apply {α : Type} (d : GatherDims ⟨1, ![100000]⟩ ⟨2, ![1600000, 1]⟩ ⟨1, ![1600000]⟩)
    (hcoll : d.collapsedSliceDims = [0]) (hob : d.operandBatchingDims = [])
    (hsim : d.startIndexMap = [0]) (hivd : d.indexVectorDim = 1)
    (x : (⟨1, ![100000]⟩ : Shape).Idx → α) (idx : IVec ⟨2, ![1600000, 1]⟩ 32) (e : Fin 1600000) :
    Host.gather d x idx (ix1 e) = x (ix1 (rowClamp (idx (ix2 e 0)))) := by
  have h1 : (ix1 e : (⟨1, ![1600000]⟩ : Shape).Idx) = Shape.Idx.ofFin e := by
    funext a; match a with | ⟨0, _⟩ => rfl
  have h2 : (StableHlo.Predicate.ixP e : (⟨2, ![1600000, 1]⟩ : Shape).Idx) = ix2 e 0 := by
    funext a; match a with | ⟨0, _⟩ => rfl | ⟨1, _⟩ => rfl
  rw [h1, StableHlo.Predicate.gather_take d hcoll hob hsim hivd x idx e (by decide)]
  congr 1
  funext a
  match a with
  | ⟨0, _⟩ =>
    apply Fin.ext
    show min (idx (StableHlo.Predicate.ixP e)).toInt.toNat (100000 - 1) = min (idx (ix2 e 0)).toInt.toNat 99999
    rw [h2]

/-- A rank-1 index set is its one coordinate range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- WHERE A ROW UPDATE LANDS: element `(e, k)` of the updates goes to row `idx[e, 0]` (read signed, not clamped), column `k`,
    when that row is one of the operand's; it is dropped otherwise. -/
theorem scatter_rows_idx {N M C : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1) (idx : IVec ⟨2, ![M, 1]⟩ 32) (e : Fin M) (k : Fin C) :
    d.resultIdx? (ix2 e k) idx = (rowIn N (idx (ix2 e 0))).map (fun n => ix2 n k) := by
  -- the updates' scatter axes are the axes that are not window axes: axis 0 alone
  have hus : d.uScatter = [0] := by
    show Shape.kept _ d.updateWindowDims = [0]
    rw [huw]; rfl
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept]
  have hm0 : (0 : Fin 2) ∈ d.scatterDimsToOperandDims := by rw [hsd]; exact List.mem_singleton.mpr rfl
  have hm1 : (1 : Fin 2) ∉ d.scatterDimsToOperandDims := by rw [hsd]; simp
  -- axis 0: the start is the signed word, the window coordinate 0
  have hs0 : d.start (ix2 e k) idx 0 = (idx (ix2 e 0)).toInt := by
    unfold ScatterDims.start
    rw [dif_pos hm0]
    have hsi : d.siIdx (ix2 e k) ⟨d.scatterDimsToOperandDims.idxOf 0, List.idxOf_lt_length_iff.2 hm0⟩ = ix2 e 0 := by
      funext b
      match b with
      | ⟨0, _⟩ =>
        unfold ScatterDims.siIdx
        rw [dif_neg (by rw [hivd]; simp)]
        unfold ScatterDims.siCoord
        apply Fin.ext
        simp only [Fin.val_cast]
        rw [getElem_of_eq_singleton hus]
        rfl
      | ⟨1, _⟩ =>
        unfold ScatterDims.siIdx
        rw [dif_pos (by rw [hivd])]
        apply Fin.ext
        show List.idxOf (0 : Fin 2) d.scatterDimsToOperandDims = 0
        exact idxOf_of_eq_singleton hsd
    rw [hsi]
  have hw0 : d.window (ix2 e k) 0 = 0 := by
    unfold ScatterDims.window; rw [dif_neg hk0]
  -- axis 1: the start is 0, the window coordinate the update's column
  have hs1 : d.start (ix2 e k) idx 1 = 0 := by
    unfold ScatterDims.start; rw [dif_neg hm1]
  have hw1 : d.window (ix2 e k) 1 = k.val := by
    unfold ScatterDims.window
    rw [dif_pos hk1, getElem_of_eq_singleton huw]
    rfl
  have hcond : (∀ a : Fin 2, 0 ≤ d.start (ix2 e k) idx a + d.window (ix2 e k) a ∧
        d.start (ix2 e k) idx a + d.window (ix2 e k) a < (![N, C] a : Nat))
      ↔ (0 ≤ (idx (ix2 e 0)).toInt ∧ (idx (ix2 e 0)).toInt < N) := by
    rw [Fin.forall_fin_two, hs0, hw0, hs1, hw1]
    have := k.isLt
    constructor
    · rintro ⟨⟨h1, h2⟩, _⟩
      exact ⟨by simpa using h1, by simpa using h2⟩
    · rintro ⟨h1, h2⟩
      refine ⟨⟨by simpa using h1, by simpa using h2⟩, ?_, ?_⟩
      · simp
      · show (0 : Int) + (k.val : Int) < (C : Int)
        omega
  unfold ScatterDims.resultIdx? rowIn
  by_cases h : 0 ≤ (idx (ix2 e 0)).toInt ∧ (idx (ix2 e 0)).toInt < N
  · rw [dif_pos (hcond.2 h), dif_pos h]
    show some _ = some _
    congr 1
    funext a
    apply Fin.ext
    match a with
    | ⟨0, _⟩ =>
      show (d.start (ix2 e k) idx 0 + d.window (ix2 e k) 0).toNat = (idx (ix2 e 0)).toInt.toNat
      rw [hs0, hw0]; simp
    | ⟨1, _⟩ =>
      show (d.start (ix2 e k) idx 1 + d.window (ix2 e k) 1).toNat = k.val
      rw [hs1, hw1]; simp
  · rw [dif_neg (fun hh => h (hcond.1 hh)), dif_neg h]
    rfl

/-- WHERE A FLAT UPDATE LANDS: element `e` of the updates goes to position `idx[e, 0]` (read signed, not clamped) when that
    is one of the operand's positions; it is dropped otherwise. -/
theorem scatter_flat_idx {N M : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ 32) (e : Fin M) :
    d.resultIdx? (ix1 e) idx = (rowIn N (idx (ix2 e 0))).map (fun n => ix1 n) := by
  have hk0 : (0 : Fin 1) ∉ d.sKept := by
    show (0 : Fin 1) ∉ Shape.kept _ d.insertedWindowDims
    rw [hiw]; simp [Shape.kept]
  have hm0 : (0 : Fin 1) ∈ d.scatterDimsToOperandDims := by rw [hsd]; exact List.mem_singleton.mpr rfl
  have hs0 : d.start (ix1 e) idx 0 = (idx (ix2 e 0)).toInt := by
    unfold ScatterDims.start
    rw [dif_pos hm0]
    have hsi : d.siIdx (ix1 e) ⟨d.scatterDimsToOperandDims.idxOf 0, List.idxOf_lt_length_iff.2 hm0⟩ = ix2 e 0 := by
      funext b
      match b with
      | ⟨0, _⟩ =>
        unfold ScatterDims.siIdx
        rw [dif_neg (by rw [hivd]; simp)]
        unfold ScatterDims.siCoord
        apply Fin.ext
        simp only [Fin.val_cast]
        -- the updates have one axis: whichever it is asked at, the index reads its one coordinate
        have hone : ∀ X : Fin 1, ((ix1 e : (⟨1, ![M]⟩ : Shape).Idx) X).val = e.val := fun X => by
          have hX : X = 0 := Subsingleton.elim _ _
          subst hX; rfl
        exact hone _
      | ⟨1, _⟩ =>
        unfold ScatterDims.siIdx
        rw [dif_pos (by rw [hivd])]
        apply Fin.ext
        show List.idxOf (0 : Fin 1) d.scatterDimsToOperandDims = 0
        exact idxOf_of_eq_singleton hsd
    rw [hsi]
  have hw0 : d.window (ix1 e) 0 = 0 := by
    unfold ScatterDims.window; rw [dif_neg hk0]
  have hcond : (∀ a : Fin 1, 0 ≤ d.start (ix1 e) idx a + d.window (ix1 e) a ∧
        d.start (ix1 e) idx a + d.window (ix1 e) a < (![N] a : Nat))
      ↔ (0 ≤ (idx (ix2 e 0)).toInt ∧ (idx (ix2 e 0)).toInt < N) := by
    constructor
    · intro hh
      have := hh 0
      rw [hs0, hw0] at this
      exact ⟨by simpa using this.1, by simpa using this.2⟩
    · rintro ⟨h1, h2⟩ a
      have ha : a = 0 := Subsingleton.elim _ _
      subst ha
      rw [hs0, hw0]
      exact ⟨by simpa using h1, by simpa using h2⟩
  unfold ScatterDims.resultIdx? rowIn
  by_cases h : 0 ≤ (idx (ix2 e 0)).toInt ∧ (idx (ix2 e 0)).toInt < N
  · rw [dif_pos (hcond.2 h), dif_pos h]
    show some _ = some _
    congr 1
    funext a
    apply Fin.ext
    match a with
    | ⟨0, _⟩ =>
      show (d.start (ix1 e) idx 0 + d.window (ix1 e) 0).toNat = (idx (ix2 e 0)).toInt.toNat
      rw [hs0, hw0]; simp
  · rw [dif_neg (fun hh => h (hcond.1 hh)), dif_neg h]
    rfl

theorem scatterAdd_rows_apply {N M C : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : A2 N C) (idx : IVec ⟨2, ![M, 1]⟩ 32) (upd : A2 M C) (n : Fin N) (k : Fin C) :
    Host.scatterAdd (F := Ideal) d x idx upd (ix2 n k)
      = x (ix2 n k) + ∑ e ∈ Finset.univ.filter (fun e : Fin M => rowIn N (idx (ix2 e 0)) = some n), upd (ix2 e k) := by
  -- update `(e, k')` lands on `(n, k)` exactly when row `e` names `n` and the columns agree
  have key : ∀ (e : Fin M) (k' : Fin C),
      d.resultIdx? (ix2 e k') idx = some (ix2 n k) ↔ (rowIn N (idx (ix2 e 0)) = some n ∧ k' = k) := by
    intro e k'
    rw [scatter_rows_idx d huw hiw hsd hivd idx e k']
    cases rowIn N (idx (ix2 e 0)) with
    | none => simp
    | some m =>
      show some (ix2 m k') = some (ix2 n k) ↔ _
      constructor
      · intro h2
        have h3 := Option.some.inj h2
        exact ⟨congrArg some (congrFun h3 0), congrFun h3 1⟩
      · rintro ⟨h1, rfl⟩
        rw [Option.some.inj h1]
  show x (ix2 n k) + ∑ j ∈ Finset.univ.filter (fun j => d.resultIdx? j idx = some (ix2 n k)), upd j = _
  congr 1
  rw [Finset.sum_filter, Finset.sum_filter, sum_idx2]
  refine Finset.sum_congr rfl fun e _ => ?_
  by_cases h : rowIn N (idx (ix2 e 0)) = some n
  · rw [if_pos h, Finset.sum_eq_single k]
    · rw [if_pos ((key e k).2 ⟨h, rfl⟩)]
    · intro k' _ hk'
      rw [if_neg (fun hh => hk' ((key e k').1 hh).2)]
    · intro hh
      exact absurd (Finset.mem_univ _) hh
  · rw [if_neg h]
    exact Finset.sum_eq_zero fun k' _ => if_neg (fun hh => h ((key e k').1 hh).1)

theorem scatterAdd_flat_apply {N M : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : A1 N) (idx : IVec ⟨2, ![M, 1]⟩ 32) (upd : A1 M) (n : Fin N) :
    Host.scatterAdd (F := Ideal) d x idx upd (ix1 n)
      = x (ix1 n) + ∑ e ∈ Finset.univ.filter (fun e : Fin M => rowIn N (idx (ix2 e 0)) = some n), upd (ix1 e) := by
  -- update `e` lands on `n` exactly when its word names `n`
  have key : ∀ e : Fin M, d.resultIdx? (ix1 e) idx = some (ix1 n) ↔ rowIn N (idx (ix2 e 0)) = some n := by
    intro e
    rw [scatter_flat_idx d huw hiw hsd hivd idx e]
    cases rowIn N (idx (ix2 e 0)) with
    | none => simp
    | some m =>
      show some (ix1 m) = some (ix1 n) ↔ _
      constructor
      · intro h2
        exact congrArg some (congrFun (Option.some.inj h2) 0)
      · intro h1
        rw [Option.some.inj h1]
  show x (ix1 n) + ∑ j ∈ Finset.univ.filter (fun j => d.resultIdx? j idx = some (ix1 n)), upd j = _
  congr 1
  rw [Finset.sum_filter, Finset.sum_filter, sum_idx1]
  refine Finset.sum_congr rfl fun e _ => ?_
  by_cases h : rowIn N (idx (ix2 e 0)) = some n
  · rw [if_pos h, if_pos ((key e).2 h)]
  · rw [if_neg h, if_neg (fun hh => h ((key e).1 hh))]

end Cert.GraphPool

end
-- ==== Proof.Algebra.lean ====
import proofs.«411394_j16045997818200_2_alg».proof.Proof.Spec

noncomputable section

namespace Cert.GraphPool

open Idealize.ShloMosaic Idealize.ShloMosaic.ValueIdx

/-- The word `0x3F800000`: sign bit 0, exponent field 127, fraction field 0, a normal number of value
    `(2^23 + 0) · 2^(127 - 127 - 23) = 1`. -/
theorem one_eq : one = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  norm_num

/-- The inverse square root of an extended real that is at least one is a nonnegative real:
    it is `0` at `⊤` and `(√r)⁻¹` at a real `r ≥ 1`. -/
theorem rsqrt_isR0 {d : EReal} (h : 1 ≤ d) : IsR0 (Ideal.rsqrt d) := by
  induction d using EReal.rec with
  | bot => exact absurd (le_bot_iff.mp h) (EReal.coe_ne_bot 1)
  | top => exact ⟨0, le_rfl, by rw [Ideal.rsqrt_top]; rfl⟩
  | coe r =>
    have hr : (1 : ℝ) ≤ r := by exact_mod_cast h
    refine ⟨(Real.sqrt r)⁻¹, inv_nonneg.mpr (Real.sqrt_nonneg r), ?_⟩
    rw [Ideal.rsqrt_coe, if_neg (by linarith), if_neg (by linarith)]

/-! ## Real twins: each quantity of the two chains is the coercion of a real one -/

/-- The coercion `ℝ → EReal` commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion `ℝ → EReal` commutes with `max`. -/
private theorem coe_max (a b : ℝ) : ((max a b : ℝ) : EReal) = max (a : EReal) (b : EReal) :=
  (EReal.coe_strictMono.monotone).map_max

section Twins

variable (srow : Fin 1600000 → Fin 100000) (drow : Fin 1600000 → Option (Fin 100000))

/-- An edge sum of real rows is real. -/
private theorem segsum_coe {C : Nat} (z : Fin 1600000 → Fin C → ℝ) :
    segsum drow (fun e k => (z e k : EReal))
      = fun n k => ((∑ e ∈ Finset.univ.filter (fun e => drow e = some n), z e k : ℝ) : EReal) := by
  funext n k
  simp only [segsum, zero_add, coe_sum]

/-- The reference's aggregation of real rows with real scales is real. -/
private theorem aggR_coe {C : Nat} (ro : Fin 100000 → ℝ) (z : Fin 100000 → Fin C → ℝ) :
    aggR srow drow (fun n => (ro n : EReal)) (fun n k => (z n k : EReal))
      = fun n k => ((∑ e ∈ Finset.univ.filter (fun e => drow e = some n),
          z (srow e) k * ro (srow e) : ℝ) : EReal) := by
  unfold aggR
  simp only [← EReal.coe_mul]
  exact segsum_coe drow (fun e k => z (srow e) k * ro (srow e))

/-- The kernel's second edge sum of real rows is real. -/
private theorem aggK_coe {C : Nat} (y : Fin 100000 → Fin C → ℝ) :
    aggK srow drow (fun n k => (y n k : EReal))
      = fun n k => ((∑ e ∈ Finset.univ.filter (fun e => drow e = some n), y (srow e) k : ℝ) : EReal) := by
  unfold aggK
  exact segsum_coe drow (fun e k => y (srow e) k)

/-- The reference's layer on real data is real. -/
private theorem layerR_coe {Ci Co : Nat} (ri : Fin 100000 → ℝ) (a : Fin 100000 → Fin Ci → ℝ)
    (w : Fin Ci → Fin Co → ℝ) (b : Fin Co → ℝ) :
    layerR (fun n => (ri n : EReal)) (fun n k => (a n k : EReal)) (fun k j => (w k j : EReal))
        (fun j => (b j : EReal))
      = fun n j => ((max ((∑ k, (a n k * ri n) * w k j) + b j) 0 : ℝ) : EReal) := by
  funext n j
  simp only [layerR, zero_add, coe_max, EReal.coe_add, coe_sum, EReal.coe_mul, EReal.coe_zero]

/-- The kernel's first layer on real data is real, and it is the reference's layer: a real row scale
    commutes with the product by `W`. -/
private theorem layerK1_coe {Ci Co : Nat} (ri : Fin 100000 → ℝ) (a : Fin 100000 → Fin Ci → ℝ)
    (w : Fin Ci → Fin Co → ℝ) (b : Fin Co → ℝ) :
    layerK1 (fun n => (ri n : EReal)) (fun n k => (a n k : EReal)) (fun k j => (w k j : EReal))
        (fun j => (b j : EReal))
      = fun n j => ((max ((∑ k, (a n k * ri n) * w k j) + b j) 0 : ℝ) : EReal) := by
  funext n j
  have hsum : (∑ k, (a n k * ri n) * w k j) = (∑ k, a n k * w k j) * ri n := by
    rw [Finset.sum_mul]
    exact Finset.sum_congr rfl (fun k _ => by ring)
  rw [hsum]
  simp only [layerK1, zero_add, coe_max, EReal.coe_add, coe_sum, EReal.coe_mul, EReal.coe_zero]

/-- The kernel's projection of real rows is real. -/
private theorem projK_coe {Ci Co : Nat} (ro : Fin 100000 → ℝ) (h : Fin 100000 → Fin Ci → ℝ)
    (w : Fin Ci → Fin Co → ℝ) :
    projK (fun n => (ro n : EReal)) (fun n k => (h n k : EReal)) (fun k j => (w k j : EReal))
      = fun n f => ((∑ k, (h n k * ro n) * w k f : ℝ) : EReal) := by
  funext n f
  simp only [projK, zero_add, coe_sum, EReal.coe_mul]

end Twins

/-- The two chains agree on real data.  After layer 1 (where both give the same real rows `h`), the
    kernel computes `(Σ_e Σ_k h (srow e) k · rO (srow e) · W2 k f) · rI n` and the reference
    `Σ_k ((Σ_e h (srow e) k · rO (srow e)) · rI n) · W2 k f`: the same real number, by exchanging the two
    finite sums and distributing the products. -/
theorem h2K_eq_h2R (srow : Fin 1600000 → Fin 100000) (drow : Fin 1600000 → Option (Fin 100000))
    (rO rI : Fin 100000 → EReal) (hO : ∀ n, IsR0 (rO n)) (hI : ∀ n, IsR0 (rI n))
    (X : Fin 100000 → Fin 128 → EReal) (W1 : Fin 128 → Fin 128 → EReal) (b1 : Fin 128 → EReal)
    (W2 : Fin 128 → Fin 64 → EReal) (b2 : Fin 64 → EReal)
    (hX : ∀ n k, IsR (X n k)) (hW1 : ∀ k j, IsR (W1 k j)) (hb1 : ∀ j, IsR (b1 j)) (hW2 : ∀ k f, IsR (W2 k f)) :
    h2K srow drow rO rI X W1 b1 W2 b2 = h2R srow drow rO rI X W1 b1 W2 b2 := by
  choose ro _ hro using hO
  choose ri _ hri using hI
  choose x hx using hX
  choose w1 hw1 using hW1
  choose c1 hc1 using hb1
  choose w2 hw2 using hW2
  obtain rfl : rO = fun n => (ro n : EReal) := funext hro
  obtain rfl : rI = fun n => (ri n : EReal) := funext hri
  obtain rfl : X = fun n k => (x n k : EReal) := funext fun n => funext fun k => hx n k
  obtain rfl : W1 = fun k j => (w1 k j : EReal) := funext fun k => funext fun j => hw1 k j
  obtain rfl : b1 = fun j => (c1 j : EReal) := funext hc1
  obtain rfl : W2 = fun k f => (w2 k f : EReal) := funext fun k => funext fun f => hw2 k f
  unfold h2K h2R y2K
  rw [aggR_coe, layerK1_coe, layerR_coe, projK_coe, aggK_coe, aggR_coe]
  funext n f
  unfold layerK2 layerR
  congr 2
  simp only [zero_add, ← EReal.coe_mul, ← coe_sum]
  congr 1
  rw [Finset.sum_comm, Finset.sum_mul]
  refine Finset.sum_congr rfl (fun k _ => ?_)
  rw [Finset.sum_mul, Finset.sum_mul, Finset.sum_mul]
  exact Finset.sum_congr rfl (fun e _ => by ring)

/-- The membership-matrix sums are the scatters: a product with a 0/1 entry keeps or drops the term. -/
theorem poolK_eq_poolR (grow : Fin 100000 → Option (Fin 128)) (H : Fin 100000 → Fin 64 → EReal) :
    poolK grow H = poolR grow H := by
  funext g f
  have hs : sumsK grow H f g = sumsR grow H g f := by
    unfold sumsK sumsR oh
    simp only [mul_ite, mul_one, mul_zero, zero_add, Finset.sum_filter]
  have hc : cntK grow g = cntR grow g := by
    unfold cntK cntR oh
    simp only [one_eq, zero_add, Finset.sum_filter]
  unfold poolK poolR
  rw [hs, hc]

end Cert.GraphPool

end
-- ==== Proof.KRead.lean ====
/-
  The kernel program's host-side terms read at an index: each of the clipped degrees, the one-column reshapes, the two
  edge sums and the per-graph mean, at an index, is the corresponding expression of the specification.
-/
import proofs.«411394_j16045997818200_2_alg».proof.Proof.KTerms
import proofs.«411394_j16045997818200_2_alg».proof.Proof.Spec
import proofs.«411394_j16045997818200_2_alg».proof.Proof.Decode
import proofs.«411394_j16045997818200_2_alg».proof.Proof.Algebra
import Idealize.ShloMosaic.Lib.Pipeline.Value
import Idealize.ShloMosaic.PureOps.Ideal.Laws

noncomputable section

namespace Cert.KernelIdeal.KT

open Cert.KernelIdeal Cert.KernelIdeal.Facts₀ Cert.KernelIdeal.Facts Idealize.ShloMosaic Idealize.ShloMosaic.TcCoe Idealize.ShloMosaic.ValueIdx Idealize.SL.Sem Cert.GraphPool

/-! ## Broadcasts, reshapes and the transpose read at an index -/

/-- A broadcast of a rank-0 array reads its one element everywhere. -/
private theorem bc0 {α : Type} {t : Shape} (h : S_.BroadcastsInDim t ![]) (y : S_.Idx → α) (j : t.Idx) :
    broadcastInDim t ![] h y j = y ix0 :=
  broadcastInDim_apply _ h y j ix0 (fun a => a.elim0)

/-- A vector broadcast to one column, read at row e, is the vector at e. -/
private theorem bcCol {α : Type} {n : Nat} (h : (⟨1, ![n]⟩ : Shape).BroadcastsInDim ⟨2, ![n, 1]⟩ ![0])
    (y : (⟨1, ![n]⟩ : Shape).Idx → α) (e : Fin n) :
    broadcastInDim ⟨2, ![n, 1]⟩ ![0] h y (ix2 e 0) = y (ix1 e) :=
  broadcastInDim_apply _ h y (ix2 e 0) (ix1 e) (fun a => match a with
    | ⟨0, _⟩ => by
      show e.val = if n = 1 then 0 else e.val
      have := e.isLt
      split <;> omega)

/-- A one-column array broadcast along its rows, read at (e, k), is the column at e. -/
private theorem bcWide {α : Type} {n m : Nat} (h : (⟨2, ![n, 1]⟩ : Shape).BroadcastsInDim ⟨2, ![n, m]⟩ ![0, 1])
    (y : (⟨2, ![n, 1]⟩ : Shape).Idx → α) (e : Fin n) (k : Fin m) :
    broadcastInDim ⟨2, ![n, m]⟩ ![0, 1] h y (ix2 e k) = y (ix2 e 0) :=
  broadcastInDim_apply _ h y (ix2 e k) (ix2 e 0) (fun a => match a with
    | ⟨0, _⟩ => by
      show e.val = if n = 1 then 0 else e.val
      have := e.isLt
      split <;> omega
    | ⟨1, _⟩ => by
      show 0 = if (1 : Nat) = 1 then 0 else k.val
      rw [if_pos rfl])

/-- A vector broadcast to one row, read at column g, is the vector at g. -/
private theorem bcRow {α : Type} {m : Nat} (h : (⟨1, ![m]⟩ : Shape).BroadcastsInDim ⟨2, ![1, m]⟩ ![1])
    (y : (⟨1, ![m]⟩ : Shape).Idx → α) (g : Fin m) :
    broadcastInDim ⟨2, ![1, m]⟩ ![1] h y (ix2 0 g) = y (ix1 g) :=
  broadcastInDim_apply _ h y (ix2 0 g) (ix1 g) (fun a => match a with
    | ⟨0, _⟩ => by
      show g.val = if m = 1 then 0 else g.val
      have := g.isLt
      split <;> omega)

/-- A one-row array broadcast along its columns, read at (f, g), is the row at g. -/
private theorem bcTall {α : Type} {n m : Nat} (h : (⟨2, ![1, m]⟩ : Shape).BroadcastsInDim ⟨2, ![n, m]⟩ ![0, 1])
    (y : (⟨2, ![1, m]⟩ : Shape).Idx → α) (f : Fin n) (g : Fin m) :
    broadcastInDim ⟨2, ![n, m]⟩ ![0, 1] h y (ix2 f g) = y (ix2 0 g) :=
  broadcastInDim_apply _ h y (ix2 f g) (ix2 0 g) (fun a => match a with
    | ⟨0, _⟩ => by
      show 0 = if (1 : Nat) = 1 then 0 else f.val
      rw [if_pos rfl]
    | ⟨1, _⟩ => by
      show g.val = if m = 1 then 0 else g.val
      have := g.isLt
      split <;> omega)

/-- A vector reshaped to one column: position n of the vector is position (n, 0) of the column. -/
private theorem toCol {α : Type} {n : Nat} (h : (⟨1, ![n]⟩ : Shape).ShapeCasts ⟨2, ![n, 1]⟩)
    (y : (⟨1, ![n]⟩ : Shape).Idx → α) (p : Fin n) :
    shapeCast ⟨2, ![n, 1]⟩ y h (ix2 p 0) = y (ix1 p) :=
  shapeCast_apply y h (ix2 p 0) (ix1 p) (by
    rw [Shape.rowMajor_val_one, Shape.rowMajor_val_two]
    show p.val = p.val * 1 + 0
    omega)

/-- A one-row array reshaped to a vector: position g of the vector is position (0, g) of the row. -/
private theorem ofRow {α : Type} {m : Nat} (h : (⟨2, ![1, m]⟩ : Shape).ShapeCasts ⟨1, ![m]⟩)
    (y : (⟨2, ![1, m]⟩ : Shape).Idx → α) (g : Fin m) :
    shapeCast ⟨1, ![m]⟩ y h (ix1 g) = y (ix2 0 g) :=
  shapeCast_apply y h (ix1 g) (ix2 0 g) (by
    rw [Shape.rowMajor_val_one, Shape.rowMajor_val_two]
    show 0 * m + g.val = g.val
    omega)

/-- The transpose of a matrix read at (g, f) is the matrix at (f, g). -/
private theorem transp {α : Type} {n m : Nat} (h : (⟨2, ![n, m]⟩ : Shape).Transposes [1, 0] ⟨2, ![m, n]⟩)
    (y : (⟨2, ![n, m]⟩ : Shape).Idx → α) (g : Fin m) (f : Fin n) :
    transpose ⟨2, ![m, n]⟩ [1, 0] y h (ix2 g f) = y (ix2 f g) :=
  transpose_apply [1, 0] y h (ix2 g f) (ix2 f g) (fun b => match b with
    | ⟨0, _⟩ => rfl
    | ⟨1, _⟩ => rfl)

/-! ## The index tables -/

/-- The source table at edge e is the edge's source word, wrapped by 100000 when negative. -/
private theorem srcTab_apply (x1 : Fi (F := Ideal) S1600000) (e : Fin 1600000) :
    srcTab (F := Ideal) x1 (ix2 e 0) = wrapNeg (x1 (ix1 e)) := by
  unfold srcTab
  rw [bcCol]
  show Scalar.select (IntOp.cmpi .slt (x1 (ix1 e))
      (broadcastInDim S1600000 ![] bcast_S_S1600000 (constantI S_ 32 0#32) (ix1 e)))
    (IntOp.addi (x1 (ix1 e)) (broadcastInDim S1600000 ![] bcast_S_S1600000 (constantI S_ 32 100000#32) (ix1 e)))
    (x1 (ix1 e)) = _
  rw [bc0, bc0]
  show Scalar.select (IntOp.cmpi .slt (x1 (ix1 e)) 0#32) (IntOp.addi (x1 (ix1 e)) 100000#32) (x1 (ix1 e)) = _
  unfold wrapNeg Scalar.select IntOp.cmpi IntOp.addi
  cases h : (x1 (ix1 e)).slt 0#32 <;> simp

/-- The destination table at edge e is the edge's destination word. -/
private theorem dstTab_apply (x2 : Fi (F := Ideal) S1600000) (e : Fin 1600000) :
    dstTab (F := Ideal) x2 (ix2 e 0) = x2 (ix1 e) := by
  unfold dstTab
  rw [bcCol]

/-! ## The six readings -/

theorem deg_ge (idx : Fi (F := Ideal) S1600000) (n : Fin 100000) : 1 ≤ deg (F := Ideal) idx (ix1 n) := by
  unfold deg
  rw [maximumf_apply, bc0, constant_apply]
  exact le_trans (le_of_eq one_eq.symm) (le_max_left _ _)

theorem colOf_apply (d : Ff (F := Ideal) S100000) (n : Fin 100000) : colOf (F := Ideal) d (ix2 n 0) = d (ix1 n) := by
  unfold colOf
  exact toCol (n := 100000) shapeCasts_S100000_S100000x1 d n

theorem colOfI_apply (d : Fi (F := Ideal) S100000) (n : Fin 100000) : colOfI (F := Ideal) d (ix2 n 0) = d (ix1 n) := by
  unfold colOfI
  exact toCol (n := 100000) shapeCasts_S100000_S100000x1 d n

theorem raw1_apply (x0 : Ff (F := Ideal) S100000x128) (x1 x2 : Fi (F := Ideal) S1600000) (dO : Ff (F := Ideal) S100000)
    (n : Fin 100000) (k : Fin 128) :
    raw1 (F := Ideal) x0 x1 x2 dO (ix2 n k) = aggR (srowOf x1) (drowOf x2) (rsq dO) (cur2 x0) n k := by
  unfold raw1
  rw [scatterAdd_rows_apply _ rfl rfl rfl rfl, bc0, constant_apply, Ideal.ofBits_zero_f32]
  unfold aggR segsum
  refine congrArg (fun z : EReal => 0 + z) ?_
  refine Finset.sum_congr (Finset.filter_congr fun e _ => ?_) fun e _ => ?_
  · rw [dstTab_apply]; rfl
  · rw [mulf_apply, gather_rows_apply _ rfl rfl rfl rfl rfl rfl, bcWide, bcCol,
      gather_flat_apply _ rfl rfl rfl rfl, srcTab_apply]
    rfl

theorem raw2_apply (y2 : Ff (F := Ideal) S100000x64) (x1 x2 : Fi (F := Ideal) S1600000) (n : Fin 100000) (f : Fin 64) :
    raw2 (F := Ideal) y2 x1 x2 (ix2 n f) = aggK (srowOf x1) (drowOf x2) (cur2 y2) n f := by
  unfold raw2
  rw [scatterAdd_rows_apply _ rfl rfl rfl rfl, bc0, constant_apply, Ideal.ofBits_zero_f32]
  unfold aggK segsum
  refine congrArg (fun z : EReal => 0 + z) ?_
  refine Finset.sum_congr (Finset.filter_congr fun e _ => ?_) fun e _ => ?_
  · rw [dstTab_apply]; rfl
  · rw [gather_rows_apply _ rfl rfl rfl rfl rfl rfl, srcTab_apply]
    rfl

theorem pool_apply (sumsT : Ff (F := Ideal) S64x128) (cnt : Ff (F := Ideal) S1x128) (g : Fin 128) (f : Fin 64) :
    pool (F := Ideal) sumsT cnt (ix2 g f) = Ideal.div (sumsT (ix2 f g)) (max one (cnt (ix2 0 g))) := by
  unfold pool
  rw [transp]
  show Ideal.div (sumsT (ix2 f g)) _ = _
  congr 1
  rw [bcTall, bcRow, maximumf_apply, bc0, constant_apply, ofRow]
  rfl

end Cert.KernelIdeal.KT

end
-- ==== Proof.RefValue.lean ====
import proofs.«411394_j16045997818200_2_alg».proof.Proof.Gen.ReferenceIdeal.Read
import proofs.«411394_j16045997818200_2_alg».proof.Proof.Spec
import proofs.«411394_j16045997818200_2_alg».proof.Proof.Decode

noncomputable section

namespace Cert.ReferenceIdeal.RefValue

open Cert.ReferenceIdeal Cert.ReferenceIdeal.Facts₀ Cert.ReferenceIdeal.Facts Idealize.ShloMosaic Idealize.ShloMosaic.ValueIdx Idealize.SL.Sem Cert.GraphPool

abbrev Gf (s : Shape) : Type := (⟨s, .f32⟩ : BufTy).Contents (Elt Ideal)
abbrev Gi (s : Shape) : Type := (⟨s, .i32⟩ : BufTy).Contents (Elt Ideal)

/-- The two clipped degree vectors are computed twice by the reference, to the same values. -/
theorem deg_out_again (x1 : Gi S1600000) : Read.val_main_v36 (F := Ideal) x1 = Read.val_main_v4 (F := Ideal) x1 := by
  unfold Read.val_main_v36 Read.val_main_v4 Read.val_main_v35 Read.val_main_v3
    Read.val_main_call3_v1 Read.val_main_call0_v1 Read.val_main_call3_v0 Read.val_main_call0_v0
    Read.val_main_cst_8 Read.val_main_cst_1 Read.val_main_v33 Read.val_main_v1 Read.val_main_cst_7 Read.val_main_cst_0
    Read.val_main_v34 Read.val_main_v2 Read.val_main_v32 Read.val_main_v0 Read.val_main_cst_6 Read.val_main_cst
  rfl
theorem deg_in_again (x2 : Gi S1600000) : Read.val_main_v40 (F := Ideal) x2 = Read.val_main_v8 (F := Ideal) x2 := by
  unfold Read.val_main_v40 Read.val_main_v8 Read.val_main_v39 Read.val_main_v7
    Read.val_main_call4_v1 Read.val_main_call1_v1 Read.val_main_call4_v0 Read.val_main_call1_v0
    Read.val_main_cst_10 Read.val_main_cst_3 Read.val_main_v37 Read.val_main_v5 Read.val_main_cst_9 Read.val_main_cst_2
    Read.val_main_v38 Read.val_main_v6 Read.val_main_v32 Read.val_main_v0 Read.val_main_cst_6 Read.val_main_cst
  rfl

/-! ## The degree scales, the wrapped source word, the broadcast biases: each read at explicit coordinates -/

/-- The out-degree scale, broadcast along a row of 128. -/
private theorem v11_at (x1 : Gi S1600000) (n : Fin 100000) (k : Fin 128) :
    Read.val_main_v11 (F := Ideal) x1 (ix2 n k) = rsq (Read.val_main_v4 (F := Ideal) x1) n := by
  rw [Read.val_main_v11_apply, Read.val_main_v10_apply, Read.val_main_v9_apply, Ideal.hostUnary_rsqrt_def]
  have h : Read.idx_main_v10 (Read.idx_main_v11 (ix2 n k)) = ix1 n := funext fun a => match a with | ⟨0, _⟩ => rfl
  rw [h]
  rfl

/-- The in-degree scale, broadcast along a row of 128. -/
private theorem v25_at (x2 : Gi S1600000) (n : Fin 100000) (k : Fin 128) :
    Read.val_main_v25 (F := Ideal) x2 (ix2 n k) = rsq (Read.val_main_v8 (F := Ideal) x2) n := by
  rw [Read.val_main_v25_apply, Read.val_main_v24_apply, Read.val_main_v23_apply, Ideal.hostUnary_rsqrt_def]
  have h : Read.idx_main_v24 (Read.idx_main_v25 (ix2 n k)) = ix1 n := funext fun a => match a with | ⟨0, _⟩ => rfl
  rw [h]
  rfl

/-- The out-degree scale of the second layer is the first layer's. -/
private theorem v43_at (x1 : Gi S1600000) (n : Fin 100000) (k : Fin 128) :
    Read.val_main_v43 (F := Ideal) x1 (ix2 n k) = rsq (Read.val_main_v4 (F := Ideal) x1) n := by
  rw [Read.val_main_v43_apply, Read.val_main_v42_apply, Read.val_main_v41_apply, Ideal.hostUnary_rsqrt_def, deg_out_again]
  have h : Read.idx_main_v42 (Read.idx_main_v43 (ix2 n k)) = ix1 n := funext fun a => match a with | ⟨0, _⟩ => rfl
  rw [h]
  rfl

/-- The in-degree scale of the second layer is the first layer's. -/
private theorem v57_at (x2 : Gi S1600000) (n : Fin 100000) (k : Fin 128) :
    Read.val_main_v57 (F := Ideal) x2 (ix2 n k) = rsq (Read.val_main_v8 (F := Ideal) x2) n := by
  rw [Read.val_main_v57_apply, Read.val_main_v56_apply, Read.val_main_v55_apply, Ideal.hostUnary_rsqrt_def, deg_in_again]
  have h : Read.idx_main_v56 (Read.idx_main_v57 (ix2 n k)) = ix1 n := funext fun a => match a with | ⟨0, _⟩ => rfl
  rw [h]
  rfl

/-- The select on the sign of a word is the wrap of a negative index. -/
private theorem select_wrap (v : BitVec 32) :
    Scalar.select (IntOp.cmpi .slt v 0#32) (IntOp.addi v 100000#32) v = wrapNeg v := by
  unfold Scalar.select IntOp.cmpi IntOp.addi wrapNeg
  by_cases h : v.slt 0#32 = true
  · rw [h]; rfl
  · have h' : v.slt 0#32 = false := by simpa using h
    rw [h']; rfl

/-- The first gather's index column holds the wrapped source words. -/
private theorem v18_at (x1 : Gi S1600000) (e : Fin 1600000) :
    Read.val_main_v18 (F := Ideal) x1 (ix2 e 0) = wrapNeg (x1 (ix1 e)) := by
  rw [Read.val_main_v18_apply, Read.val_main_v17_apply, Read.val_main_v14_apply, Read.val_main_v16_apply,
    Read.val_main_v13_apply, Read.val_main_v15_apply, Read.val_main_c_apply, Read.val_main_c_4_apply]
  have h : Read.idx_main_v18 (ix2 e 0) = ix1 e := funext fun a => match a with | ⟨0, _⟩ => rfl
  rw [h]
  exact select_wrap _

/-- The second gather's index column holds the same wrapped source words. -/
private theorem v50_at (x1 : Gi S1600000) (e : Fin 1600000) :
    Read.val_main_v50 (F := Ideal) x1 (ix2 e 0) = wrapNeg (x1 (ix1 e)) := by
  rw [Read.val_main_v50_apply, Read.val_main_v49_apply, Read.val_main_v46_apply, Read.val_main_v48_apply,
    Read.val_main_v45_apply, Read.val_main_v47_apply, Read.val_main_c_11_apply, Read.val_main_c_12_apply]
  have h : Read.idx_main_v50 (ix2 e 0) = ix1 e := funext fun a => match a with | ⟨0, _⟩ => rfl
  rw [h]
  exact select_wrap _

/-- The scatters' index columns hold the destination words. -/
private theorem v21_at (x2 : Gi S1600000) (e : Fin 1600000) :
    Read.val_main_v21 (F := Ideal) x2 (ix2 e 0) = x2 (ix1 e) := by
  rw [Read.val_main_v21_apply]
  have h : Read.idx_main_v21 (ix2 e 0) = ix1 e := funext fun a => match a with | ⟨0, _⟩ => rfl
  rw [h]
private theorem v53_at (x2 : Gi S1600000) (e : Fin 1600000) :
    Read.val_main_v53 (F := Ideal) x2 (ix2 e 0) = x2 (ix1 e) := by
  rw [Read.val_main_v53_apply]
  have h : Read.idx_main_v53 (ix2 e 0) = ix1 e := funext fun a => match a with | ⟨0, _⟩ => rfl
  rw [h]
/-- The pooling scatters' index columns hold the graph words. -/
private theorem v65_at (x3 : Gi S100000) (n : Fin 100000) :
    Read.val_main_v65 (F := Ideal) x3 (ix2 n 0) = x3 (ix1 n) := by
  rw [Read.val_main_v65_apply]
  have h : Read.idx_main_v65 (ix2 n 0) = ix1 n := funext fun a => match a with | ⟨0, _⟩ => rfl
  rw [h]
private theorem v69_at (x3 : Gi S100000) (n : Fin 100000) :
    Read.val_main_v69 (F := Ideal) x3 (ix2 n 0) = x3 (ix1 n) := by
  rw [Read.val_main_v69_apply]
  have h : Read.idx_main_v69 (ix2 n 0) = ix1 n := funext fun a => match a with | ⟨0, _⟩ => rfl
  rw [h]

/-- The zero operands of the scatters and the zero of the clamps. -/
private theorem v20_at (i : S100000x128.Idx) : Read.val_main_v20 (F := Ideal) i = 0 := by
  rw [Read.val_main_v20_apply, Read.val_main_cst_5_apply, Ideal.ofBits_def, Ideal.ofBits_zero_f32]
private theorem v52_at (i : S100000x128.Idx) : Read.val_main_v52 (F := Ideal) i = 0 := by
  rw [Read.val_main_v52_apply, Read.val_main_cst_13_apply, Ideal.ofBits_def, Ideal.ofBits_zero_f32]
private theorem v64_at (i : S128x64.Idx) : Read.val_main_v64 (F := Ideal) i = 0 := by
  rw [Read.val_main_v64_apply, Read.val_main_cst_14_apply, Ideal.ofBits_def, Ideal.ofBits_zero_f32]
private theorem v68_at (i : S128.Idx) : Read.val_main_v68 (F := Ideal) i = 0 := by
  rw [Read.val_main_v68_apply, Read.val_main_cst_16_apply, Ideal.ofBits_def, Ideal.ofBits_zero_f32]
private theorem call2_v0_at (i : S100000x128.Idx) : Read.val_main_call2_v0 (F := Ideal) i = 0 := by
  rw [Read.val_main_call2_v0_apply, Read.val_main_call2_cst_apply, Ideal.ofBits_def, Ideal.ofBits_zero_f32]
private theorem call5_v0_at (i : S100000x64.Idx) : Read.val_main_call5_v0 (F := Ideal) i = 0 := by
  rw [Read.val_main_call5_v0_apply, Read.val_main_call5_cst_apply, Ideal.ofBits_def, Ideal.ofBits_zero_f32]
/-- The ones that are counted, and the one the count is clamped at. -/
private theorem v67_at (i : S100000.Idx) : Read.val_main_v67 (F := Ideal) i = one := by
  rw [Read.val_main_v67_apply, Read.val_main_cst_15_apply, Ideal.ofBits_def]; rfl
private theorem call6_v1_at (i : S128.Idx) : Read.val_main_call6_v1 (F := Ideal) i = one := by
  rw [Read.val_main_call6_v1_apply, Read.val_main_call6_v0_apply, Read.val_main_cst_17_apply, Ideal.ofBits_def]; rfl

/-- The biases, broadcast down the rows. -/
private theorem v29_at (x5 : Gf S128) (n : Fin 100000) (j : Fin 128) :
    Read.val_main_v29 (F := Ideal) x5 (ix2 n j) = cur1 x5 j := by
  rw [Read.val_main_v29_apply, Read.val_main_v28_apply]
  have h : Read.idx_main_v28 (Read.idx_main_v29 (ix2 n j)) = ix1 j := funext fun a => match a with | ⟨0, _⟩ => rfl
  rw [h]
  rfl
private theorem v61_at (x7 : Gf S64) (n : Fin 100000) (j : Fin 64) :
    Read.val_main_v61 (F := Ideal) x7 (ix2 n j) = cur1 x7 j := by
  rw [Read.val_main_v61_apply, Read.val_main_v60_apply]
  have h : Read.idx_main_v60 (Read.idx_main_v61 (ix2 n j)) = ix1 j := funext fun a => match a with | ⟨0, _⟩ => rfl
  rw [h]
  rfl

/-! ## The first layer -/

/-- The scaled input rows. -/
private theorem v12_at (x0 : Gf S100000x128) (x1 : Gi S1600000) (n : Fin 100000) (k : Fin 128) :
    Read.val_main_v12 (F := Ideal) x0 x1 (ix2 n k) = cur2 x0 n k * rsq (Read.val_main_v4 (F := Ideal) x1) n := by
  rw [Read.val_main_v12_apply, Ideal.mulf_def, v11_at]
  rfl

/-- The gathered source rows. -/
private theorem v19_at (x0 : Gf S100000x128) (x1 : Gi S1600000) (e : Fin 1600000) (k : Fin 128) :
    Read.val_main_v19 (F := Ideal) x0 x1 (ix2 e k)
      = cur2 x0 (srowOf x1 e) k * rsq (Read.val_main_v4 (F := Ideal) x1) (srowOf x1 e) := by
  unfold Read.val_main_v19
  rw [gather_rows_apply _ rfl rfl rfl rfl rfl rfl, v18_at]
  exact v12_at x0 x1 (srowOf x1 e) k

/-- The first edge sum. -/
private theorem v22_at (x0 : Gf S100000x128) (x1 x2 : Gi S1600000) (n : Fin 100000) (k : Fin 128) :
    Read.val_main_v22 (F := Ideal) x0 x1 x2 (ix2 n k)
      = aggR (srowOf x1) (drowOf x2) (rsq (Read.val_main_v4 (F := Ideal) x1)) (cur2 x0) n k := by
  unfold Read.val_main_v22
  rw [scatterAdd_rows_apply _ rfl rfl rfl rfl, v20_at]
  unfold aggR segsum
  refine congrArg (fun t => (0 : EReal) + t) (Finset.sum_congr ?_ ?_)
  · ext e
    simp only [Finset.mem_filter, Finset.mem_univ, true_and]
    rw [v21_at]
    rfl
  · intro e _
    exact v19_at x0 x1 e k

/-- The first layer's features. -/
private theorem v31_at (x0 : Gf S100000x128) (x1 x2 : Gi S1600000) (x4 : Gf S128x128) (x5 : Gf S128)
    (n : Fin 100000) (j : Fin 128) :
    Read.val_main_v31 (F := Ideal) x0 x1 x2 x4 x5 (ix2 n j)
      = layerR (rsq (Read.val_main_v8 (F := Ideal) x2))
          (aggR (srowOf x1) (drowOf x2) (rsq (Read.val_main_v4 (F := Ideal) x1)) (cur2 x0)) (cur2 x4) (cur1 x5) n j := by
  rw [Read.val_main_v31_apply, Ideal.maximumf_def, Read.val_main_v30_apply, Ideal.addf_def, Read.val_main_v27_apply,
    call2_v0_at, v29_at]
  unfold layerR
  rw [zero_add]
  refine congrArg (fun t => max (t + cur1 x5 j) (0 : EReal)) (Finset.sum_congr rfl ?_)
  intro k _
  have hl : Read.lidx_main_v27 (ix2 n j) k = ix2 n k := funext fun a => match a with | ⟨0, _⟩ => rfl | ⟨1, _⟩ => rfl
  have hr : Read.ridx_main_v27 (ix2 n j) k = ix2 k j := funext fun a => match a with | ⟨0, _⟩ => rfl | ⟨1, _⟩ => rfl
  rw [hl, hr, Read.val_main_v26_apply, Ideal.mulf_def, v22_at, v25_at]
  rfl

/-! ## The second layer -/

/-- The scaled first-layer rows. -/
private theorem v44_at (x0 : Gf S100000x128) (x1 x2 : Gi S1600000) (x4 : Gf S128x128) (x5 : Gf S128)
    (n : Fin 100000) (k : Fin 128) :
    Read.val_main_v44 (F := Ideal) x0 x1 x2 x4 x5 (ix2 n k)
      = layerR (rsq (Read.val_main_v8 (F := Ideal) x2))
          (aggR (srowOf x1) (drowOf x2) (rsq (Read.val_main_v4 (F := Ideal) x1)) (cur2 x0)) (cur2 x4) (cur1 x5) n k
        * rsq (Read.val_main_v4 (F := Ideal) x1) n := by
  rw [Read.val_main_v44_apply, Ideal.mulf_def, v31_at, v43_at]

/-- The gathered first-layer rows. -/
private theorem v51_at (x0 : Gf S100000x128) (x1 x2 : Gi S1600000) (x4 : Gf S128x128) (x5 : Gf S128)
    (e : Fin 1600000) (k : Fin 128) :
    Read.val_main_v51 (F := Ideal) x0 x1 x2 x4 x5 (ix2 e k)
      = layerR (rsq (Read.val_main_v8 (F := Ideal) x2))
          (aggR (srowOf x1) (drowOf x2) (rsq (Read.val_main_v4 (F := Ideal) x1)) (cur2 x0)) (cur2 x4) (cur1 x5) (srowOf x1 e) k
        * rsq (Read.val_main_v4 (F := Ideal) x1) (srowOf x1 e) := by
  unfold Read.val_main_v51
  rw [gather_rows_apply _ rfl rfl rfl rfl rfl rfl, v50_at]
  exact v44_at x0 x1 x2 x4 x5 (srowOf x1 e) k

/-- The second edge sum. -/
private theorem v54_at (x0 : Gf S100000x128) (x1 x2 : Gi S1600000) (x4 : Gf S128x128) (x5 : Gf S128)
    (n : Fin 100000) (k : Fin 128) :
    Read.val_main_v54 (F := Ideal) x0 x1 x2 x4 x5 (ix2 n k)
      = aggR (srowOf x1) (drowOf x2) (rsq (Read.val_main_v4 (F := Ideal) x1))
          (layerR (rsq (Read.val_main_v8 (F := Ideal) x2))
            (aggR (srowOf x1) (drowOf x2) (rsq (Read.val_main_v4 (F := Ideal) x1)) (cur2 x0)) (cur2 x4) (cur1 x5)) n k := by
  unfold Read.val_main_v54
  rw [scatterAdd_rows_apply _ rfl rfl rfl rfl, v52_at]
  conv_rhs => unfold aggR segsum
  refine congrArg (fun t => (0 : EReal) + t) (Finset.sum_congr ?_ ?_)
  · ext e
    simp only [Finset.mem_filter, Finset.mem_univ, true_and]
    rw [v53_at]
    rfl
  · intro e _
    exact v51_at x0 x1 x2 x4 x5 e k

/-- The second layer's features. -/
private theorem v63_at (x0 : Gf S100000x128) (x1 x2 : Gi S1600000) (x4 : Gf S128x128) (x5 : Gf S128)
    (x6 : Gf S128x64) (x7 : Gf S64) (n : Fin 100000) (f : Fin 64) :
    Read.val_main_v63 (F := Ideal) x0 x1 x2 x4 x5 x6 x7 (ix2 n f)
      = h2R (srowOf x1) (drowOf x2) (rsq (Read.val_main_v4 (F := Ideal) x1)) (rsq (Read.val_main_v8 (F := Ideal) x2))
          (cur2 x0) (cur2 x4) (cur1 x5) (cur2 x6) (cur1 x7) n f := by
  rw [Read.val_main_v63_apply, Ideal.maximumf_def, Read.val_main_v62_apply, Ideal.addf_def, Read.val_main_v59_apply,
    call5_v0_at, v61_at]
  unfold h2R
  conv_rhs => unfold layerR
  rw [zero_add]
  refine congrArg (fun t => max (t + cur1 x7 f) (0 : EReal)) (Finset.sum_congr rfl ?_)
  intro k _
  have hl : Read.lidx_main_v59 (ix2 n f) k = ix2 n k := funext fun a => match a with | ⟨0, _⟩ => rfl | ⟨1, _⟩ => rfl
  have hr : Read.ridx_main_v59 (ix2 n f) k = ix2 k f := funext fun a => match a with | ⟨0, _⟩ => rfl | ⟨1, _⟩ => rfl
  rw [hl, hr, Read.val_main_v58_apply, Ideal.mulf_def, v54_at, v57_at]
  rfl

/-! ## The per-graph mean -/

/-- The per-graph sums. -/
private theorem v66_at (x0 : Gf S100000x128) (x1 x2 : Gi S1600000) (x3 : Gi S100000) (x4 : Gf S128x128) (x5 : Gf S128)
    (x6 : Gf S128x64) (x7 : Gf S64) (g : Fin 128) (f : Fin 64) :
    Read.val_main_v66 (F := Ideal) x0 x1 x2 x3 x4 x5 x6 x7 (ix2 g f)
      = sumsR (growOf x3)
          (h2R (srowOf x1) (drowOf x2) (rsq (Read.val_main_v4 (F := Ideal) x1)) (rsq (Read.val_main_v8 (F := Ideal) x2))
            (cur2 x0) (cur2 x4) (cur1 x5) (cur2 x6) (cur1 x7)) g f := by
  unfold Read.val_main_v66
  rw [scatterAdd_rows_apply _ rfl rfl rfl rfl, v64_at]
  unfold sumsR
  refine congrArg (fun t => (0 : EReal) + t) (Finset.sum_congr ?_ ?_)
  · ext n
    simp only [Finset.mem_filter, Finset.mem_univ, true_and]
    rw [v65_at]
    rfl
  · intro n _
    exact v63_at x0 x1 x2 x4 x5 x6 x7 n f

/-- The per-graph counts. -/
private theorem v70_at (x3 : Gi S100000) (g : Fin 128) :
    Read.val_main_v70 (F := Ideal) x3 (ix1 g) = cntR (growOf x3) g := by
  unfold Read.val_main_v70
  rw [scatterAdd_flat_apply _ rfl rfl rfl rfl, v68_at]
  unfold cntR
  refine congrArg (fun t => (0 : EReal) + t) (Finset.sum_congr ?_ ?_)
  · ext n
    simp only [Finset.mem_filter, Finset.mem_univ, true_and]
    rw [v69_at]
    rfl
  · intro n _
    exact v67_at _

/-- The clamped counts, broadcast along a row of 64. -/
private theorem v73_at (x3 : Gi S100000) (g : Fin 128) (f : Fin 64) :
    Read.val_main_v73 (F := Ideal) x3 (ix2 g f) = max one (cntR (growOf x3) g) := by
  rw [Read.val_main_v73_apply, Read.val_main_v72_apply]
  have h : Read.idx_main_v72 (Read.idx_main_v73 (ix2 g f)) = ix1 g := funext fun a => match a with | ⟨0, _⟩ => rfl
  rw [h, Read.val_main_v71_apply, Ideal.maximumf_def, call6_v1_at, v70_at]

/-- The reference's pooled array, entry by entry: the per-graph mean of the reference's two-layer node features. -/
theorem pooled_apply (x0 : Gf S100000x128) (x1 x2 : Gi S1600000) (x3 : Gi S100000) (x4 : Gf S128x128) (x5 : Gf S128)
    (x6 : Gf S128x64) (x7 : Gf S64) (g : Fin 128) (f : Fin 64) :
    Read.val_main_v74 (F := Ideal) x0 x1 x2 x3 x4 x5 x6 x7 (ix2 g f)
      = poolR (growOf x3)
          (h2R (srowOf x1) (drowOf x2) (rsq (Read.val_main_v4 (F := Ideal) x1)) (rsq (Read.val_main_v8 (F := Ideal) x2))
            (cur2 x0) (cur2 x4) (cur1 x5) (cur2 x6) (cur1 x7)) g f := by
  rw [Read.val_main_v74_apply, Ideal.hostDivf_def, v66_at, v73_at]
  rfl

end Cert.ReferenceIdeal.RefValue

end
-- ==== Proof.Bridge.lean ====
import proofs.«411394_j16045997818200_2_alg».proof.Proof.KRead
import proofs.«411394_j16045997818200_2_alg».proof.Proof.RefValue
import proofs.«411394_j16045997818200_2_alg».proof.Proof.Algebra

noncomputable section

namespace Cert.Bridge

open Idealize.ShloMosaic Idealize.ShloMosaic.ValueIdx Cert.GraphPool

abbrev Gf (s : Shape) : Type := (⟨s, .f32⟩ : BufTy).Contents (Elt Ideal)
abbrev Gi (s : Shape) : Type := (⟨s, .i32⟩ : BufTy).Contents (Elt Ideal)

/-- The two programs' scatter records for the degree count carry the same numbers. -/
private theorem scatter_eq :
    Cert.KernelIdeal.scatter_S100000_S1600000x1_S1600000_n_0_0_1
      = Cert.ReferenceIdeal.scatter_S100000_S1600000x1_S1600000_n_0_0_1 := rfl

/-- The kernel program and the reference compute the clipped degrees by the same operations. -/
theorem deg_eq_out (x1 : Gi Cert.KernelIdeal.S1600000) :
    Cert.KernelIdeal.KT.deg (F := Ideal) x1 = Cert.ReferenceIdeal.Read.val_main_v4 (F := Ideal) x1 := by
  unfold Cert.KernelIdeal.KT.deg Cert.ReferenceIdeal.Read.val_main_v4 Cert.ReferenceIdeal.Read.val_main_call0_v1
    Cert.ReferenceIdeal.Read.val_main_call0_v0 Cert.ReferenceIdeal.Read.val_main_cst_1
    Cert.ReferenceIdeal.Read.val_main_v3 Cert.ReferenceIdeal.Read.val_main_v1 Cert.ReferenceIdeal.Read.val_main_cst_0
    Cert.ReferenceIdeal.Read.val_main_v2 Cert.ReferenceIdeal.Read.val_main_v0 Cert.ReferenceIdeal.Read.val_main_cst
  rw [scatter_eq]
  rfl

theorem deg_eq_in (x2 : Gi Cert.KernelIdeal.S1600000) :
    Cert.KernelIdeal.KT.deg (F := Ideal) x2 = Cert.ReferenceIdeal.Read.val_main_v8 (F := Ideal) x2 := by
  unfold Cert.KernelIdeal.KT.deg Cert.ReferenceIdeal.Read.val_main_v8 Cert.ReferenceIdeal.Read.val_main_call1_v1
    Cert.ReferenceIdeal.Read.val_main_call1_v0 Cert.ReferenceIdeal.Read.val_main_cst_3
    Cert.ReferenceIdeal.Read.val_main_v7 Cert.ReferenceIdeal.Read.val_main_v5 Cert.ReferenceIdeal.Read.val_main_cst_2
    Cert.ReferenceIdeal.Read.val_main_v6 Cert.ReferenceIdeal.Read.val_main_v0 Cert.ReferenceIdeal.Read.val_main_cst
  rw [scatter_eq]
  rfl

/-- Reading back an array built from a function gives the function. -/
private theorem cur2_arr2 {a b : Nat} (f : Fin a → Fin b → EReal) : cur2 (arr2 f) = f := rfl
/-- The curried readings and the inverse square roots, at an index. -/
private theorem cur2_apply {a b : Nat} (A : A2 a b) (p : Fin a) (q : Fin b) : cur2 A p q = A (ix2 p q) := rfl
private theorem col_apply {a : Nat} (A : A2 a 1) (p : Fin a) : col A p = A (ix2 p 0) := rfl
private theorem rsq_apply (d : A1 100000) (n : Fin 100000) : rsq d n = Ideal.rsqrt (d (ix1 n)) := rfl
private theorem growOf_apply (x3 : IVec ⟨1, ![100000]⟩ 32) (n : Fin 100000) : growOf x3 n = rowIn 128 (x3 (ix1 n)) := rfl

/-- The kernel's pooled array (the third call's first input) is the reference's, when the features and the two
    convolution layers' weights and first bias are real numbers. -/
theorem pooled_eq (x0 : Gf Cert.KernelIdeal.S100000x128) (x1 x2 : Gi Cert.KernelIdeal.S1600000) (x3 : Gi Cert.KernelIdeal.S100000)
    (x4 : Gf Cert.KernelIdeal.S128x128) (x5 : Gf Cert.KernelIdeal.S128) (x6 : Gf Cert.KernelIdeal.S128x64) (x7 : Gf Cert.KernelIdeal.S64)
    (h0 : ∀ i, IsR (x0 i)) (h4 : ∀ i, IsR (x4 i)) (h5 : ∀ i, IsR (x5 i)) (h6 : ∀ i, IsR (x6 i)) :
    Cert.KernelIdeal.KT.pool (F := Ideal)
        (reg1sums
          (Cert.KernelIdeal.KT.raw2 (F := Ideal)
            (reg0 (Cert.KernelIdeal.KT.raw1 (F := Ideal) x0 x1 x2 (Cert.KernelIdeal.KT.deg (F := Ideal) x1)) x4 x5 x6
              (Cert.KernelIdeal.KT.colOf (F := Ideal) (Cert.KernelIdeal.KT.deg (F := Ideal) x2))
              (Cert.KernelIdeal.KT.colOf (F := Ideal) (Cert.KernelIdeal.KT.deg (F := Ideal) x1)))
            x1 x2)
          x7 (Cert.KernelIdeal.KT.colOf (F := Ideal) (Cert.KernelIdeal.KT.deg (F := Ideal) x2))
          (Cert.KernelIdeal.KT.colOfI (F := Ideal) x3))
        (reg1cnt (Cert.KernelIdeal.KT.colOfI (F := Ideal) x3))
      = Cert.ReferenceIdeal.Read.val_main_v74 (F := Ideal) x0 x1 x2 x3 x4 x5 x6 x7 := by
  funext i
  obtain ⟨g, f, rfl⟩ : ∃ (g : Fin 128) (f : Fin 64), i = ix2 g f := ⟨i 0, i 1, eq_ix2 i⟩
  -- the kernel's side, entry (g, f), as the specification's membership-matrix mean of the kernel's chain
  have hg : (fun n => rowIn 128 (Cert.KernelIdeal.KT.colOfI (F := Ideal) x3 (ix2 n 0))) = growOf x3 := by
    funext n
    simp only [Cert.KernelIdeal.KT.colOfI_apply, growOf_apply]
  have hcol : ∀ d : Gf Cert.KernelIdeal.S100000,
      (fun n => Ideal.rsqrt (col (Cert.KernelIdeal.KT.colOf (F := Ideal) d) n)) = rsq d := by
    intro d
    funext n
    simp only [col_apply, Cert.KernelIdeal.KT.colOf_apply, rsq_apply]
  have hraw1 : cur2 (Cert.KernelIdeal.KT.raw1 (F := Ideal) x0 x1 x2 (Cert.KernelIdeal.KT.deg (F := Ideal) x1))
      = aggR (srowOf x1) (drowOf x2) (rsq (Cert.KernelIdeal.KT.deg (F := Ideal) x1)) (cur2 x0) := by
    funext n k
    rw [cur2_apply]
    exact Cert.KernelIdeal.KT.raw1_apply x0 x1 x2 _ n k
  have hraw2 : ∀ y2 : Gf Cert.KernelIdeal.S100000x64,
      cur2 (Cert.KernelIdeal.KT.raw2 (F := Ideal) y2 x1 x2) = aggK (srowOf x1) (drowOf x2) (cur2 y2) := by
    intro y2
    funext n k
    rw [cur2_apply]
    exact Cert.KernelIdeal.KT.raw2_apply y2 x1 x2 n k
  have hK : Cert.KernelIdeal.KT.pool (F := Ideal)
        (reg1sums
          (Cert.KernelIdeal.KT.raw2 (F := Ideal)
            (reg0 (Cert.KernelIdeal.KT.raw1 (F := Ideal) x0 x1 x2 (Cert.KernelIdeal.KT.deg (F := Ideal) x1)) x4 x5 x6
              (Cert.KernelIdeal.KT.colOf (F := Ideal) (Cert.KernelIdeal.KT.deg (F := Ideal) x2))
              (Cert.KernelIdeal.KT.colOf (F := Ideal) (Cert.KernelIdeal.KT.deg (F := Ideal) x1)))
            x1 x2)
          x7 (Cert.KernelIdeal.KT.colOf (F := Ideal) (Cert.KernelIdeal.KT.deg (F := Ideal) x2))
          (Cert.KernelIdeal.KT.colOfI (F := Ideal) x3))
        (reg1cnt (Cert.KernelIdeal.KT.colOfI (F := Ideal) x3)) (ix2 g f)
      = poolK (growOf x3)
          (h2K (srowOf x1) (drowOf x2) (rsq (Cert.KernelIdeal.KT.deg (F := Ideal) x1))
            (rsq (Cert.KernelIdeal.KT.deg (F := Ideal) x2)) (cur2 x0) (cur2 x4) (cur1 x5) (cur2 x6) (cur1 x7)) g f := by
    rw [Cert.KernelIdeal.KT.pool_apply]
    unfold reg1sums reg1cnt reg0
    rw [arr2_ix2, arr2_ix2, hg, hcol, hcol, hraw2, cur2_arr2, hraw1]
    -- both sides are now the same expression once the specification's names are opened
    unfold poolK h2K y2K
    rfl
  have hO : ∀ n, IsR0 (rsq (Cert.KernelIdeal.KT.deg (F := Ideal) x1) n) := fun n => by
    rw [rsq_apply]; exact rsqrt_isR0 (Cert.KernelIdeal.KT.deg_ge x1 n)
  have hI : ∀ n, IsR0 (rsq (Cert.KernelIdeal.KT.deg (F := Ideal) x2) n) := fun n => by
    rw [rsq_apply]; exact rsqrt_isR0 (Cert.KernelIdeal.KT.deg_ge x2 n)
  have hX : ∀ n k, IsR (cur2 x0 n k) := fun n k => h0 (ix2 n k)
  have hW1 : ∀ k j, IsR (cur2 x4 k j) := fun k j => h4 (ix2 k j)
  have hb1 : ∀ j, IsR (cur1 x5 j) := fun j => h5 (ix1 j)
  have hW2 : ∀ k f, IsR (cur2 x6 k f) := fun k f => h6 (ix2 k f)
  -- the reference's side, entry (g, f), and the two chains' agreement
  rw [hK, Cert.ReferenceIdeal.RefValue.pooled_apply, ← deg_eq_out x1, ← deg_eq_in x2, poolK_eq_poolR,
    h2K_eq_h2R (srowOf x1) (drowOf x2) _ _ hO hI (cur2 x0) (cur2 x4) (cur1 x5) (cur2 x6) (cur1 x7) hX hW1 hb1 hW2]

end Cert.Bridge

end
-- ==== Proof.RefTail.lean ====
/-
  The reference's classifier head as one function of the pooled array: two dense layers (the first clamped at zero),
  then a row-wise softmax (subtract the row maximum, exponentiate, divide by the row sum).
-/
import proofs.«411394_j16045997818200_2_alg».proof.Proof.Gen.ReferenceIdeal.Read

noncomputable section

namespace Cert.ReferenceIdeal.RefValue

open Cert.ReferenceIdeal Cert.ReferenceIdeal.Facts₀ Cert.ReferenceIdeal.Facts Idealize.ShloMosaic

variable {F : FTy → Type} [FloatOps F]

abbrev Ff (s : Shape) : Type := (⟨s, .f32⟩ : BufTy).Contents (Elt F)

/-- The hidden layer: `max (p · fcW1 + fcb1) 0`. -/
def tz1 (p : Ff (F := F) S128x64) (x8 : Ff (F := F) S64x10) (x9 : Ff (F := F) S10) : Ff (F := F) S128x10 :=
  maximumf (addf (Host.dotGeneral dot_S128x64_S64x10_S128x10_1_0_0_1_n_n none p x8)
      (broadcastInDim S128x10 ![0, 1] bcast_S1x10_S128x10_0_1 (broadcastInDim S1x10 ![1] bcast_S10_S1x10_1 x9)))
    (broadcastInDim S128x10 ![] bcast_S_S128x10 (constant S_ .f32 0x00000000#32 : Ff (F := F) S_))

/-- The logits: `z1 · fcW2 + fcb2`. -/
def tz2 (z1 : Ff (F := F) S128x10) (x10 : Ff (F := F) S10x10) (x11 : Ff (F := F) S10) : Ff (F := F) S128x10 :=
  addf (Host.dotGeneral dot_S128x10_S10x10_S128x10_1_0_0_1_n_n none z1 x10)
    (broadcastInDim S128x10 ![0, 1] bcast_S1x10_S128x10_0_1 (broadcastInDim S1x10 ![1] bcast_S10_S1x10_1 x11))

/-- The row maxima of the logits. -/
def tmx (z2 : Ff (F := F) S128x10) : Ff (F := F) S128 :=
  maximumf (broadcastInDim S128 ![] bcast_S_S128 (constant S_ .f32 0xFF800000#32 : Ff (F := F) S_))
    (Host.reduce FloatOps.maximumf z2 (constant S_ .f32 0xFF800000#32 : Ff (F := F) S_) reducesTo_S128x10_S128_d1 h_S_)

/-- The shifted exponentials. -/
def tex (z2 : Ff (F := F) S128x10) : Ff (F := F) S128x10 :=
  Host.exp (subf z2 (broadcastInDim S128x10 ![0, 1] bcast_S128x1_S128x10_0_1
    (broadcastInDim S128x1 ![0] bcast_S128_S128x1_0 (tmx z2))))

/-- The softmax of the logits. -/
def tsm (z2 : Ff (F := F) S128x10) : Ff (F := F) S128x10 :=
  Host.divf (tex z2) (broadcastInDim S128x10 ![0, 1] bcast_S128x1_S128x10_0_1
    (broadcastInDim S128x1 ![0] bcast_S128_S128x1_0
      (Host.reduceAdd (tex z2) (constant S_ .f32 0x00000000#32 : Ff (F := F) S_) reducesTo_S128x10_S128_d1 h_S_)))

/-- The head. -/
def refTail (p : Ff (F := F) S128x64) (x8 : Ff (F := F) S64x10) (x9 : Ff (F := F) S10) (x10 : Ff (F := F) S10x10)
    (x11 : Ff (F := F) S10) : Ff (F := F) S128x10 :=
  tsm (tz2 (tz1 p x8 x9) x10 x11)

/-- The reference's result is its head applied to its pooled array. -/
theorem val_v94_eq_refTail (x0 : Ff (F := F) S100000x128) (x1 x2 : (⟨S1600000, .i32⟩ : BufTy).Contents (Elt F))
    (x3 : (⟨S100000, .i32⟩ : BufTy).Contents (Elt F)) (x4 : Ff (F := F) S128x128) (x5 : Ff (F := F) S128)
    (x6 : Ff (F := F) S128x64) (x7 : Ff (F := F) S64) (x8 : Ff (F := F) S64x10) (x9 : Ff (F := F) S10)
    (x10 : Ff (F := F) S10x10) (x11 : Ff (F := F) S10) :
    Cert.ReferenceIdeal.Read.val_main_v94 (F := F) x0 x1 x2 x3 x4 x5 x6 x7 x8 x9 x10 x11
      = refTail (Cert.ReferenceIdeal.Read.val_main_v74 (F := F) x0 x1 x2 x3 x4 x5 x6 x7) x8 x9 x10 x11 := rfl

end Cert.ReferenceIdeal.RefValue

end
-- ==== Proof.Tail.lean ====
import proofs.«411394_j16045997818200_2_alg».proof.Proof.Gen.KernelIdeal.Frame
import proofs.«411394_j16045997818200_2_alg».proof.Proof.RefTail
import Idealize.ShloMosaic.PureOps.Ideal
import Idealize.ShloMosaic.Lib.KernelVsHost
import Idealize.ShloMosaic.Lib.ValueLayout

noncomputable section

namespace Cert.Tail

open Idealize.ShloMosaic Idealize.ShloMosaic.TcCoe Idealize.SL.Sem Idealize.ShloMosaic.ValueIdx

/-! ## Layout: a vector along every row, a vector down every column -/

section Layout
variable {α : Type}

/-- A vector of `n` entries laid along each of `m` rows: the broadcast of its one-row cast is the two-step
    broadcast in dimensions through the one-row matrix. -/
private theorem rowB {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hd2 (broadcastInDim ⟨2, ![1, n]⟩ ![1] hd1 x) := by
  funext i
  obtain ⟨r, t, rfl⟩ : ∃ (r : Fin m) (t : Fin n), i = ix2 r t := ⟨i 0, i 1, eq_ix2 i⟩
  have ht : t.val = if n = 1 then 0 else t.val := by
    split
    · have := t.isLt; omega
    · rfl
  have e1 := broadcastTo_apply (shapeCast ⟨2, ![1, n]⟩ x h1) hb (ix2 r t) (ix2 (0 : Fin 1) t) (by
    intro a
    match a with
    | ⟨0, _⟩ => rfl
    | ⟨1, _⟩ => exact ht)
  have e2 := shapeCast_a_1a_apply x h1 (0 : Fin 1) t
  have e3 := broadcastInDim_oneRow_apply hd2 (broadcastInDim ⟨2, ![1, n]⟩ ![1] hd1 x) r t
  have e4 := broadcastInDim_apply ![1] hd1 x (ix2 (0 : Fin 1) t) (ix1 t) (by
    intro a
    match a with
    | ⟨0, _⟩ => exact ht)
  exact e1.trans (e2.trans (e3.trans e4).symm)

/-- A vector of `m` entries laid down each of `n` columns: the broadcast of its one-column cast is the two-step
    broadcast in dimensions through the one-column matrix. -/
private theorem colB {m n : Nat} (x : (⟨1, ![m]⟩ : Shape).Idx → α)
    (h1 : (⟨1, ![m]⟩ : Shape).ShapeCasts ⟨2, ![m, 1]⟩) (hb : (⟨2, ![m, 1]⟩ : Shape).Broadcasts ⟨2, ![m, n]⟩)
    (hd1 : (⟨1, ![m]⟩ : Shape).BroadcastsInDim ⟨2, ![m, 1]⟩ ![0])
    (hd2 : (⟨2, ![m, 1]⟩ : Shape).BroadcastsInDim ⟨2, ![m, n]⟩ ![0, 1]) :
    broadcastTo ⟨2, ![m, n]⟩ (shapeCast ⟨2, ![m, 1]⟩ x h1) hb
      = broadcastInDim ⟨2, ![m, n]⟩ ![0, 1] hd2 (broadcastInDim ⟨2, ![m, 1]⟩ ![0] hd1 x) := by
  funext i
  obtain ⟨r, t, rfl⟩ : ∃ (r : Fin m) (t : Fin n), i = ix2 r t := ⟨i 0, i 1, eq_ix2 i⟩
  have hr : r.val = if m = 1 then 0 else r.val := by
    split
    · have := r.isLt; omega
    · rfl
  have e1 := broadcastTo_apply (shapeCast ⟨2, ![m, 1]⟩ x h1) hb (ix2 r t) (ix2 r (0 : Fin 1)) (by
    intro a
    match a with
    | ⟨0, _⟩ => exact hr
    | ⟨1, _⟩ => rfl)
  have e2 := shapeCast_apply x h1 (ix2 r (0 : Fin 1)) (ix1 r) (by
    rw [Shape.rowMajor_val_two, Shape.rowMajor_val_one]; show r.val = r.val * 1 + 0; omega)
  have e3 := broadcastInDim_apply ![0, 1] hd2 (broadcastInDim ⟨2, ![m, 1]⟩ ![0] hd1 x) (ix2 r t) (ix2 r (0 : Fin 1)) (by
    intro a
    match a with
    | ⟨0, _⟩ => exact hr
    | ⟨1, _⟩ => rfl)
  have e4 := broadcastInDim_apply ![0] hd1 x (ix2 r (0 : Fin 1)) (ix1 r) (by
    intro a
    match a with
    | ⟨0, _⟩ => exact hr)
  exact e1.trans (e2.trans (e3.trans e4).symm)

end Layout

/-! ## The row maximum: the kernel's reduction is the host's -/

/-- A maximum over one axis from an accumulator word is the host's reduce with a maximum body from the constant with
    that word: both are the fold of `max` over that axis's coordinates. -/
private theorem maxR {s t u : Shape} {a : Fin s.rank} (src : FVec Ideal s .f32) (acc : BitVec 32)
    (h : s.Reduces [a] t) (hφ : FKind.Formats .f32) (hacc : acc = FKind.maximumf.neutral .f32 hφ)
    (h' : s.ReducesTo [a] t) (hu : 0 < u.numel) :
    multiReduction .maximumf [a] t src acc h hφ hacc
      = Host.reduce FloatOps.maximumf src (constant u .f32 acc) h' hu := by
  funext j
  rw [Ideal.multiReduction_maximumf_single src acc h hφ hacc j,
    Host.reduce_eq_fold_single FloatOps.maximumf src _ h' h hu j]
  rfl

/-! ## The kernel's stages, named -/

section Stages
open Cert.KernelIdeal Cert.KernelIdeal.Facts₀

/-- The hidden layer as the kernel computes it. -/
private def kz1 (p : FVec Ideal S128x64 .f32) (x8 : FVec Ideal S64x10 .f32) (x9 : FVec Ideal S10 .f32) : FVec Ideal S128x10 .f32 :=
  maximumf (addf (matmul dot_S128x64_S64x10_S128x10_1_0_0_1_n_n none (shapeCast S128x64 p shapeCasts_S128x64_S128x64) x8
        (constant S128x10 .f32 0x00000000#32))
      (broadcastTo S128x10 (shapeCast S1x10 x9 shapeCasts_S10_S1x10) broadcasts_S1x10_S128x10))
    (broadcast S128x10 (Scalar.ofBits .f32 0x00000000#32))

/-- The logits as the kernel computes them. -/
private def kz2 (z1 : FVec Ideal S128x10 .f32) (x10 : FVec Ideal S10x10 .f32) (x11 : FVec Ideal S10 .f32) : FVec Ideal S128x10 .f32 :=
  addf (matmul dot_S128x10_S10x10_S128x10_1_0_0_1_n_n none z1 x10 (constant S128x10 .f32 0x00000000#32))
    (broadcastTo S128x10 (shapeCast S1x10 x11 shapeCasts_S10_S1x10) broadcasts_S1x10_S128x10)

/-- The row maxima as the kernel computes them. -/
private def kmx (z2 : FVec Ideal S128x10 .f32) : FVec Ideal S128 .f32 :=
  maximumf (broadcast S128 (Scalar.ofBits .f32 0xFF800000#32))
    (multiReduction .maximumf [1] S128 z2 0xFF800000#32 reduces_S128x10_S128 (.inl rfl) rfl)

/-- The shifted exponentials as the kernel computes them. -/
private def kex (z2 : FVec Ideal S128x10 .f32) : FVec Ideal S128x10 .f32 :=
  exp (subf z2 (broadcastTo S128x10 (shapeCast S128x1 (kmx z2) shapeCasts_S128_S128x1) broadcasts_S128x1_S128x10))

/-- The softmax as the kernel computes it. -/
private def ksm (z2 : FVec Ideal S128x10 .f32) : FVec Ideal S128x10 .f32 :=
  divf (kex z2) (broadcastTo S128x10 (shapeCast S128x1
    (multiReduction .add [1] S128 (kex z2) 0x00000000#32 reduces_S128x10_S128 (.inl rfl) rfl) shapeCasts_S128_S128x1)
    broadcasts_S128x1_S128x10)

/-- The payload is the composition of the stages. -/
private theorem pay_eq (p : Vec Ideal S128x64 .f32) (x8 : Vec Ideal S64x10 .f32) (x9 : Vec Ideal S10 .f32)
    (x10 : Vec Ideal S10x10 .f32) (x11 : Vec Ideal S10 .f32) :
    Gen.k2_pay1 (F := Ideal) p x8 x9 x10 x11 = ksm (kz2 (kz1 p x8 x9) x10 x11) := rfl

end Stages

private theorem hz2 : (![0, 0] : Fin 2 → Nat) = fun _ => 0 := funext fun a => by fin_cases a <;> rfl
private theorem hz1 : (![0] : Fin 1 → Nat) = fun _ => 0 := funext fun a => by fin_cases a; rfl

/-- Every access of the body is the whole buffer. -/
private theorem out_eq_pay (p : Vec Ideal Cert.KernelIdeal.S128x64 .f32) (x8 : Vec Ideal Cert.KernelIdeal.S64x10 .f32)
    (x9 : Vec Ideal Cert.KernelIdeal.S10 .f32) (x10 : Vec Ideal Cert.KernelIdeal.S10x10 .f32)
    (x11 : Vec Ideal Cert.KernelIdeal.S10 .f32) :
    Cert.KernelIdeal.Gen.out2_5 (F := Ideal) p x8 x9 x10 x11
      = Cert.KernelIdeal.Gen.k2_pay1 (F := Ideal) p x8 x9 x10 x11 := by
  unfold Cert.KernelIdeal.Gen.out2_5
  rw [View.canon_unit_zero hz2]
  simp only [View.ld_unit_zero (S := Cert.KernelIdeal.S128x64) hz2, View.ld_unit_zero (S := Cert.KernelIdeal.S64x10) hz2,
    View.ld_unit_zero (S := Cert.KernelIdeal.S10x10) hz2, View.ld_unit_zero (S := Cert.KernelIdeal.S10) hz1]

/-! ## Stage by stage, the kernel's value is the reference's -/

section Meet
open Cert.ReferenceIdeal Cert.ReferenceIdeal.Facts₀ Cert.ReferenceIdeal.RefValue

private theorem z1_eq (p : Ff (F := Ideal) S128x64) (x8 : Ff (F := Ideal) S64x10) (x9 : Ff (F := Ideal) S10) :
    kz1 p x8 x9 = tz1 (F := Ideal) p x8 x9 := by
  unfold kz1 tz1
  rw [shapeCast_self, matmul_zero_eq_dotGeneral, rowB x9 _ _ bcast_S10_S1x10_1 bcast_S1x10_S128x10_0_1,
    broadcastInDim_constant]
  rfl

private theorem z2_eq (z1 : Ff (F := Ideal) S128x10) (x10 : Ff (F := Ideal) S10x10) (x11 : Ff (F := Ideal) S10) :
    kz2 z1 x10 x11 = tz2 (F := Ideal) z1 x10 x11 := by
  unfold kz2 tz2
  rw [matmul_zero_eq_dotGeneral, rowB x11 _ _ bcast_S10_S1x10_1 bcast_S1x10_S128x10_0_1]
  rfl

private theorem mx_eq (z2 : Ff (F := Ideal) S128x10) : kmx z2 = tmx (F := Ideal) z2 := by
  unfold kmx tmx
  have e := maxR (s := KernelIdeal.S128x10) (t := KernelIdeal.S128) (u := S_) (a := 1) z2 0xFF800000#32
    KernelIdeal.Facts₀.reduces_S128x10_S128 (.inl rfl) rfl reducesTo_S128x10_S128_d1 h_S_
  rw [e, broadcastInDim_constant]

private theorem ex_eq (z2 : Ff (F := Ideal) S128x10) : kex z2 = tex (F := Ideal) z2 := by
  unfold kex tex
  rw [mx_eq, colB (tmx (F := Ideal) z2) _ _ bcast_S128_S128x1_0 bcast_S128x1_S128x10_0_1]
  rfl

private theorem sm_eq (z2 : Ff (F := Ideal) S128x10) : ksm z2 = tsm (F := Ideal) z2 := by
  unfold ksm tsm
  have e := multiReduction_add_eq_hostReduceAdd (s := KernelIdeal.S128x10) (t := KernelIdeal.S128) (u := S_) (a := 1)
    (tex (F := Ideal) z2) 0x00000000#32 KernelIdeal.Facts₀.reduces_S128x10_S128 (.inl rfl) rfl
    (constant S_ .f32 0x00000000#32) reducesTo_S128x10_S128_d1 h_S_ Ideal.ofBits_zero_f32
  rw [ex_eq, e, colB _ _ _ bcast_S128_S128x1_0 bcast_S128x1_S128x10_0_1]
  rfl

end Meet

/-- The kernel's third call, on a whole pooled array, computes the reference's head. -/
theorem tail_eq (p : Vec Ideal Cert.KernelIdeal.S128x64 .f32) (x8 : Vec Ideal Cert.KernelIdeal.S64x10 .f32)
    (x9 : Vec Ideal Cert.KernelIdeal.S10 .f32) (x10 : Vec Ideal Cert.KernelIdeal.S10x10 .f32)
    (x11 : Vec Ideal Cert.KernelIdeal.S10 .f32) :
    Cert.KernelIdeal.Gen.out2_5 (F := Ideal) p x8 x9 x10 x11
      = Cert.ReferenceIdeal.RefValue.refTail (F := Ideal) p x8 x9 x10 x11 := by
  rw [out_eq_pay, pay_eq, z1_eq, z2_eq, sm_eq]
  rfl

end Cert.Tail

end
-- ==== Proof.Finite.lean ====
import proofs.«411394_j16045997818200_2_alg».proof.Pre_finite_inputs
import proofs.«411394_j16045997818200_2_alg».proof.Proof.Gen.Pre_finite_inputs
import proofs.«411394_j16045997818200_2_alg».proof.Proof.Spec
import Idealize.ShloMosaic.Lib.ReduceAll

noncomputable section

namespace Cert.Finite

open Cert.Pre_finite_inputs Cert.Pre_finite_inputs.Facts Idealize.ShloMosaic Idealize.ShloMosaic.ValueIdx Cert.GraphPool

/-- The rank-0 shape has one index. -/
private instance : Subsingleton S_.Idx := ⟨fun a b => funext fun d => d.elim0⟩

/-- The word `0x7F800000` (sign 0, exponent field all ones, fraction 0) denotes `+∞`. -/
private theorem inf_eq : Ideal.ofBits .f32 0x7F800000#32 = (⊤ : EReal) := by
  simp [Ideal.ofBits, Ideal.ieee]

/-- An extended real `x` with `max x (-x) < ⊤` is neither `⊤` nor `⊥`: it is a real number. -/
private theorem isR_of_abs_lt_top (x : EReal) (h : max x (-x) < ⊤) : IsR x := by
  induction x using EReal.rec with
  | bot => exact absurd h (by simp)
  | top => exact absurd h (by simp)
  | coe r => exact ⟨r, rfl⟩

/-- One entry of the comparison `|x| < +∞` being the word 1 says that entry of `x` is real. -/
private theorem isR_of_entry {s : Shape} (x : FVec Ideal s .f32) (b : S_.BroadcastsInDim s (![] : Fin 0 → Fin s.rank))
    (i : s.Idx)
    (h : cmpf .olt (Host.absf x) (broadcastInDim s ![] b (constant S_ .f32 0x7F800000#32)) i = 1#1) : IsR (x i) := by
  have h' : Ideal.cmp .olt (max (x i) (-(x i))) (Ideal.ofBits .f32 0x7F800000#32) = 1#1 := h
  rw [inf_eq] at h'
  refine isR_of_abs_lt_top (x i) ?_
  by_contra hn
  simp [Ideal.cmp, hn] at h'

/-- A conjunction of two one-bit results at the one index is 1 exactly when both are. -/
private theorem andi_ix0 (a b : IVec S_ 1) : andi a b ix0 = 1#1 ↔ a ix0 = 1#1 ∧ b ix0 = 1#1 :=
  IntOp.andi_eq_one

/-- Under the precondition (every float input has absolute value below +inf) the features and the two
    convolution layers' weights and first bias are real numbers. -/
theorem real_of_pre (x0 : FVec Ideal S100000x128 .f32) (x1 x2 : IVec S1600000 32) (x3 : IVec S100000 32)
    (x4 : FVec Ideal S128x128 .f32) (x5 : FVec Ideal S128 .f32) (x6 : FVec Ideal S128x64 .f32) (x7 : FVec Ideal S64 .f32)
    (x8 : FVec Ideal S64x10 .f32) (x9 : FVec Ideal S10 .f32) (x10 : FVec Ideal S10x10 .f32) (x11 : FVec Ideal S10 .f32)
    (h : Cert.Pre_finite_inputs.fn (F := Ideal) x0 x1 x2 x3 x4 x5 x6 x7 x8 x9 x10 x11 = fun _ => 1#1) :
    (∀ i, IsR (x0 i)) ∧ (∀ i, IsR (x4 i)) ∧ (∀ i, IsR (x5 i)) ∧ (∀ i, IsR (x6 i)) := by
  have e := congrFun h ix0
  dsimp only [Cert.Pre_finite_inputs.fn, fn_part1, fn_part2] at e
  simp only [andi_ix0] at e
  obtain ⟨⟨⟨⟨⟨⟨⟨⟨h0, h4⟩, h5⟩, h6⟩, -⟩, -⟩, -⟩, -⟩, -⟩ := e
  exact ⟨fun i => isR_of_entry x0 _ i (Host.reduce_andi_all _ _ _ _ ix0 h0 i),
    fun i => isR_of_entry x4 _ i (Host.reduce_andi_all _ _ _ _ ix0 h4 i),
    fun i => isR_of_entry x5 _ i (Host.reduce_andi_all _ _ _ _ ix0 h5 i),
    fun i => isR_of_entry x6 _ i (Host.reduce_andi_all _ _ _ _ ix0 h6 i)⟩

end Cert.Finite

end
-- ==== Proof.lean ====
/-
  A two-layer graph convolution (DGL's GraphConv with both-side degree normalisation), a per-graph mean and a
  two-layer classifier with a row softmax, over 100000 nodes, 1600000 edges and 128 graphs.

  The reference computes, per layer, relu( ((Σ_{e → n} Z[src e] · rO[src e]) · rI n) · W + b ) with rO, rI the inverse
  square roots of the clipped out- and in-degrees, then scatters the node features into per-graph sums and counts.
  The kernel program gathers and scales the source rows on the edge array, applies the destination scale after the
  first product with W1, multiplies by W2 BEFORE the second edge sum (a sum of rows commutes with a product on the
  right by a matrix), and takes the per-graph sums and counts as products with the 0/1 membership matrix, accumulated
  over ten row blocks.  On extended reals these rearrangements need the summands to be real numbers, which the
  precondition gives for the features and the convolution weights; the degree scales are real because a clipped
  degree is at least one.  From the pooled array on, both programs apply the same classifier head.

  The modules: Spec (the two chains as formulas), Algebra (they agree), Decode (what a row gather and a row
  scatter-add read at an index), KTerms / KRead / HostRead (the kernel program's host stretches), KRegion0..2 (the
  three calls' results as whole arrays), KValue (the result buffer as one function of the arguments), RefValue /
  RefTail (the reference read at an index), Tail (the shared head), Bridge (the pooled arrays agree), Finite (the
  precondition read), KRunFrame (the launch, with the result buffer named).
-/
import proofs.«411394_j16045997818200_2_alg».proof.Defs
import proofs.«411394_j16045997818200_2_alg».proof.Proof.Gen.Kernel
import proofs.«411394_j16045997818200_2_alg».proof.Proof.Gen.Kernel.Frame
import proofs.«411394_j16045997818200_2_alg».proof.Proof.Gen.KernelIdeal
import proofs.«411394_j16045997818200_2_alg».proof.Proof.Gen.KernelIdeal.Frame
import proofs.«411394_j16045997818200_2_alg».proof.Proof.Gen.ReferenceIdeal
import proofs.«411394_j16045997818200_2_alg».proof.Proof.Gen.ReferenceIdeal.Run
import proofs.«411394_j16045997818200_2_alg».proof.Proof.Gen.ReferenceIdeal.Read
import proofs.«411394_j16045997818200_2_alg».proof.Proof.Gen.Pre_finite_inputs
import proofs.«411394_j16045997818200_2_alg».proof.Proof.KRunFrame
import proofs.«411394_j16045997818200_2_alg».proof.Proof.KValue
import proofs.«411394_j16045997818200_2_alg».proof.Proof.Bridge
import proofs.«411394_j16045997818200_2_alg».proof.Proof.Tail
import proofs.«411394_j16045997818200_2_alg».proof.Proof.RefTail
import proofs.«411394_j16045997818200_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On inputs satisfying the precondition the kernel program's result, as a function of the arguments, is the
    reference's: the pooled arrays agree (the features and convolution weights being real), and the head is shared. -/
theorem kernel_eq_ref (x0 : Cert.KernelIdeal.KT.Ff (F := Ideal) Cert.KernelIdeal.S100000x128) (x1 x2 : Cert.KernelIdeal.KT.Fi (F := Ideal) Cert.KernelIdeal.S1600000)
    (x3 : Cert.KernelIdeal.KT.Fi (F := Ideal) Cert.KernelIdeal.S100000) (x4 : Cert.KernelIdeal.KT.Ff (F := Ideal) Cert.KernelIdeal.S128x128) (x5 : Cert.KernelIdeal.KT.Ff (F := Ideal) Cert.KernelIdeal.S128)
    (x6 : Cert.KernelIdeal.KT.Ff (F := Ideal) Cert.KernelIdeal.S128x64) (x7 : Cert.KernelIdeal.KT.Ff (F := Ideal) Cert.KernelIdeal.S64) (x8 : Cert.KernelIdeal.KT.Ff (F := Ideal) Cert.KernelIdeal.S64x10)
    (x9 : Cert.KernelIdeal.KT.Ff (F := Ideal) Cert.KernelIdeal.S10) (x10 : Cert.KernelIdeal.KT.Ff (F := Ideal) Cert.KernelIdeal.S10x10) (x11 : Cert.KernelIdeal.KT.Ff (F := Ideal) Cert.KernelIdeal.S10)
    (hpre : Cert.Pre_finite_inputs.fn (F := Ideal) x0 x1 x2 x3 x4 x5 x6 x7 x8 x9 x10 x11 = fun _ => 1#1) :
    Cert.KernelIdeal.Value.KV x0 x1 x2 x3 x4 x5 x6 x7 x8 x9 x10 x11
      = Cert.ReferenceIdeal.Read.val_main_v94 (F := Ideal) x0 x1 x2 x3 x4 x5 x6 x7 x8 x9 x10 x11 := by
  obtain ⟨h0, h4, h5, h6⟩ := Cert.Finite.real_of_pre x0 x1 x2 x3 x4 x5 x6 x7 x8 x9 x10 x11 hpre
  rw [Cert.ReferenceIdeal.RefValue.val_v94_eq_refTail, ← Cert.Bridge.pooled_eq x0 x1 x2 x3 x4 x5 x6 x7 h0 h4 h5 h6]
  exact Cert.Tail.tail_eq _ x8 x9 x10 x11

/-- Both idealized programs run; the kernel program's result buffer ends at its function of the arguments, the
    reference's at its own, and the two functions agree on the precondition. -/
theorem algebraic : Cert.algebraic_KernelIdeal_ReferenceIdeal := by
  intro m ρ m' ρ' hpre hagree
  refine ⟨fun c => Cert.KernelIdeal.Value.KV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Value.W12_v51 m ρ c), (h c).2⟩) (Cert.KernelIdeal.Run.run_result (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v94_eq]
    obtain ⟨e0, e1, e2, e3, e4, e5, e6, e7, e8, e9, e10, e11⟩ := hagree c
    rw [e0, e1, e2, e3, e4, e5, e6, e7, e8, e9, e10, e11]
    exact (kernel_eq_ref _ _ _ _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
